-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S16384x128 : Shape := ⟨2, ![16384, 128]⟩
abbrev S4096 : Shape := ⟨1, ![4096]⟩
abbrev S_ : Shape := ⟨0, ![]⟩
abbrev S16384 : Shape := ⟨1, ![16384]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  reducesTo_S4096x128_S4096_d1 : S4096x128.ReducesTo [1] S4096
  bcast_S_S4096 : S_.BroadcastsInDim S4096 (![] : Fin 0 → Fin S4096.rank)
  reducesTo_S4096_S_d0 : S4096.ReducesTo [0] S_
  reducesTo_S16384x128_S16384_d1 : S16384x128.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_arg2 : IVec S4096 32) (main_v14 : IVec S_ 1) (main_v15 : FVec F S16384x128 .f32) (main_cst_5 : FVec F S_ .f32) : IVec S_ 1 :=
  let main_v16 : FVec F S16384 .f32 := (fun x v => Host.reduceAdd x v reducesTo_S16384x128_S16384_d1 h_S_) main_v15 main_cst_5
  let main_cst_6 : FVec F S_ .f32 := constant S_ .f32 0x00000000#32
  let main_v17 : FVec F S16384 .f32 := broadcastInDim S16384 ![] bcast_S_S16384 main_cst_6
  let main_v18 : IVec S16384 1 := cmpf .ogt main_v16 main_v17
  let main_c_7 : IVec S_ 1 := constantI S_ 1 1#1
  let main_v19 : IVec S_ 1 := (fun x v => Host.reduce IntOp.andi x v reducesTo_S16384_S_d0 h_S_) main_v18 main_c_7
  let main_v20 : IVec S_ 1 := andi main_v14 main_v19
  let main_c_8 : IVec S_ 32 := constantI S_ 32 0#32
  let main_v21 : IVec S4096 32 := broadcastInDim S4096 ![] bcast_S_S4096 main_c_8
  let main_v22 : IVec S4096 1 := cmpi .sge main_arg2 main_v21
  let main_c_9 : IVec S_ 32 := constantI S_ 32 16384#32
  let main_v23 : IVec S4096 32 := broadcastInDim S4096 ![] bcast_S_S4096 main_c_9
  let main_v24 : IVec S4096 1 := cmpi .slt main_arg2 main_v23
  let main_v25 : IVec S4096 1 := andi main_v22 main_v24
  let main_c_10 : IVec S_ 1 := constantI S_ 1 1#1
  let main_v26 : IVec S_ 1 := (fun x v => Host.reduce IntOp.andi x v reducesTo_S4096_S_d0 h_S_) main_v25 main_c_10
  let main_v27 : IVec S_ 1 := andi main_v20 main_v26
  main_v27

def fn {F : FTy → Type} [FloatOps F] (main_arg0 : FVec F S4096x128 .f32) (main_arg1 : FVec F S16384x128 .f32) (main_arg2 : IVec S4096 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S4096x128 .f32 := mulf main_arg0 main_arg0
  let main_cst_2 : FVec F S_ .f32 := constant S_ .f32 0x00000000#32
  let main_v10 : FVec F S4096 .f32 := (fun x v => Host.reduceAdd x v reducesTo_S4096x128_S4096_d1 h_S_) main_v9 main_cst_2
  let main_cst_3 : FVec F S_ .f32 := constant S_ .f32 0x00000000#32
  let main_v11 : FVec F S4096 .f32 := broadcastInDim S4096 ![] bcast_S_S4096 main_cst_3
  let main_v12 : IVec S4096 1 := cmpf .ogt main_v10 main_v11
  let main_c_4 : IVec S_ 1 := constantI S_ 1 1#1
  let main_v13 : IVec S_ 1 := (fun x v => Host.reduce IntOp.andi x v reducesTo_S4096_S_d0 h_S_) main_v12 main_c_4
  let main_v14 : IVec S_ 1 := andi main_v8 main_v13
  let main_v15 : FVec F S16384x128 .f32 := mulf main_arg1 main_arg1
  let main_cst_5 : FVec F S_ .f32 := constant S_ .f32 0x00000000#32
  fn_part1 (F := F) main_arg2 main_v14 main_v15 main_cst_5
-- ==== Kernel.lean ====
abbrev S4096x128 : Shape := ⟨2, ![4096, 128]⟩
abbrev S16384x128 : Shape := ⟨2, ![16384, 128]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S20480x128 : Shape := ⟨2, ![20480, 128]⟩
abbrev S1x4096 : Shape := ⟨2, ![1, 4096]⟩
abbrev S1x20480 : Shape := ⟨2, ![1, 20480]⟩
abbrev S1x512 : Shape := ⟨2, ![1, 512]⟩
abbrev S512x128 : Shape := ⟨2, ![512, 128]⟩
abbrev S512 : Shape := ⟨1, ![512]⟩
abbrev S512x1 : Shape := ⟨2, ![512, 1]⟩
abbrev S4096x512 : Shape := ⟨2, ![4096, 512]⟩
abbrev S1x16384 : Shape := ⟨2, ![1, 16384]⟩
abbrev S16384 : Shape := ⟨1, ![16384]⟩

abbrev nBuf : Space → Nat
  | .hbm => 106
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S4096, .i32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x128, .f32⟩
  | .hbm, ⟨9, _⟩ => ⟨S4096x128, .f32⟩
  | .hbm, ⟨10, _⟩ => ⟨S4096x128, .bf16⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S1, .i32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S1x1, .i32⟩
  | .hbm, ⟨24, _⟩ => ⟨S4096x1, .i32⟩
  | .hbm, ⟨25, _⟩ => ⟨S4096x1, .i1⟩
  | .hbm, ⟨26, _⟩ => ⟨S4096x1, .i1⟩
  | .hbm, ⟨27, _⟩ => ⟨S_, .i1⟩
  | .hbm, ⟨28, _⟩ => ⟨S4096, .i1⟩
  | .hbm, ⟨29, _⟩ => ⟨S4096x128, .f32⟩
  | .hbm, ⟨30, _⟩ => ⟨S4096x128, .i1⟩
  | .hbm, ⟨31, _⟩ => ⟨S_, .f32⟩
  | .hbm, ⟨32, _⟩ => ⟨S4096x128, .f32⟩
  | .hbm, ⟨33, _⟩ => ⟨S4096x128, .f32⟩
  | .hbm, ⟨34, _⟩ => ⟨S20480x128, .f32⟩
  | .hbm, ⟨35, _⟩ => ⟨S4096x1, .i32⟩
  | .hbm, ⟨36, _⟩ => ⟨S1x4096, .i32⟩
  | .hbm, ⟨37, _⟩ => ⟨S1x20480, .f32⟩
  | .hbm, ⟨38, _⟩ => ⟨S1x20480, .f32⟩
  | .hbm, ⟨39, _⟩ => ⟨S1x4096, .f32⟩
  | .hbm, ⟨40, _⟩ => ⟨S4096, .f32⟩
  | .hbm, ⟨41, _⟩ => ⟨S1x16384, .f32⟩
  | .hbm, ⟨42, _⟩ => ⟨S16384, .f32⟩
  | .hbm, ⟨43, _⟩ => ⟨S1x4096, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .i1⟩
  | .hbm, ⟨48, _⟩ => ⟨S1x16384, .f32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384, .i1⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S4096, .i1⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S16384, .f32⟩
  | .hbm, ⟨72, _⟩ => ⟨S16384, .i1⟩
  | .hbm, ⟨73, _⟩ => ⟨S16384, .f32⟩
  | .hbm, ⟨74, _⟩ => ⟨S16384, .f32⟩
  | .hbm, ⟨75, _⟩ => ⟨S16384, .f32⟩
  | .hbm, ⟨76, _⟩ => ⟨S16384, .f32⟩
  | .hbm, ⟨77, _⟩ => ⟨S16384, .f32⟩
  | .hbm, ⟨78, _⟩ => ⟨S16384, .f32⟩
  | .hbm, ⟨79, _⟩ => ⟨S16384, .f32⟩
  | .hbm, ⟨80, _⟩ => ⟨S16384, .f32⟩
  | .hbm, ⟨81, _⟩ => ⟨S_, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S_, .f32⟩
  | .hbm, ⟨86, _⟩ => ⟨S_, .f32⟩
  | .hbm, ⟨87, _⟩ => ⟨S4096, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S16384, .f32⟩
  | .hbm, ⟨96, _⟩ => ⟨S16384, .f32⟩
  | .hbm, ⟨97, _⟩ => ⟨S_, .f32⟩
  | .hbm, ⟨98, _⟩ => ⟨S_, .f32⟩
  | .hbm, ⟨99, _⟩ => ⟨S16384, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .local _ .vmem, ⟨0, _⟩ => ⟨S4096x128, .bf16⟩
  | .local _ .vmem, ⟨1, _⟩ => ⟨S4096x1, .i32⟩
  | .local _ .vmem, ⟨2, _⟩ => ⟨S1x512, .i32⟩
  | .local _ .vmem, ⟨3, _⟩ => ⟨S1x512, .i32⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_call1_cst : Ref sig .tc := ⟨.hbm, 31, rfl⟩
abbrev main_call1_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8_0 : Ref sig .tc := ⟨.hbm, 37, rfl⟩
abbrev main_v8_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_0 : Ref sig .tc := ⟨.hbm, 50, rfl⟩
abbrev main_v19 : Ref sig .tc := ⟨.hbm, 51, rfl⟩
abbrev main_v20 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_v21 : Ref sig .tc := ⟨.hbm, 66, rfl⟩
abbrev main_call3_cst : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_v22 : Ref sig .tc := ⟨.hbm, 80, rfl⟩
abbrev main_cst_1 : Ref sig .tc := ⟨.hbm, 81, rfl⟩
abbrev main_call4_v0 : Ref sig .tc := ⟨.hbm, 82, rfl⟩
abbrev main_call4_v1 : Ref sig .tc := ⟨.hbm, 83, rfl⟩
abbrev main_v23 : Ref sig .tc := ⟨.hbm, 84, rfl⟩
abbrev main_cst_2 : Ref sig .tc := ⟨.hbm, 85, rfl⟩
abbrev main_v24 : Ref sig .tc := ⟨.hbm, 86, rfl⟩
abbrev main_v25 : Ref sig .tc := ⟨.hbm, 87, rfl⟩
abbrev main_cst_3 : Ref sig .tc := ⟨.hbm, 88, rfl⟩
abbrev main_v26 : Ref sig .tc := ⟨.hbm, 89, rfl⟩
abbrev main_cst_4 : Ref sig .tc := ⟨.hbm, 90, rfl⟩
abbrev main_v27 : Ref sig .tc := ⟨.hbm, 91, rfl⟩
abbrev main_v28 : Ref sig .tc := ⟨.hbm, 92, rfl⟩
abbrev main_cst_5 : Ref sig .tc := ⟨.hbm, 93, rfl⟩
abbrev main_call5_v0 : Ref sig .tc := ⟨.hbm, 94, rfl⟩
abbrev main_call5_v1 : Ref sig .tc := ⟨.hbm, 95, rfl⟩
abbrev main_v29 : Ref sig .tc := ⟨.hbm, 96, rfl⟩
abbrev main_cst_6 : Ref sig .tc := ⟨.hbm, 97, rfl⟩
abbrev main_v30 : Ref sig .tc := ⟨.hbm, 98, rfl⟩
abbrev main_v31 : Ref sig .tc := ⟨.hbm, 99, rfl⟩
abbrev main_cst_7 : Ref sig .tc := ⟨.hbm, 100, rfl⟩
abbrev main_v32 : Ref sig .tc := ⟨.hbm, 101, rfl⟩
abbrev main_cst_8 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bitsLt_bf16_f32 : FTy.bits .bf16 < FTy.bits .f32
  bcast_S_S4096 : S_.BroadcastsInDim S4096 (![] : Fin 0 → Fin S4096.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x128_0 : S4096.BroadcastsInDim S4096x128 (![0] : Fin 1 → Fin S4096x128.rank)
  bcast_S_S4096x128 : S_.BroadcastsInDim S4096x128 (![] : Fin 0 → Fin S4096x128.rank)
  concatenates_S4096x128_S16384x128_S20480x128_d0 : Shape.Concatenates [S4096x128, S16384x128] S20480x128 0
  shapeCasts_S4096_S4096x1 : S4096.ShapeCasts S4096x1
  shapeCasts_S4096_S1x4096 : S4096.ShapeCasts S1x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  broadcasts_S512x1_S512x128 : S512x1.Broadcasts S512x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S4096x1_S4096x512 : S4096x1.Broadcasts S4096x512
  broadcasts_S1x512_S4096x512 : S1x512.Broadcasts S4096x512
  reduces_S4096x512_S512 : S4096x512.Reduces [0] S512
  shapeCasts_S512_S1x512 : S512.ShapeCasts S1x512
  natLt_1_32 : 1 < 32
  iota_S1x512_d1_w32 : S1x512.Iotas .tc 32 [1]
  slices_S1x20480_S1x4096_0_0 : S1x20480.Slices ![0, 0] S1x4096
  shapeCasts_S1x4096_S4096 : S1x4096.ShapeCasts S4096
  slices_S1x20480_S1x16384_0_4096 : S1x20480.Slices ![0, 4096] S1x16384
  shapeCasts_S1x16384_S16384 : S1x16384.ShapeCasts S16384
  bcast_S_S16384 : S_.BroadcastsInDim S16384 (![] : Fin 0 → Fin S16384.rank)
  reducesTo_S4096_S_d0 : S4096.ReducesTo [0] S_
  reducesTo_S16384_S_d0 : S16384.ReducesTo [0] S_
  gather_S16384x128_S4096x1_S4096x128_1_0_n_n_0_1_1128_wf : GatherDims.WF S16384x128 S4096x1 S4096x128 [1] [0] [] [0] [] 1 ![1, 128]
  dot_S4096x128_S512x128_S4096x512_1_1_0_0_n_n_wf : DotDims.WF S4096x128 S512x128 S4096x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .bf16 = 32 ∨ (Rect.block (s := S4096x128) S4096x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .i32 = 32 ∨ (Rect.block (s := S4096x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .i32 = 32 ∨ (Rect.block (s := S1x4096) S1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S20480x128.size a
  hwx0_3 : ∀ i : grid0.Coords, EltTy.bits .f32 = 32 ∨ (Rect.block (s := S20480x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x20480.size a
  hwx0_4 : ∀ i : grid0.Coords, EltTy.bits .f32 = 32 ∨ (Rect.block (s := S1x20480) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x20480.size a
  hwx0_5 : ∀ i : grid0.Coords, EltTy.bits .f32 = 32 ∨ (Rect.block (s := S1x20480) S1x512.size (cc0_transform_5 i) (hinb0_5 i)).WholeWords (EltTy.packing .f32)

variable [Facts₀]

def gather_S16384x128_S4096x1_S4096x128_1_0_n_n_0_1_1128 : GatherDims S16384x128 S4096x1 S4096x128 where
  offsetDims := [1]
  collapsedSliceDims := [0]
  operandBatchingDims := []
  startIndicesBatchingDims := []
  startIndexMap := [0]
  indexVectorDim := 1
  sliceSizes := ![1, 128]
  wf := gather_S16384x128_S4096x1_S4096x128_1_0_n_n_0_1_1128_wf
def dot_S4096x128_S512x128_S4096x512_1_1_0_0_n_n : DotDims S4096x128 S512x128 S4096x512 where
  lhsContracting := [1]
  rhsContracting := [1]
  lhsNonContracting := [0]
  rhsNonContracting := [0]
  lhsBatch := []
  rhsBatch := []
  wf := dot_S4096x128_S512x128_S4096x512_1_1_0_0_n_n_wf

abbrev win0_0 : Pipeline.Window sig grid0 :=
  Pipeline.Window.ofSpec (Memref.whole main_v3) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S4096x128 : Shape := ⟨2, ![4096, 128]⟩
abbrev S16384x128 : Shape := ⟨2, ![16384, 128]⟩
abbrev S4096 : Shape := ⟨1, ![4096]⟩
abbrev S_ : Shape := ⟨0, ![]⟩
abbrev S4096x1 : Shape := ⟨2, ![4096, 1]⟩
abbrev S16384 : Shape := ⟨1, ![16384]⟩
abbrev S16384x1 : Shape := ⟨2, ![16384, 1]⟩
abbrev S128x4096 : Shape := ⟨2, ![128, 4096]⟩
abbrev S4096x4096 : Shape := ⟨2, ![4096, 4096]⟩
abbrev S128x16384 : Shape := ⟨2, ![128, 16384]⟩
abbrev S4096x16384 : Shape := ⟨2, ![4096, 16384]⟩
abbrev S1x4096 : Shape := ⟨2, ![1, 4096]⟩
abbrev S1x16384 : Shape := ⟨2, ![1, 16384]⟩

abbrev nBuf : Space → Nat
  | .hbm => 160
  | .vmem => 0
  | .smem => 0
  | _ => 0

abbrev hbmTy0_0 (i : Nat) : BufTy := match i % 128 with
  | 0 => ⟨S4096x128, .f32⟩
  | 1 => ⟨S16384x128, .f32⟩
  | 2 => ⟨S4096, .i32⟩
  | 3 => ⟨S4096x128, .f32⟩
  | 4 => ⟨S_, .f32⟩
  | 5 => ⟨S4096, .f32⟩
  | 6 => ⟨S4096x1, .f32⟩
  | 7 => ⟨S4096x1, .f32⟩
  | 8 => ⟨S4096x128, .f32⟩
  | 9 => ⟨S4096x128, .f32⟩
  | 10 => ⟨S16384x128, .f32⟩
  | 11 => ⟨S_, .f32⟩
  | 12 => ⟨S16384, .f32⟩
  | 13 => ⟨S16384x1, .f32⟩
  | 14 => ⟨S16384x1, .f32⟩
  | 15 => ⟨S16384x128, .f32⟩
  | 16 => ⟨S16384x128, .f32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S4096x128, .f32⟩
  | 26 => ⟨S128x4096, .f32⟩
  | 27 => ⟨S4096x4096, .f32⟩
  | 28 => ⟨S128x16384, .f32⟩
  | 29 => ⟨S4096x16384, .f32⟩
  | 30 => ⟨S4096x1, .i32⟩
  | 31 => ⟨S1x4096, .i32⟩
  | 32 => ⟨S4096x4096, .i32⟩
  | 33 => ⟨S4096x4096, .i32⟩
  | 34 => ⟨S4096x4096, .i1⟩
  | 35 => ⟨S4096x4096, .f32⟩
  | 36 => ⟨S4096x1, .i32⟩
  | 37 => ⟨S16384, .i32⟩
  | 38 => ⟨S1x16384, .i32⟩
  | 39 => ⟨S4096x16384, .i32⟩
  | 40 => ⟨S4096x16384, .i32⟩
  | 41 => ⟨S4096x16384, .i1⟩
  | 42 => ⟨S4096x16384, .f32⟩
  | 43 => ⟨S_, .f32⟩
  | 44 => ⟨S4096x4096, .f32⟩
  | 45 => ⟨S4096x4096, .f32⟩
  | 46 => ⟨S_, .f32⟩
  | 47 => ⟨S4096x4096, .f32⟩
  | 48 => ⟨S4096x4096, .f32⟩
  | 49 => ⟨S_, .f32⟩
  | 50 => ⟨S4096x16384, .f32⟩
  | 51 => ⟨S4096x16384, .f32⟩
  | 52 => ⟨S_, .f32⟩
  | 53 => ⟨S4096x16384, .f32⟩
  | 54 => ⟨S4096x16384, .f32⟩
  | 55 => ⟨S4096x4096, .f32⟩
  | 56 => ⟨S_, .f32⟩
  | 57 => ⟨S4096, .f32⟩
  | 58 => ⟨S1x4096, .f32⟩
  | 59 => ⟨S_, .f32⟩
  | 60 => ⟨S4096, .f32⟩
  | 61 => ⟨S_, .f32⟩
  | 62 => ⟨S4096, .f32⟩
  | 63 => ⟨S4096, .f32⟩
  | 64 => ⟨S_, .f32⟩
  | 65 => ⟨S4096, .f32⟩
  | 66 => ⟨S4096, .i1⟩
  | 67 => ⟨S4096x4096, .f32⟩
  | 68 => ⟨S4096x4096, .f32⟩
  | 69 => ⟨S4096x4096, .f32⟩
  | 70 => ⟨S4096x4096, .f32⟩
  | 71 => ⟨S_, .f32⟩
  | 72 => ⟨S4096, .f32⟩
  | 73 => ⟨S_, .f32⟩
  | 74 => ⟨S_, .f32⟩
  | 75 => ⟨S4096, .f32⟩
  | 76 => ⟨S4096, .f32⟩
  | 77 => ⟨S4096, .f32⟩
  | 78 => ⟨S4096, .f32⟩
  | 79 => ⟨S4096, .f32⟩
  | 80 => ⟨S4096x16384, .f32⟩
  | 81 => ⟨S_, .f32⟩
  | 82 => ⟨S16384, .f32⟩
  | 83 => ⟨S1x16384, .f32⟩
  | 84 => ⟨S_, .f32⟩
  | 85 => ⟨S16384, .f32⟩
  | 86 => ⟨S_, .f32⟩
  | 87 => ⟨S16384, .f32⟩
  | 88 => ⟨S16384, .f32⟩
  | 89 => ⟨S_, .f32⟩
  | 90 => ⟨S16384, .f32⟩
  | 91 => ⟨S16384, .i1⟩
  | 92 => ⟨S4096x16384, .f32⟩
  | 93 => ⟨S4096x16384, .f32⟩
  | 94 => ⟨S4096x16384, .f32⟩
  | 95 => ⟨S4096x16384, .f32⟩
  | 96 => ⟨S_, .f32⟩
  | 97 => ⟨S16384, .f32⟩
  | 98 => ⟨S_, .f32⟩
  | 99 => ⟨S_, .f32⟩
  | 100 => ⟨S16384, .f32⟩
  | 101 => ⟨S16384, .f32⟩
  | 102 => ⟨S16384, .f32⟩
  | 103 => ⟨S16384, .f32⟩
  | 104 => ⟨S16384, .f32⟩
  | 105 => ⟨S_, .f32⟩
  | 106 => ⟨S4096, .f32⟩
  | 107 => ⟨S4096, .f32⟩
  | 108 => ⟨S4096, .f32⟩
  | 109 => ⟨S4096, .f32⟩
  | 110 => ⟨S4096, .i1⟩
  | 111 => ⟨S4096, .f32⟩
  | 112 => ⟨S4096, .f32⟩
  | 113 => ⟨S4096, .f32⟩
  | 114 => ⟨S4096, .f32⟩
  | 115 => ⟨S4096, .f32⟩
  | 116 => ⟨S4096, .f32⟩
  | 117 => ⟨S4096, .f32⟩
  | 118 => ⟨S4096, .f32⟩
  | 119 => ⟨S_, .f32⟩
  | 120 => ⟨S16384, .f32⟩
  | 121 => ⟨S16384, .f32⟩
  | 122 => ⟨S16384, .f32⟩
  | 123 => ⟨S16384, .f32⟩
  | 124 => ⟨S16384, .i1⟩
  | 125 => ⟨S16384, .f32⟩
  | 126 => ⟨S16384, .f32⟩
  | 127 => ⟨S16384, .f32⟩
  | _ => ⟨S4096x128, .f32⟩

abbrev hbmTy0_1 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S_, .f32⟩
  | 6 => ⟨S_, .f32⟩
  | 7 => ⟨S4096, .f32⟩
  | 8 => ⟨S4096, .f32⟩
  | 9 => ⟨S_, .f32⟩
  | 10 => ⟨S_, .f32⟩
  | 11 => ⟨S4096, .i32⟩
  | 12 => ⟨S_, .i32⟩
  | 13 => ⟨S_, .i32⟩
  | 14 => ⟨S_, .i32⟩
  | 15 => ⟨S_, .i32⟩
  | 16 => ⟨S_, .f32⟩
  | 17 => ⟨S_, .f32⟩
  | 18 => ⟨S_, .f32⟩
  | 19 => ⟨S_, .f32⟩
  | 20 => ⟨S16384, .f32⟩
  | 21 => ⟨S16384, .f32⟩
  | 22 => ⟨S_, .f32⟩
  | 23 => ⟨S_, .f32⟩
  | 24 => ⟨S16384, .i32⟩
  | 25 => ⟨S_, .i32⟩
  | 26 => ⟨S_, .i32⟩
  | 27 => ⟨S_, .i32⟩
  | 28 => ⟨S_, .i32⟩
  | 29 => ⟨S_, .f32⟩
  | 30 => ⟨S_, .f32⟩
  | 31 => ⟨S_, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_cst_15 : Ref sig .tc := ⟨.hbm, 98, rfl⟩
abbrev main_call3_v0 : Ref sig .tc := ⟨.hbm, 99, rfl⟩
abbrev main_call3_v1 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call4_cst : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_v72 : Ref sig .tc := ⟨.hbm, 118, rfl⟩
abbrev main_call5_cst : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_v6 : Ref sig .tc := ⟨.hbm, 126, rfl⟩
abbrev main_call5_v7 : Ref sig .tc := ⟨.hbm, 127, rfl⟩
abbrev main_call5_v8 : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_v73 : Ref sig .tc := ⟨.hbm, 132, rfl⟩
abbrev main_cst_16 : Ref sig .tc := ⟨.hbm, 133, rfl⟩
abbrev main_call6_v0 : Ref sig .tc := ⟨.hbm, 134, rfl⟩
abbrev main_call6_v1 : Ref sig .tc := ⟨.hbm, 135, rfl⟩
abbrev main_v74 : Ref sig .tc := ⟨.hbm, 136, rfl⟩
abbrev main_cst_17 : Ref sig .tc := ⟨.hbm, 137, rfl⟩
abbrev main_v75 : Ref sig .tc := ⟨.hbm, 138, rfl⟩
abbrev main_v76 : Ref sig .tc := ⟨.hbm, 139, rfl⟩
abbrev main_c_18 : Ref sig .tc := ⟨.hbm, 140, rfl⟩
abbrev main_v77 : Ref sig .tc := ⟨.hbm, 141, rfl⟩
abbrev main_c_19 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_cst_20 : Ref sig .tc := ⟨.hbm, 146, rfl⟩
abbrev main_call7_v0 : Ref sig .tc := ⟨.hbm, 147, rfl⟩
abbrev main_call7_v1 : Ref sig .tc := ⟨.hbm, 148, rfl⟩
abbrev main_v81 : Ref sig .tc := ⟨.hbm, 149, rfl⟩
abbrev main_cst_21 : Ref sig .tc := ⟨.hbm, 150, rfl⟩
abbrev main_v82 : Ref sig .tc := ⟨.hbm, 151, rfl⟩
abbrev main_v83 : Ref sig .tc := ⟨.hbm, 152, rfl⟩
abbrev main_c_22 : Ref sig .tc := ⟨.hbm, 153, rfl⟩
abbrev main_v84 : Ref sig .tc := ⟨.hbm, 154, rfl⟩
abbrev main_c_23 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  reducesTo_S16384x128_S16384_d1 : S16384x128.ReducesTo [1] S16384
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  bcast_S_S4096 : S_.BroadcastsInDim S4096 (![] : Fin 0 → Fin S4096.rank)
  transposes_S4096x128_S128x4096_1_0 : S4096x128.Transposes [1, 0] S128x4096
  transposes_S16384x128_S128x16384_1_0 : S16384x128.Transposes [1, 0] S128x16384
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x4096 : S_.BroadcastsInDim S4096x4096 (![] : Fin 0 → Fin S4096x4096.rank)
  bcast_S_S4096x16384 : S_.BroadcastsInDim S4096x16384 (![] : Fin 0 → Fin S4096x16384.rank)
  reducesTo_S4096x4096_S4096_d0 : S4096x4096.ReducesTo [0] S4096
  shapeCasts_S1x4096_S4096 : S1x4096.ShapeCasts S4096
  reducesTo_S4096x16384_S16384_d0 : S4096x16384.ReducesTo [0] S16384
  bcast_S_S16384 : S_.BroadcastsInDim S16384 (![] : Fin 0 → Fin S16384.rank)
  shapeCasts_S1x16384_S16384 : S1x16384.ShapeCasts S16384
  reducesTo_S4096_S_d0 : S4096.ReducesTo [0] S_
  natLt_1_32 : 1 < 32
  reducesTo_S16384_S_d0 : S16384.ReducesTo [0] S_
  gather_S16384x128_S4096x1_S4096x128_1_0_n_n_0_1_1128_wf : GatherDims.WF S16384x128 S4096x1 S4096x128 [1] [0] [] [0] [] 1 ![1, 128]
  dot_S4096x128_S128x4096_S4096x4096_1_0_0_1_n_n_wf : DotDims.WF S4096x128 S128x4096 S4096x4096 [1] [0] [0] [1] [] []
  dot_S4096x128_S128x16384_S4096x16384_1_0_0_1_n_n_wf : DotDims.WF S4096x128 S128x16384 S4096x16384 [1] [0] [0] [1] [] []

variable [Facts₀]

def gather_S16384x128_S4096x1_S4096x128_1_0_n_n_0_1_1128 : GatherDims S16384x128 S4096x1 S4096x128 where
  offsetDims := [1]
  collapsedSliceDims := [0]
  operandBatchingDims := []
  startIndicesBatchingDims := []
  startIndexMap := [0]
  indexVectorDim := 1
  sliceSizes := ![1, 128]
  wf := gather_S16384x128_S4096x1_S4096x128_1_0_n_n_0_1_1128_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x128_S128x16384_S4096x16384_1_0_0_1_n_n : DotDims S4096x128 S128x16384 S4096x16384 where
  lhsContracting := [1]
  rhsContracting := [0]
  lhsNonContracting := [0]
  rhsNonContracting := [1]
  lhsBatch := []
  rhsBatch := []
  wf := dot_S4096x128_S128x16384_S4096x16384_1_0_0_1_n_n_wf

class Facts : Prop extends Facts₀ where

variable [Facts]
-- ==== Proof.K.Kit.lean ====
/-
  The kernel's program around its one region: the buffers as the region finds them (after the host operations that
  normalise the batch, gather the positive proxy rows, join them in front of the table and reshape the labels), the
  host operations after it, the blocks the six windows cut out of their arrays at each of the forty grid points, and
  which of the body's two branches a point takes (points 0 to 7 the positive columns, points 8 to 39 the negative
  ones). Nothing here depends on what the body computes. Stated for any float family.
-/
import proofs.«402344_j24489903522255_3_alg».proof.Proof.Gen.Kernel.Launch
import proofs.«402344_j24489903522255_3_alg».proof.Proof.Gen.Kernel.Skeleton
import proofs.«402344_j24489903522255_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The four stretches of host operations before the region, in order. -/
abbrev preOps : List (List (HloOp τ sig (Elt F))) := [hostOps0, hostOps0_1, hostOps0_2, hostOps0_3]
/-- The eight stretches after it. -/
abbrev tailOps : List (List (HloOp τ sig (Elt F))) :=
  [hostOps1, hostOps1_1, hostOps1_2, hostOps1_3, hostOps1_4, hostOps1_5, hostOps1_6, hostOps1_7]

/-- A core's buffer contents when the region is entered: the launch contents after the earlier host operations. -/
abbrev V0 (c : Dev nD) : Valuation τ sig (Elt F) := StableHlo.after (List.flatten preOps) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

/-- The program is the earlier host operations, the region, the later host operations: it reduces to the region
    continued by the later ones, the buffers at their contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main preOps tailOps
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The later operations touch only the windows' arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And none of them writes an array of a window: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop

/-! ## The argument arrays are written by nothing -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
    simp only [tailOps, hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [tailOps, hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
    simp only [tailOps, hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every other unscoped buffer at its contents after the later host operations, the three
    argument arrays end as launched: no window stages them and no host operation writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## Which branch a point takes -/

/-- The first branch is taken at the points below 8, -/
theorem hcond1 : ∀ t : Fin cfg0.N, k0_cond1 (grid0.coords t) = 1#1 ↔ t.val < 8 :=
  (by decide +kernel : ∀ t : Fin grid0.N, k0_cond1 (grid0.coords t) = 1#1 ↔ t.val < 8)
/-- the second at the others. -/
theorem hcond2 : ∀ t : Fin cfg0.N, k0_cond2 (grid0.coords t) = 1#1 ↔ 8 ≤ t.val :=
  (by decide +kernel : ∀ t : Fin grid0.N, k0_cond2 (grid0.coords t) = 1#1 ↔ 8 ≤ t.val)

/-- No window is idle at any point: each branch stores both outputs, and every point takes one. -/
theorem live0 : ∀ (w : Fin cfg0.W) (t : Fin cfg0.N), cfg0.idle w (grid0.coords t) = false := by decide +kernel

/-! ## The staging memrefs at a point, as the pipeline passes them -/

abbrev ms0 (t : Fin cfg0.N) : Memref sig .tc .vmem S4096x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)

/-- The class's invariant: this kernel has no scratch, so beyond the windows only the register of the core's random-number unit. -/
theorem PhiA0_eq (c : Dev nD) :
    (Pipeline.ΦA spec0 c : sProp 𝕄) = iprop(iprop(emp) ∗ (∃ r, prngReg c r)) := by
  unfold Pipeline.ΦA; rw [scopedRest0_eq]; try rfl

end Cert.Kernel.Hand

end
-- ==== Proof.K.Runs.lean ====
import proofs.«402344_j24489903522255_3_alg».proof.Proof.Gen.Kernel.Skeleton
import proofs.«402344_j24489903522255_3_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

/-!
# The kernel body's two runs

At a grid point exactly one of the body's two branches is taken.  The positive branch (the first
eight points) reads the four input blocks whole and overwrites the two output blocks whole; the
negative branch (the remaining thirty-two points) reads three of the input blocks and the grid
coordinate and overwrites the same two output blocks whole.  Each run is a separation-logic triple:
from the input blocks owned at named contents and the output blocks owned at anything, the body
runs to a state where the inputs are as they were and each output block holds a named function of
the inputs.  Because each store covers its whole block through the rectangle at zero offsets of
full extent, what the block reads afterwards is exactly the stored value, whatever it held before.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the positive branch leaves in the first output block, as a function of the four input blocks. -/
def posLse (x0 : Vec F S4096x128 .bf16) (x1 : Vec F S4096x1 .i32) (x2 : Vec F S1x512 .i32) (x3 : Vec F S512x128 .f32) : Vec F S1x512 .f32 :=
  k0_pay1 (k0_pay6 x3 x0 x1 x2) (k0_pay7 x3 x0 x1 x2) (k0_pay8 x3 x0 x1 x2) (Scalar.ofBits .f32 0x00000000#32)

/-- What the positive branch leaves in the second output block. -/
def posNz (x0 : Vec F S4096x128 .bf16) (x1 : Vec F S4096x1 .i32) (x2 : Vec F S1x512 .i32) (x3 : Vec F S512x128 .f32) : Vec F S1x512 .f32 :=
  k0_pay7 x3 x0 x1 x2

/-- What the negative branch leaves in the first output block, as a function of the grid coordinate and three input blocks. -/
def negLse (a0 : BitVec 32) (x0 : Vec F S4096x128 .bf16) (x1 : Vec F S4096x1 .i32) (x3 : Vec F S512x128 .f32) : Vec F S1x512 .f32 :=
  k0_pay2 (k0_pay12 a0 x3 x0 x1) (k0_pay13 a0 x3 x0 x1) (k0_pay14 a0 x3 x0 x1)

/-- What the negative branch leaves in the second output block. -/
def negNz (a0 : BitVec 32) (x0 : Vec F S4096x128 .bf16) (x1 : Vec F S4096x1 .i32) (x3 : Vec F S512x128 .f32) : Vec F S1x512 .f32 :=
  k0_pay13 a0 x3 x0 x1

/-- The zero offsets of a rank-two block, however spelt. -/
theorem zero2 : (![0, 0] : Fin 2 → ℕ) = fun _ => 0 := by
  funext a; fin_cases a <;> rfl

/-- ONE store through the whole-shape rectangle at zero offsets: the block then reads the stored value, whatever it
    held before (the single piece covers every index, so the written contents read as the piece's payload). -/
theorem read_writes_unit_zero {sh : Shape} {e : EltTy} (v : View sig .tc .vmem sh e) (f : v.ty.Contents (Elt F))
    {off : Fin sh.rank → ℕ} (hz : off = fun _ => 0) (inb : ∀ a, off a + sh.size a ≤ sh.size a) (w : sh.Idx → Elt F e) :
    v.read (Elt F) (v.writes (Elt F) f [(⟨Rect.unit off sh.size inb, w⟩ : View.Piece (Elt F) sh e)]) = w :=
  (View.read_writes_eq_canon v f _
      (fun y => ⟨_, List.mem_singleton_self _, View.mem_set_unit_zero hz inb y⟩)).trans
    (View.canon_unit_zero hz inb w)

/-- A load through the whole-shape rectangle at zero offsets of a whole memref held at `X` reads `X`. -/
theorem readAt_unread_unit_zero {sh : Shape} {e : EltTy} (m : Memref sig .tc .vmem sh e) (h : m.IsWhole)
    {off : Fin sh.rank → ℕ} (hz : off = fun _ => 0) (inb : ∀ a, off a + sh.size a ≤ sh.size a) (X : sh.Idx → Elt F e) :
    View.readAt (Elt F) m.view (Rect.unit off sh.size inb).toLoadRect (h.unread X) = X := by
  show View.ld (m.view.read (Elt F) (h.unread X)) (Rect.unit off sh.size inb) = X
  rw [h.read_unread]
  exact View.ld_unit_zero hz inb X

set_option maxHeartbeats 1000000 in
/-- THE POSITIVE BRANCH.  Where the first condition holds and the second does not, the body — run on whole blocks,
    the four inputs at `x0 … x3`, the two outputs at anything — reaches its continuation with the inputs as they
    were and the outputs at `posLse` and `posNz` of the inputs. -/
theorem run_pos (c : Dev nD) (i : grid0.Coords)
    (arg1 : Memref sig .tc .vmem S4096x128 .bf16) (harg1 : arg1.IsWhole) (arg2 : Memref sig .tc .vmem S4096x1 .i32) (harg2 : arg2.IsWhole)
    (arg3 : Memref sig .tc .vmem S1x512 .i32) (harg3 : arg3.IsWhole) (arg4 : Memref sig .tc .vmem S512x128 .f32) (harg4 : arg4.IsWhole)
    (arg5 : Memref sig .tc .vmem S1x512 .f32) (harg5 : arg5.IsWhole) (arg6 : Memref sig .tc .vmem S1x512 .f32) (harg6 : arg6.IsWhole)
    (hc1 : k0_cond1 i = 1#1) (hc2 : ¬ k0_cond2 i = 1#1)
    (x0 : Vec F S4096x128 .bf16) (x1 : Vec F S4096x1 .i32) (x2 : Vec F S1x512 .i32) (x3 : Vec F S512x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (posLse x0 x1 x2 x3) ∗ owns (c : Thread nD τ) arg6 fullShare (posNz x0 x1 x2 x3)) -∗ K ⟨⟩))
      ⊢ wp frame (wpE (defs₀ (F := F)) Variants.none c none) E (cc0__fused_kernel i arg1 harg1 arg2 harg2 arg3 harg3 arg4 harg4 arg5 harg5 arg6 harg6) K := by
  -- each whole-block load of an input block held at `x` reads `x`: the equations the run reads the loaded values by
  have e1 := readAt_unread_unit_zero (F := F) arg1 harg1 zero2 inb_S4096x128_S4096x128_0_0 x0
  have e2 := readAt_unread_unit_zero (F := F) arg2 harg2 zero2 inb_S4096x1_S4096x1_0_0 x1
  have e3 := readAt_unread_unit_zero (F := F) arg3 harg3 zero2 inb_S1x512_S1x512_0_0 x2
  have e4 := readAt_unread_unit_zero (F := F) arg4 harg4 zero2 inb_S512x128_S512x128_0_0 x3
  simp only [cc0__fused_kernel_eq_skeleton]; unfold cc0__fused_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2
  obtain rfl := harg3.eq_unread hf3; obtain rfl := harg4.eq_unread hf4
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    pick_goal 2
    · iexact H5
    ipureintro
    refine (read_writes_unit_zero (F := F) arg5.view f5 zero2 inb_S1x512_S1x512_0_0 _).trans ?_
    sl_unfold_words
    dsimp only
    rfl
  · iexists _; isplitr
    pick_goal 2
    · iexact H6
    ipureintro
    refine (read_writes_unit_zero (F := F) arg6.view f6 zero2 inb_S1x512_S1x512_0_0 _).trans ?_
    dsimp only
    rfl

set_option maxHeartbeats 1000000 in
/-- THE NEGATIVE BRANCH.  Where the first condition fails and the second holds, the body — run on whole blocks, the
    four inputs at `x0 … x3` (the third is not read), the two outputs at anything — reaches its continuation with
    the inputs as they were and the outputs at `negLse` and `negNz` of the grid coordinate and the inputs. -/
theorem run_neg (c : Dev nD) (i : grid0.Coords)
    (arg1 : Memref sig .tc .vmem S4096x128 .bf16) (harg1 : arg1.IsWhole) (arg2 : Memref sig .tc .vmem S4096x1 .i32) (harg2 : arg2.IsWhole)
    (arg3 : Memref sig .tc .vmem S1x512 .i32) (harg3 : arg3.IsWhole) (arg4 : Memref sig .tc .vmem S512x128 .f32) (harg4 : arg4.IsWhole)
    (arg5 : Memref sig .tc .vmem S1x512 .f32) (harg5 : arg5.IsWhole) (arg6 : Memref sig .tc .vmem S1x512 .f32) (harg6 : arg6.IsWhole)
    (hc1 : ¬ k0_cond1 i = 1#1) (hc2 : k0_cond2 i = 1#1)
    (x0 : Vec F S4096x128 .bf16) (x1 : Vec F S4096x1 .i32) (x2 : Vec F S1x512 .i32) (x3 : Vec F S512x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (negLse (BitVec.ofNat 32 (i 0).val) x0 x1 x3) ∗ owns (c : Thread nD τ) arg6 fullShare (negNz (BitVec.ofNat 32 (i 0).val) x0 x1 x3)) -∗ K ⟨⟩))
      ⊢ wp frame (wpE (defs₀ (F := F)) Variants.none c none) E (cc0__fused_kernel i arg1 harg1 arg2 harg2 arg3 harg3 arg4 harg4 arg5 harg5 arg6 harg6) K := by
  -- each whole-block load of an input block held at `x` reads `x`: the equations the run reads the loaded values by
  have e1 := readAt_unread_unit_zero (F := F) arg1 harg1 zero2 inb_S4096x128_S4096x128_0_0 x0
  have e2 := readAt_unread_unit_zero (F := F) arg2 harg2 zero2 inb_S4096x1_S4096x1_0_0 x1
  have e4 := readAt_unread_unit_zero (F := F) arg4 harg4 zero2 inb_S512x128_S512x128_0_0 x3
  simp only [cc0__fused_kernel_eq_skeleton]; unfold cc0__fused_kernel_skel
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2
  obtain rfl := harg4.eq_unread hf4
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact hf3
    iexact H3
  isplitl [H4]
  · iexists _; isplitr; · ipureintro; exact harg4.read_unread _
    iexact H4
  isplitl [H5]
  · iexists _; isplitr
    pick_goal 2
    · iexact H5
    ipureintro
    refine (read_writes_unit_zero (F := F) arg5.view f5 zero2 inb_S1x512_S1x512_0_0 _).trans ?_
    sl_unfold_words
    dsimp only
    rfl
  · iexists _; isplitr
    pick_goal 2
    · iexact H6
    ipureintro
    refine (read_writes_unit_zero (F := F) arg6.view f6 zero2 inb_S1x512_S1x512_0_0 _).trans ?_
    sl_unfold_words
    dsimp only
    rfl

end Cert.Kernel.Hand

end
-- ==== Proof.K.Frame.lean ====
/-
  The kernel's frame: the proof data of its one pipeline (what each window's staging buffer holds after the body at each
  of the forty points), the body's obligation at a generic point (by the branch the point takes), the run, and the frame
  claim for any float family.
-/
import proofs.«402344_j24489903522255_3_alg».proof.Proof.K.Kit
import proofs.«402344_j24489903522255_3_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two output windows hold after each point -/

/-- The log-sum-exp block point `t` leaves: the positive branch's on the four input blocks at the points below 8, the
    negative branch's (which reads the point's number, not the column labels) at the others. -/
def outLse (c : Dev nD) (t : Fin cfg0.N) : Vec F S1x512 .f32 :=
  if t.val < 8 then posLse (iblk m c 0 t) (iblk m c 1 t) (iblk m c 2 t) (iblk m c 3 t)
  else negLse (BitVec.ofNat 32 ((grid0.coords t) 0).val) (iblk m c 0 t) (iblk m c 1 t) (iblk m c 3 t)

/-- The count-flag block point `t` leaves. -/
def outNz (c : Dev nD) (t : Fin cfg0.N) : Vec F S1x512 .f32 :=
  if t.val < 8 then posNz (iblk m c 0 t) (iblk m c 1 t) (iblk m c 2 t) (iblk m c 3 t)
  else negNz (BitVec.ofNat 32 ((grid0.coords t) 0).val) (iblk m c 0 t) (iblk m c 1 t) (iblk m c 3 t)

/-! ## The pipeline's proof data -/

/-- The arrays as the region finds them; after the body at point `t` each input's buffer at its block and the two
    outputs' at the blocks above; the class's invariant throughout (the kernel keeps nothing between points); nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outLse m c t
    | ⟨5, _⟩ => outNz m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outLse m c t := by dsimp only [dats]
theorem after0_5 (c : Dev nD) (t : Fin cfg0.N) : (dats m 0 c).after 5 t = outNz m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 2000000 in
/-- The body at any point: the inputs' buffers hold their blocks; the point's number says which branch runs; that
    branch's run leaves the inputs in place and the two outputs at the branch's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0 t) fullShare ((dats m 0 c).after 0 t) from by
    unfold Dat.leavesExact; rw [live0 0 t], after0_0]
  rw [show (dats m 0 c).leavesExact 1 t = owns (c : Thread nD τ) (ms1 t) fullShare ((dats m 0 c).after 1 t) from by
    unfold Dat.leavesExact; rw [live0 1 t], after0_1]
  rw [show (dats m 0 c).leavesExact 2 t = owns (c : Thread nD τ) (ms2 t) fullShare ((dats m 0 c).after 2 t) from by
    unfold Dat.leavesExact; rw [live0 2 t], after0_2]
  rw [show (dats m 0 c).leavesExact 3 t = owns (c : Thread nD τ) (ms3 t) fullShare ((dats m 0 c).after 3 t) from by
    unfold Dat.leavesExact; rw [live0 3 t], after0_3]
  rw [show (dats m 0 c).leavesExact 4 t = owns (c : Thread nD τ) (ms4 t) fullShare ((dats m 0 c).after 4 t) from by
    unfold Dat.leavesExact; rw [live0 4 t], after0_4]
  rw [show (dats m 0 c).leavesExact 5 t = owns (c : Thread nD τ) (ms5 t) fullShare ((dats m 0 c).after 5 t) from by
    unfold Dat.leavesExact; rw [live0 5 t], after0_5]
  have hN : t.val < 40 := lt_of_lt_of_eq t.isLt (show cfg0.N = 40 from N_0)
  by_cases h : t.val < 8
  · rw [show outLse m c t = posLse (iblk m c 0 t) (iblk m c 1 t) (iblk m c 2 t) (iblk m c 3 t) from if_pos h,
      show outNz m c t = posNz (iblk m c 0 t) (iblk m c 1 t) (iblk m c 2 t) (iblk m c 3 t) from if_pos h]
    iintro ⟨HΦ, Ho, ⟨%d0, H0⟩, ⟨%d1, H1⟩, ⟨%d2, H2⟩, ⟨%d3, H3⟩, ⟨%d4, H4⟩, ⟨%d5, H5⟩⟩
    iapply (run_pos c (grid0.coords t) (ms0 t) (hs0 t) (ms1 t) (hs1 t) (ms2 t) (hs2 t) (ms3 t) (hs3 t) (ms4 t) (hs4 t) (ms5 t) (hs5 t)
      ((hcond1 t).mpr h) (fun h2 => absurd ((hcond2 t).mp h2) (by omega))
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [show outLse m c t = negLse (BitVec.ofNat 32 ((grid0.coords t) 0).val) (iblk m c 0 t) (iblk m c 1 t) (iblk m c 3 t) from if_neg h,
      show outNz m c t = negNz (BitVec.ofNat 32 ((grid0.coords t) 0).val) (iblk m c 0 t) (iblk m c 1 t) (iblk m c 3 t) from if_neg h]
    iintro ⟨HΦ, Ho, ⟨%d0, H0⟩, ⟨%d1, H1⟩, ⟨%d2, H2⟩, ⟨%d3, H3⟩, ⟨%d4, H4⟩, ⟨%d5, H5⟩⟩
    iapply (run_neg c (grid0.coords t) (ms0 t) (hs0 t) (ms1 t) (hs1 t) (ms2 t) (hs2 t) (ms3 t) (hs3 t) (ms4 t) (hs4 t) (ms5 t) (hs5 t)
      (fun h1 => absurd ((hcond1 t).mp h1) h) ((hcond2 t).mpr (by omega))
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each window's array at what the library computes from the proof data and every other unscoped buffer as the
    later host operations leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end and its three argument arrays end as launched, for any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.KI.Kit.lean ====
/-
  The kernel's program around its one region: the buffers as the region finds them (after the host operations that
  normalise the batch, gather the positive proxy rows, join them in front of the table and reshape the labels), the
  host operations after it, the blocks the six windows cut out of their arrays at each of the forty grid points, and
  which of the body's two branches a point takes (points 0 to 7 the positive columns, points 8 to 39 the negative
  ones). Nothing here depends on what the body computes. Stated for any float family.
-/
import proofs.«402344_j24489903522255_3_alg».proof.Proof.Gen.KernelIdeal.Launch
import proofs.«402344_j24489903522255_3_alg».proof.Proof.Gen.KernelIdeal.Skeleton
import proofs.«402344_j24489903522255_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The four stretches of host operations before the region, in order. -/
abbrev preOps : List (List (HloOp τ sig (Elt F))) := [hostOps0, hostOps0_1, hostOps0_2, hostOps0_3]
/-- The eight stretches after it. -/
abbrev tailOps : List (List (HloOp τ sig (Elt F))) :=
  [hostOps1, hostOps1_1, hostOps1_2, hostOps1_3, hostOps1_4, hostOps1_5, hostOps1_6, hostOps1_7]

/-- A core's buffer contents when the region is entered: the launch contents after the earlier host operations. -/
abbrev V0 (c : Dev nD) : Valuation τ sig (Elt F) := StableHlo.after (List.flatten preOps) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

/-- The program is the earlier host operations, the region, the later host operations: it reduces to the region
    continued by the later ones, the buffers at their contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main preOps tailOps
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The later operations touch only the windows' arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And none of them writes an array of a window: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop

/-! ## The argument arrays are written by nothing -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 0 either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
    simp only [tailOps, hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 1 either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
    simp only [tailOps, hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 2 either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
    simp only [tailOps, hostOps1, hostOps1_1, hostOps1_2, hostOps1_3, hostOps1_4, hostOps1_5, hostOps1_6, hostOps1_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every other unscoped buffer at its contents after the later host operations, the three
    argument arrays end as launched: no window stages them and no host operation writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## Which branch a point takes -/

/-- The first branch is taken at the points below 8, -/
theorem hcond1 : ∀ t : Fin cfg0.N, k0_cond1 (grid0.coords t) = 1#1 ↔ t.val < 8 :=
  (by decide +kernel : ∀ t : Fin grid0.N, k0_cond1 (grid0.coords t) = 1#1 ↔ t.val < 8)
/-- the second at the others. -/
theorem hcond2 : ∀ t : Fin cfg0.N, k0_cond2 (grid0.coords t) = 1#1 ↔ 8 ≤ t.val :=
  (by decide +kernel : ∀ t : Fin grid0.N, k0_cond2 (grid0.coords t) = 1#1 ↔ 8 ≤ t.val)

/-- No window is idle at any point: each branch stores both outputs, and every point takes one. -/
theorem live0 : ∀ (w : Fin cfg0.W) (t : Fin cfg0.N), cfg0.idle w (grid0.coords t) = false := by decide +kernel

/-! ## The staging memrefs at a point, as the pipeline passes them -/

abbrev ms0 (t : Fin cfg0.N) : Memref sig .tc .vmem S4096x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)

/-- The class's invariant: this kernel has no scratch, so beyond the windows only the register of the core's random-number unit. -/
theorem PhiA0_eq (c : Dev nD) :
    (Pipeline.ΦA spec0 c : sProp 𝕄) = iprop(iprop(emp) ∗ (∃ r, prngReg c r)) := by
  unfold Pipeline.ΦA; rw [scopedRest0_eq]; try rfl

end Cert.KernelIdeal.Hand

end
-- ==== Proof.KI.Runs.lean ====
import proofs.«402344_j24489903522255_3_alg».proof.Proof.Gen.KernelIdeal.Skeleton
import proofs.«402344_j24489903522255_3_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

/-!
# The kernel body's two runs

At a grid point exactly one of the body's two branches is taken.  The positive branch (the first
eight points) reads the four input blocks whole and overwrites the two output blocks whole; the
negative branch (the remaining thirty-two points) reads three of the input blocks and the grid
coordinate and overwrites the same two output blocks whole.  Each run is a separation-logic triple:
from the input blocks owned at named contents and the output blocks owned at anything, the body
runs to a state where the inputs are as they were and each output block holds a named function of
the inputs.  Because each store covers its whole block through the rectangle at zero offsets of
full extent, what the block reads afterwards is exactly the stored value, whatever it held before.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the positive branch leaves in the first output block, as a function of the four input blocks. -/
def posLse (x0 : Vec F S4096x128 .bf16) (x1 : Vec F S4096x1 .i32) (x2 : Vec F S1x512 .i32) (x3 : Vec F S512x128 .f32) : Vec F S1x512 .f32 :=
  k0_pay1 (k0_pay6 x3 x0 x1 x2) (k0_pay7 x3 x0 x1 x2) (k0_pay8 x3 x0 x1 x2) (Scalar.ofBits .f32 0x00000000#32)

/-- What the positive branch leaves in the second output block. -/
def posNz (x0 : Vec F S4096x128 .bf16) (x1 : Vec F S4096x1 .i32) (x2 : Vec F S1x512 .i32) (x3 : Vec F S512x128 .f32) : Vec F S1x512 .f32 :=
  k0_pay7 x3 x0 x1 x2

/-- What the negative branch leaves in the first output block, as a function of the grid coordinate and three input blocks. -/
def negLse (a0 : BitVec 32) (x0 : Vec F S4096x128 .bf16) (x1 : Vec F S4096x1 .i32) (x3 : Vec F S512x128 .f32) : Vec F S1x512 .f32 :=
  k0_pay2 (k0_pay12 a0 x3 x0 x1) (k0_pay13 a0 x3 x0 x1) (k0_pay14 a0 x3 x0 x1)

/-- What the negative branch leaves in the second output block. -/
def negNz (a0 : BitVec 32) (x0 : Vec F S4096x128 .bf16) (x1 : Vec F S4096x1 .i32) (x3 : Vec F S512x128 .f32) : Vec F S1x512 .f32 :=
  k0_pay13 a0 x3 x0 x1

/-- The zero offsets of a rank-two block, however spelt. -/
theorem zero2 : (![0, 0] : Fin 2 → ℕ) = fun _ => 0 := by
  funext a; fin_cases a <;> rfl

/-- ONE store through the whole-shape rectangle at zero offsets: the block then reads the stored value, whatever it
    held before (the single piece covers every index, so the written contents read as the piece's payload). -/
theorem read_writes_unit_zero {sh : Shape} {e : EltTy} (v : View sig .tc .vmem sh e) (f : v.ty.Contents (Elt F))
    {off : Fin sh.rank → ℕ} (hz : off = fun _ => 0) (inb : ∀ a, off a + sh.size a ≤ sh.size a) (w : sh.Idx → Elt F e) :
    v.read (Elt F) (v.writes (Elt F) f [(⟨Rect.unit off sh.size inb, w⟩ : View.Piece (Elt F) sh e)]) = w :=
  (View.read_writes_eq_canon v f _
      (fun y => ⟨_, List.mem_singleton_self _, View.mem_set_unit_zero hz inb y⟩)).trans
    (View.canon_unit_zero hz inb w)

/-- A load through the whole-shape rectangle at zero offsets of a whole memref held at `X` reads `X`. -/
theorem readAt_unread_unit_zero {sh : Shape} {e : EltTy} (m : Memref sig .tc .vmem sh e) (h : m.IsWhole)
    {off : Fin sh.rank → ℕ} (hz : off = fun _ => 0) (inb : ∀ a, off a + sh.size a ≤ sh.size a) (X : sh.Idx → Elt F e) :
    View.readAt (Elt F) m.view (Rect.unit off sh.size inb).toLoadRect (h.unread X) = X := by
  show View.ld (m.view.read (Elt F) (h.unread X)) (Rect.unit off sh.size inb) = X
  rw [h.read_unread]
  exact View.ld_unit_zero hz inb X

set_option maxHeartbeats 1000000 in
/-- THE POSITIVE BRANCH.  Where the first condition holds and the second does not, the body — run on whole blocks,
    the four inputs at `x0 … x3`, the two outputs at anything — reaches its continuation with the inputs as they
    were and the outputs at `posLse` and `posNz` of the inputs. -/
theorem run_pos (c : Dev nD) (i : grid0.Coords)
    (arg1 : Memref sig .tc .vmem S4096x128 .bf16) (harg1 : arg1.IsWhole) (arg2 : Memref sig .tc .vmem S4096x1 .i32) (harg2 : arg2.IsWhole)
    (arg3 : Memref sig .tc .vmem S1x512 .i32) (harg3 : arg3.IsWhole) (arg4 : Memref sig .tc .vmem S512x128 .f32) (harg4 : arg4.IsWhole)
    (arg5 : Memref sig .tc .vmem S1x512 .f32) (harg5 : arg5.IsWhole) (arg6 : Memref sig .tc .vmem S1x512 .f32) (harg6 : arg6.IsWhole)
    (hc1 : k0_cond1 i = 1#1) (hc2 : ¬ k0_cond2 i = 1#1)
    (x0 : Vec F S4096x128 .bf16) (x1 : Vec F S4096x1 .i32) (x2 : Vec F S1x512 .i32) (x3 : Vec F S512x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (posLse x0 x1 x2 x3) ∗ owns (c : Thread nD τ) arg6 fullShare (posNz x0 x1 x2 x3)) -∗ K ⟨⟩))
      ⊢ wp frame (wpE (defs₀ (F := F)) Variants.none c none) E (cc0__fused_kernel i arg1 harg1 arg2 harg2 arg3 harg3 arg4 harg4 arg5 harg5 arg6 harg6) K := by
  -- each whole-block load of an input block held at `x` reads `x`: the equations the run reads the loaded values by
  have e1 := readAt_unread_unit_zero (F := F) arg1 harg1 zero2 inb_S4096x128_S4096x128_0_0 x0
  have e2 := readAt_unread_unit_zero (F := F) arg2 harg2 zero2 inb_S4096x1_S4096x1_0_0 x1
  have e3 := readAt_unread_unit_zero (F := F) arg3 harg3 zero2 inb_S1x512_S1x512_0_0 x2
  have e4 := readAt_unread_unit_zero (F := F) arg4 harg4 zero2 inb_S512x128_S512x128_0_0 x3
  simp only [cc0__fused_kernel_eq_skeleton]; unfold cc0__fused_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2
  obtain rfl := harg3.eq_unread hf3; obtain rfl := harg4.eq_unread hf4
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    pick_goal 2
    · iexact H5
    ipureintro
    refine (read_writes_unit_zero (F := F) arg5.view f5 zero2 inb_S1x512_S1x512_0_0 _).trans ?_
    sl_unfold_words
    dsimp only
    rfl
  · iexists _; isplitr
    pick_goal 2
    · iexact H6
    ipureintro
    refine (read_writes_unit_zero (F := F) arg6.view f6 zero2 inb_S1x512_S1x512_0_0 _).trans ?_
    dsimp only
    rfl

set_option maxHeartbeats 1000000 in
/-- THE NEGATIVE BRANCH.  Where the first condition fails and the second holds, the body — run on whole blocks, the
    four inputs at `x0 … x3` (the third is not read), the two outputs at anything — reaches its continuation with
    the inputs as they were and the outputs at `negLse` and `negNz` of the grid coordinate and the inputs. -/
theorem run_neg (c : Dev nD) (i : grid0.Coords)
    (arg1 : Memref sig .tc .vmem S4096x128 .bf16) (harg1 : arg1.IsWhole) (arg2 : Memref sig .tc .vmem S4096x1 .i32) (harg2 : arg2.IsWhole)
    (arg3 : Memref sig .tc .vmem S1x512 .i32) (harg3 : arg3.IsWhole) (arg4 : Memref sig .tc .vmem S512x128 .f32) (harg4 : arg4.IsWhole)
    (arg5 : Memref sig .tc .vmem S1x512 .f32) (harg5 : arg5.IsWhole) (arg6 : Memref sig .tc .vmem S1x512 .f32) (harg6 : arg6.IsWhole)
    (hc1 : ¬ k0_cond1 i = 1#1) (hc2 : k0_cond2 i = 1#1)
    (x0 : Vec F S4096x128 .bf16) (x1 : Vec F S4096x1 .i32) (x2 : Vec F S1x512 .i32) (x3 : Vec F S512x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (negLse (BitVec.ofNat 32 (i 0).val) x0 x1 x3) ∗ owns (c : Thread nD τ) arg6 fullShare (negNz (BitVec.ofNat 32 (i 0).val) x0 x1 x3)) -∗ K ⟨⟩))
      ⊢ wp frame (wpE (defs₀ (F := F)) Variants.none c none) E (cc0__fused_kernel i arg1 harg1 arg2 harg2 arg3 harg3 arg4 harg4 arg5 harg5 arg6 harg6) K := by
  -- each whole-block load of an input block held at `x` reads `x`: the equations the run reads the loaded values by
  have e1 := readAt_unread_unit_zero (F := F) arg1 harg1 zero2 inb_S4096x128_S4096x128_0_0 x0
  have e2 := readAt_unread_unit_zero (F := F) arg2 harg2 zero2 inb_S4096x1_S4096x1_0_0 x1
  have e4 := readAt_unread_unit_zero (F := F) arg4 harg4 zero2 inb_S512x128_S512x128_0_0 x3
  simp only [cc0__fused_kernel_eq_skeleton]; unfold cc0__fused_kernel_skel
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2
  obtain rfl := harg4.eq_unread hf4
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact hf3
    iexact H3
  isplitl [H4]
  · iexists _; isplitr; · ipureintro; exact harg4.read_unread _
    iexact H4
  isplitl [H5]
  · iexists _; isplitr
    pick_goal 2
    · iexact H5
    ipureintro
    refine (read_writes_unit_zero (F := F) arg5.view f5 zero2 inb_S1x512_S1x512_0_0 _).trans ?_
    sl_unfold_words
    dsimp only
    rfl
  · iexists _; isplitr
    pick_goal 2
    · iexact H6
    ipureintro
    refine (read_writes_unit_zero (F := F) arg6.view f6 zero2 inb_S1x512_S1x512_0_0 _).trans ?_
    sl_unfold_words
    dsimp only
    rfl

end Cert.KernelIdeal.Hand

end
-- ==== Proof.KI.Frame.lean ====
/-
  The kernel's frame: the proof data of its one pipeline (what each window's staging buffer holds after the body at each
  of the forty points), the body's obligation at a generic point (by the branch the point takes), the run, and the frame
  claim for any float family.
-/
import proofs.«402344_j24489903522255_3_alg».proof.Proof.KI.Kit
import proofs.«402344_j24489903522255_3_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two output windows hold after each point -/

/-- The log-sum-exp block point `t` leaves: the positive branch's on the four input blocks at the points below 8, the
    negative branch's (which reads the point's number, not the column labels) at the others. -/
def outLse (c : Dev nD) (t : Fin cfg0.N) : Vec F S1x512 .f32 :=
  if t.val < 8 then posLse (iblk m c 0 t) (iblk m c 1 t) (iblk m c 2 t) (iblk m c 3 t)
  else negLse (BitVec.ofNat 32 ((grid0.coords t) 0).val) (iblk m c 0 t) (iblk m c 1 t) (iblk m c 3 t)

/-- The count-flag block point `t` leaves. -/
def outNz (c : Dev nD) (t : Fin cfg0.N) : Vec F S1x512 .f32 :=
  if t.val < 8 then posNz (iblk m c 0 t) (iblk m c 1 t) (iblk m c 2 t) (iblk m c 3 t)
  else negNz (BitVec.ofNat 32 ((grid0.coords t) 0).val) (iblk m c 0 t) (iblk m c 1 t) (iblk m c 3 t)

/-! ## The pipeline's proof data -/

/-- The arrays as the region finds them; after the body at point `t` each input's buffer at its block and the two
    outputs' at the blocks above; the class's invariant throughout (the kernel keeps nothing between points); nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outLse m c t
    | ⟨5, _⟩ => outNz m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outLse m c t := by dsimp only [dats]
theorem after0_5 (c : Dev nD) (t : Fin cfg0.N) : (dats m 0 c).after 5 t = outNz m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 2000000 in
/-- The body at any point: the inputs' buffers hold their blocks; the point's number says which branch runs; that
    branch's run leaves the inputs in place and the two outputs at the branch's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0 t) fullShare ((dats m 0 c).after 0 t) from by
    unfold Dat.leavesExact; rw [live0 0 t], after0_0]
  rw [show (dats m 0 c).leavesExact 1 t = owns (c : Thread nD τ) (ms1 t) fullShare ((dats m 0 c).after 1 t) from by
    unfold Dat.leavesExact; rw [live0 1 t], after0_1]
  rw [show (dats m 0 c).leavesExact 2 t = owns (c : Thread nD τ) (ms2 t) fullShare ((dats m 0 c).after 2 t) from by
    unfold Dat.leavesExact; rw [live0 2 t], after0_2]
  rw [show (dats m 0 c).leavesExact 3 t = owns (c : Thread nD τ) (ms3 t) fullShare ((dats m 0 c).after 3 t) from by
    unfold Dat.leavesExact; rw [live0 3 t], after0_3]
  rw [show (dats m 0 c).leavesExact 4 t = owns (c : Thread nD τ) (ms4 t) fullShare ((dats m 0 c).after 4 t) from by
    unfold Dat.leavesExact; rw [live0 4 t], after0_4]
  rw [show (dats m 0 c).leavesExact 5 t = owns (c : Thread nD τ) (ms5 t) fullShare ((dats m 0 c).after 5 t) from by
    unfold Dat.leavesExact; rw [live0 5 t], after0_5]
  have hN : t.val < 40 := lt_of_lt_of_eq t.isLt (show cfg0.N = 40 from N_0)
  by_cases h : t.val < 8
  · rw [show outLse m c t = posLse (iblk m c 0 t) (iblk m c 1 t) (iblk m c 2 t) (iblk m c 3 t) from if_pos h,
      show outNz m c t = posNz (iblk m c 0 t) (iblk m c 1 t) (iblk m c 2 t) (iblk m c 3 t) from if_pos h]
    iintro ⟨HΦ, Ho, ⟨%d0, H0⟩, ⟨%d1, H1⟩, ⟨%d2, H2⟩, ⟨%d3, H3⟩, ⟨%d4, H4⟩, ⟨%d5, H5⟩⟩
    iapply (run_pos c (grid0.coords t) (ms0 t) (hs0 t) (ms1 t) (hs1 t) (ms2 t) (hs2 t) (ms3 t) (hs3 t) (ms4 t) (hs4 t) (ms5 t) (hs5 t)
      ((hcond1 t).mpr h) (fun h2 => absurd ((hcond2 t).mp h2) (by omega))
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [show outLse m c t = negLse (BitVec.ofNat 32 ((grid0.coords t) 0).val) (iblk m c 0 t) (iblk m c 1 t) (iblk m c 3 t) from if_neg h,
      show outNz m c t = negNz (BitVec.ofNat 32 ((grid0.coords t) 0).val) (iblk m c 0 t) (iblk m c 1 t) (iblk m c 3 t) from if_neg h]
    iintro ⟨HΦ, Ho, ⟨%d0, H0⟩, ⟨%d1, H1⟩, ⟨%d2, H2⟩, ⟨%d3, H3⟩, ⟨%d4, H4⟩, ⟨%d5, H5⟩⟩
    iapply (run_neg c (grid0.coords t) (ms0 t) (hs0 t) (ms1 t) (hs1 t) (ms2 t) (hs2 t) (ms3 t) (hs3 t) (ms4 t) (hs4 t) (ms5 t) (hs5 t)
      (fun h1 => absurd ((hcond1 t).mp h1) h) ((hcond2 t).mpr (by omega))
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each window's array at what the library computes from the proof data and every other unscoped buffer as the
    later host operations leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs to the end and its three argument arrays end as launched, for any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.KI.Blocks.lean ====
/-
  From the grid points to the arrays: where each window's block sits at a point (which rows and columns of its array it
  is), so that an input block read at an index is its array read at the shifted index; and, the points writing disjoint
  column ranges of the two result arrays, column `512 t + q` of each ends at entry `q` of what point `t` left.
-/
import proofs.«402344_j24489903522255_3_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Where each window's block sits at a point -/

/-- The printed index maps over the grid: the batch and the label column are one block; the column labels follow the
    point up to block 7 and stay there; the proxy table and both outputs follow the point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = min t.val 7
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- The batch block at any point is the whole batch array. -/
theorem iblk0_at (c : Dev nD) (t : Fin cfg0.N) (i : Fin 4096) (d : Fin 128) :
    iblk m c 0 t (ix2 i d) = (V m c main_v3 : S4096x128.Idx → Elt F .bf16) (ix2 i d) := by
  obtain ⟨e0, e1, -⟩ := idx_facts t
  show V m c main_v3 (((cfg0.win 0).blk t).view.emb (ix2 i d)) = V m c main_v3 (ix2 i d)
  refine congrArg _ (funext fun a => Fin.ext ?_)
  match a with
  | ⟨0, _⟩ => show win0_0.index t (0 : Fin 2) * 4096 + 1 * i.val = i.val; omega
  | ⟨1, _⟩ => show win0_0.index t (1 : Fin 2) * 128 + 1 * d.val = d.val; omega

/-- The label-column block at any point is the whole column. -/
theorem iblk1_at (c : Dev nD) (t : Fin cfg0.N) (i : Fin 4096) :
    iblk m c 1 t (ix2 i 0) = (V m c main_v6 : S4096x1.Idx → Elt F .i32) (ix2 i 0) := by
  obtain ⟨-, -, e0, e1, -⟩ := idx_facts t
  show V m c main_v6 (((cfg0.win 1).blk t).view.emb (ix2 i 0)) = V m c main_v6 (ix2 i 0)
  refine congrArg _ (funext fun a => Fin.ext ?_)
  match a with
  | ⟨0, _⟩ => show win0_1.index t (0 : Fin 2) * 4096 + 1 * i.val = i.val; omega
  | ⟨1, _⟩ => show win0_1.index t (1 : Fin 2) * 1 + 1 * 0 = 0; omega

/-- The column-label block at point `t` is columns `512 * min t 7 + q` of the label row. -/
theorem iblk2_at (c : Dev nD) (t : Fin cfg0.N) (q : Fin 512) :
    iblk m c 2 t (ix2 0 q) = (V m c main_v7 : S1x4096.Idx → Elt F .i32) (ix2 0 ⟨512 * min t.val 7 + q.val, by omega⟩) := by
  obtain ⟨-, -, -, -, e0, e1, -⟩ := idx_facts t
  show V m c main_v7 (((cfg0.win 2).blk t).view.emb (ix2 0 q)) = V m c main_v7 (ix2 0 ⟨512 * min t.val 7 + q.val, by omega⟩)
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = 512 * min t.val 7 + q.val; omega

/-- The proxy block at point `t` is rows `512 * t + q` of the joined table. -/
theorem iblk3_at (c : Dev nD) (t : Fin cfg0.N) (q : Fin 512) (d : Fin 128) :
    iblk m c 3 t (ix2 q d) = (V m c main_v5 : S20480x128.Idx → Elt F .f32)
      (ix2 ⟨512 * t.val + q.val, by have := lt_of_lt_of_eq t.isLt (show cfg0.N = 40 from N_0); omega⟩ d) := by
  obtain ⟨-, -, -, -, -, -, e0, e1, -⟩ := idx_facts t
  show V m c main_v5 (((cfg0.win 3).blk t).view.emb (ix2 q d)) = V m c main_v5 (ix2 ⟨512 * t.val + q.val, _⟩ d)
  refine congrArg _ (funext fun a => Fin.ext ?_)
  match a with
  | ⟨0, _⟩ => show win0_3.index t (0 : Fin 2) * 512 + 1 * q.val = 512 * t.val + q.val; omega
  | ⟨1, _⟩ => show win0_3.index t (1 : Fin 2) * 128 + 1 * d.val = d.val; omega

/-! ## The two output arrays after the run -/

/-- An index of an output array is in point `t`'s block iff its column is among the point's 512. -/
theorem mem_blk4 (t : Fin cfg0.N) (i : S1x20480.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v8_0).slice (win0_4.rect t)).set ↔ _
  rw [View.set_slice_whole, Rect.mem_set_unit]
  exact Iff.rfl
theorem mem_blk5 (t : Fin cfg0.N) (i : S1x20480.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v8_1).slice (win0_5.rect t)).set ↔ _
  rw [View.set_slice_whole, Rect.mem_set_unit]
  exact Iff.rfl

/-- Different points write different column ranges. -/
theorem disj4 (t t' : Fin cfg0.N) (_ : (cfg0.win 4).flush t = true) (_ : (cfg0.win 4).flush t' = true) (hne : t ≠ t') :
    Disjoint ((cfg0.win 4).blk t).view.set ((cfg0.win 4).blk t').view.set := by
  rw [Finset.disjoint_left]
  intro i hi hi'
  rw [mem_blk4] at hi hi'
  have b := hi 1; have b' := hi' 1
  obtain ⟨-, -, -, -, -, -, -, -, -, e, -⟩ := idx_facts t
  obtain ⟨-, -, -, -, -, -, -, -, -, e', -⟩ := idx_facts t'
  have b1 : win0_4.index t (1 : Fin 2) * 512 ≤ (i 1).val ∧ (i 1).val < win0_4.index t (1 : Fin 2) * 512 + 512 := b
  have b1' : win0_4.index t' (1 : Fin 2) * 512 ≤ (i 1).val ∧ (i 1).val < win0_4.index t' (1 : Fin 2) * 512 + 512 := b'
  exact hne (Fin.ext (by omega))
theorem disj5 (t t' : Fin cfg0.N) (_ : (cfg0.win 5).flush t = true) (_ : (cfg0.win 5).flush t' = true) (hne : t ≠ t') :
    Disjoint ((cfg0.win 5).blk t).view.set ((cfg0.win 5).blk t').view.set := by
  rw [Finset.disjoint_left]
  intro i hi hi'
  rw [mem_blk5] at hi hi'
  have b := hi 1; have b' := hi' 1
  obtain ⟨-, -, -, -, -, -, -, -, -, -, -, e⟩ := idx_facts t
  obtain ⟨-, -, -, -, -, -, -, -, -, -, -, e'⟩ := idx_facts t'
  have b1 : win0_5.index t (1 : Fin 2) * 512 ≤ (i 1).val ∧ (i 1).val < win0_5.index t (1 : Fin 2) * 512 + 512 := b
  have b1' : win0_5.index t' (1 : Fin 2) * 512 ≤ (i 1).val ∧ (i 1).val < win0_5.index t' (1 : Fin 2) * 512 + 512 := b'
  exact hne (Fin.ext (by omega))

/-- Column `512 * t + q` of the first output array ends at entry `q` of what point `t` left. -/
theorem arr4_at (c : Dev nD) (t : Fin cfg0.N) (q : Fin 512) :
    ((dats m 0 c).arrAt 4 cfg0.N : S1x20480.Idx → Elt F .f32)
        (ix2 0 ⟨512 * t.val + q.val, by have := lt_of_lt_of_eq t.isLt (show cfg0.N = 40 from N_0); omega⟩)
      = outLse m c t (ix2 0 q) := by
  have h := (dats m 0 c).arrAt_emb_eq_flushed 4 (disj4) t (flush0_4 t) (ix2 0 q)
  obtain ⟨-, -, -, -, -, -, -, -, e0, e1, -⟩ := idx_facts t
  have hidx : ((cfg0.win 4).blk t).view.emb (ix2 0 q) = (ix2 0 ⟨512 * t.val + q.val, by have := lt_of_lt_of_eq t.isLt (show cfg0.N = 40 from N_0); omega⟩ : S1x20480.Idx) := by
    funext a; apply Fin.ext
    match a with
    | ⟨0, _⟩ => show win0_4.index t (0 : Fin 2) * 1 + 1 * 0 = 0; omega
    | ⟨1, _⟩ => show win0_4.index t (1 : Fin 2) * 512 + 1 * q.val = 512 * t.val + q.val; omega
  rw [hidx] at h
  refine h.trans ?_
  show (cfg0.win 4).cut (grid0.coords t) ((dats m 0 c).after 4 t) (ix2 0 q) = _
  rw [after0_4]; rfl
theorem arr5_at (c : Dev nD) (t : Fin cfg0.N) (q : Fin 512) :
    ((dats m 0 c).arrAt 5 cfg0.N : S1x20480.Idx → Elt F .f32)
        (ix2 0 ⟨512 * t.val + q.val, by have := lt_of_lt_of_eq t.isLt (show cfg0.N = 40 from N_0); omega⟩)
      = outNz m c t (ix2 0 q) := by
  have h := (dats m 0 c).arrAt_emb_eq_flushed 5 (disj5) t (flush0_5 t) (ix2 0 q)
  obtain ⟨-, -, -, -, -, -, -, -, -, -, e0, e1⟩ := idx_facts t
  have hidx : ((cfg0.win 5).blk t).view.emb (ix2 0 q) = (ix2 0 ⟨512 * t.val + q.val, by have := lt_of_lt_of_eq t.isLt (show cfg0.N = 40 from N_0); omega⟩ : S1x20480.Idx) := by
    funext a; apply Fin.ext
    match a with
    | ⟨0, _⟩ => show win0_5.index t (0 : Fin 2) * 1 + 1 * 0 = 0; omega
    | ⟨1, _⟩ => show win0_5.index t (1 : Fin 2) * 512 + 1 * q.val = 512 * t.val + q.val; omega
  rw [hidx] at h
  refine h.trans ?_
  show (cfg0.win 5).cut (grid0.coords t) ((dats m 0 c).after 5 t) (ix2 0 q) = _
  rw [after0_5]; rfl

end Cert.KernelIdeal.Hand

end
-- ==== Proof.Spec.lean ====
/-
  The loss both programs compute, written once as plain functions on the extended reals.

  Inputs: a batch `X` of 4096 rows of 128 entries, a table `P` of 16384 proxy rows of 128 entries, and a label per batch
  row. Every batch row and every proxy row is scaled to unit length; for a column (a positive column `j`, whose proxy is
  the row the label of batch row `j` selects, or a negative column `k`, whose proxy is row `k`) the similarities of all
  batch rows to that proxy are scaled and shifted, masked by label agreement, and reduced by a masked log-sum-exp taken
  about the masked minimum (positive) or maximum (negative). A column counts only if its masked maximum plus minimum is
  non-zero; the loss is the mean softplus of the counted positive columns plus that of the counted negative ones.

  Two spellings of one column are given. `colRef` subtracts the margin from every similarity and masks by multiplying
  with 0 or 1. `colShift` keeps the similarities unshifted, masks by selecting the constant `shift` where the mask is
  off, and adds the shift back on the reduced row only. They agree when the unshifted entries are real numbers and
  `w i = c i - shift`, because a common additive constant passes through maximum, minimum and the difference inside
  the exponential.
-/
import Idealize.ShloMosaic.PureOps.Ideal

noncomputable section

namespace Cert.LossSpec

open Idealize.ShloMosaic

/-! ## The literals, kept as the words the programs print -/

/-- The margin 0.1 as the single-precision word the reference prints. -/
def margin : EReal := Ideal.ofBits .f32 0x3DCCCCCD#32
/-- Its negative, -0.1, as printed. -/
def negMargin : EReal := Ideal.ofBits .f32 0xBDCCCCCD#32
/-- The scale 32. -/
def scale : EReal := Ideal.ofBits .f32 0x42000000#32
/-- The scale -32. -/
def negScale : EReal := Ideal.ofBits .f32 0xC2000000#32
/-- The folded shift -3.2 = (-32)·0.1 = 32·(-0.1). -/
def shift : EReal := Ideal.ofBits .f32 0xC04CCCCD#32
/-- Twice the shift, -6.4. -/
def shift2 : EReal := Ideal.ofBits .f32 0xC0CCCCCD#32
/-- One and one half, as printed. -/
def oneW : EReal := Ideal.ofBits .f32 0x3F800000#32
def halfW : EReal := Ideal.ofBits .f32 0x3F000000#32

/-! ## Rows -/

/-- The sum of squares of a row. -/
def ssq (v : Fin 128 → EReal) : EReal := ∑ d, v d * v d

/-- A row divided by its length: `x / sqrt (Σ x²)`. -/
def unitDiv (v : Fin 128 → EReal) (d : Fin 128) : EReal := Ideal.div (v d) (Ideal.sqrt (ssq v))

/-- A row times the reciprocal of its length: `x * rsqrt (Σ x²)`. -/
def unitRsqrt (v : Fin 128 → EReal) (d : Fin 128) : EReal := v d * Ideal.rsqrt (ssq v)

/-- The inner product of two rows. -/
def dot (u v : Fin 128 → EReal) : EReal := ∑ d, u d * v d

/-- A label wrapped as array indexing wraps a negative index: `l + 16384` when `l < 0`. -/
def wrapLabel (l : BitVec 32) : BitVec 32 := if l.slt 0#32 then l + 16384#32 else l

/-- The proxy row a label selects: the wrapped label read signed and clamped into the table. -/
def rowOf (l : BitVec 32) : Fin 16384 := ⟨min (wrapLabel l).toInt.toNat 16383, by omega⟩

/-- 0 or 1 for a truth value. -/
def ind (b : Bool) : EReal := if b then 1 else 0

/-! ## One column, two spellings -/

/-- The masked log-sum-exp of a column and whether the column counts, with the margin already subtracted from every
    entry (`w`) and the mask applied by multiplication. `useMax` chooses the reference point. -/
def colRef (w : Fin 4096 → EReal) (mk : Fin 4096 → Bool) (useMax : Bool) : EReal × Bool :=
  let m : Fin 4096 → EReal := fun i => w i * ind (mk i)
  let mx : EReal := Finset.univ.sup m
  let mn : EReal := Finset.univ.inf m
  let r : EReal := if useMax then mx else mn
  let nz : Bool := decide (mx + mn ≠ 0)
  let s : EReal := ∑ i, Ideal.exp (w i - r) * ind (mk i)
  (Ideal.log (if nz then s else 1) + r, nz)

/-- The same column with the shift folded: entries `c` unshifted, the constant `shift` selected where the mask is off,
    the shift added back on the reduced row. The second component is the count flag as the number 0 or 1. -/
def colShift (c : Fin 4096 → EReal) (mk : Fin 4096 → Bool) (useMax : Bool) : EReal × EReal :=
  let m : Fin 4096 → EReal := fun i => if mk i then c i else shift
  let mx : EReal := Finset.univ.sup m
  let mn : EReal := Finset.univ.inf m
  let r : EReal := if useMax then mx else mn
  let nzf : EReal := ind (decide (mx + mn ≠ shift2))
  let s : EReal := ∑ i, if mk i then Ideal.exp (c i - r) else 0
  (Ideal.log (if nzf ≠ 0 then s else 1) + (r - shift), nzf)

/-! ## The end of the computation -/

/-- Softplus as both programs spell it: `max x 0 + log (1 + exp (-|x - 0|))`. -/
def softplus (x : EReal) : EReal := max x 0 + Ideal.log1p (Ideal.exp (-(max (x - 0) (-(x - 0)))))

/-- The mean of the softplus of the counted columns; an empty count divides by one. -/
def meanOver {n : Nat} (lse : Fin n → EReal) (nz : Fin n → Bool) : EReal :=
  Ideal.div (∑ j, if nz j then softplus (lse j) else 0) (max (∑ j, ind (nz j)) 1)

/-! ## The loss -/

section Loss

variable (X : Fin 4096 → Fin 128 → EReal) (P : Fin 16384 → Fin 128 → EReal) (lab : Fin 4096 → BitVec 32)

/-- Batch row `i` against the unit proxy of positive column `j`, margin subtracted and scaled by -32. -/
def wPos (i j : Fin 4096) : EReal := negScale * (dot (unitDiv (X i)) (unitDiv (P (rowOf (lab j)))) - margin)
/-- Batch row `i` against unit proxy `k`, margin subtracted and scaled by 32. -/
def wNeg (i : Fin 4096) (k : Fin 16384) : EReal := scale * (dot (unitDiv (X i)) (unitDiv (P k)) - negMargin)

/-- Positive columns keep the batch rows with the column's label; negative columns drop the rows labelled `k`. -/
def maskPos (i j : Fin 4096) : Bool := decide (lab i = lab j)
def maskNeg (i : Fin 4096) (k : Fin 16384) : Bool := decide (lab i ≠ BitVec.ofNat 32 k.val)

def posCol (j : Fin 4096) : EReal × Bool := colRef (fun i => wPos X P lab i j) (fun i => maskPos lab i j) false
def negCol (k : Fin 16384) : EReal × Bool := colRef (fun i => wNeg X P i k) (fun i => maskNeg lab i k) true

/-- The loss. -/
def loss : EReal :=
  meanOver (fun j => (posCol X P lab j).1) (fun j => (posCol X P lab j).2)
    + meanOver (fun k => (negCol X P lab k).1) (fun k => (negCol X P lab k).2)

/-- The same columns as the kernel holds them: unshifted products against the proxy scaled by ∓32. -/
def cPos (i j : Fin 4096) : EReal := dot (unitDiv (X i)) (fun d => unitRsqrt (P (rowOf (lab j))) d * negScale)
def cNeg (i : Fin 4096) (k : Fin 16384) : EReal := dot (unitDiv (X i)) (fun d => unitRsqrt (P k) d * scale)

def posColShift (j : Fin 4096) : EReal × EReal := colShift (fun i => cPos X P lab i j) (fun i => maskPos lab i j) false
def negColShift (k : Fin 16384) : EReal × EReal := colShift (fun i => cNeg X P i k) (fun i => maskNeg lab i k) true

/-- The loss from the shifted columns, the count flag recovered by comparing the stored number with one half. -/
def lossShift : EReal :=
  meanOver (fun j => (posColShift X P lab j).1) (fun j => decide (halfW < (posColShift X P lab j).2))
    + meanOver (fun k => (negColShift X P lab k).1) (fun k => decide (halfW < (negColShift X P lab k).2))

/-- What the precondition gives: every entry a real number, every row of non-zero length, every label a row of the table. -/
structure Admissible : Prop where
  realX : ∀ i d, ∃ r : ℝ, X i d = (r : EReal)
  realP : ∀ k d, ∃ r : ℝ, P k d = (r : EReal)
  posX : ∀ i, 0 < ssq (X i)
  posP : ∀ k, 0 < ssq (P k)
  labRange : ∀ i, (0#32).sle (lab i) = true ∧ (lab i).slt 16384#32 = true

end Loss

end Cert.LossSpec

end
-- ==== Proof.KI.Payload.lean ====
/-
  The kernel body's arithmetic read at an index, at the ideal values.

  Each grid point loads a block of 512 proxy rows (512 × 128), the whole batch of unit rows (4096 × 128), the batch
  labels as a column (4096 × 1) and, on the positive points, 512 column labels (1 × 512). The body scales every proxy
  row to unit length with a reciprocal square root and multiplies it by ∓32, forms the 4096 × 512 products of batch rows
  with scaled proxy rows, masks them by label agreement (positive columns: the row's label equals the column's label;
  negative columns: the row's label differs from the column's number), selects the constant shift where the mask is
  off, and reduces down each column: the maximum, the minimum, the count flag "maximum + minimum ≠ twice the shift" as the
  number 0 or 1, the sum of the masked exponentials about the reference row (the minimum on positive columns, the
  maximum on negative ones), and the logarithm of that sum plus the reference row minus the shift.

  Read at column `q` this is exactly the specification's shifted column `colShift` of the products `c i` and the
  mask `mk i`: `pos_lse`, `pos_nz` for the positive branch, `neg_lse`, `neg_nz` for the negative one. The proof goes
  bottom-up, one lemma per named value of the body read at `(i, q)` or `(0, q)`: a change of format is the identity, a
  pointwise operation acts on the entries, a cast or a broadcast along a unit axis re-reads the same entry, a sum over
  one axis is the finite sum over that axis's coordinates, a maximum or minimum down a column from -∞ or +∞ is the
  supremum or infimum over the rows, and the block product into a zero accumulator is the inner product of the two rows.
-/
import proofs.«402344_j24489903522255_3_alg».proof.Proof.Gen.KernelIdeal.Skeleton
import proofs.«402344_j24489903522255_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Cert.LossSpec Idealize.ShloMosaic Idealize.ShloMosaic.ValueIdx

/-! ## Rows of the loaded blocks, and one column of a block as the specification's shifted column -/

/-- Batch row `i` of the loaded batch block. -/
def brow (v17 : Vec Ideal S4096x128 .bf16) (i : Fin 4096) : Fin 128 → EReal := fun d => v17 (ix2 i d)

/-- Proxy row `q` of the loaded proxy block. -/
def prow (v6 : Vec Ideal S512x128 .f32) (q : Fin 512) : Fin 128 → EReal := fun d => v6 (ix2 q d)

/-- Positive column `q` of a block: the batch rows against proxy row `q` scaled to unit length and by -32, kept where
    the row's label equals the column's label, reduced about the masked minimum. -/
def posBlockCol (v6 : Vec Ideal S512x128 .f32) (v17 : Vec Ideal S4096x128 .bf16) (v20 : Vec Ideal S4096x1 .i32) (v22 : Vec Ideal S1x512 .i32) (q : Fin 512) : EReal × EReal :=
  colShift (fun i => dot (brow v17 i) (fun d => unitRsqrt (prow v6 q) d * negScale)) (fun i => decide (v20 (ix2 i 0) = v22 (ix2 0 q))) false

/-- Negative column `q` of the block at grid coordinate `arg0`: the batch rows against proxy row `q` scaled to unit
    length and by 32, kept where the row's label differs from the column's number `(arg0 - 8) · 512 + q`, reduced
    about the masked maximum. -/
def negBlockCol (arg0 : BitVec 32) (v6 : Vec Ideal S512x128 .f32) (v17 : Vec Ideal S4096x128 .bf16) (v20 : Vec Ideal S4096x1 .i32) (q : Fin 512) : EReal × EReal :=
  colShift (fun i => dot (brow v17 i) (fun d => unitRsqrt (prow v6 q) d * scale)) (fun i => decide (v20 (ix2 i 0) ≠ (arg0 - 8#32) * 512#32 + BitVec.ofNat 32 q.val)) true

variable [Cert.KernelIdeal.Facts]

/-! ## Casts and broadcasts along a unit axis, read at an index -/

section Layout
variable {α : Type}

/-- A cast of a matrix to its own shape reads the same entry. -/
theorem shapeCast_ab_ab_apply {a b : ℕ} (x : (⟨2, ![a, b]⟩ : Shape).Idx → α)
    (h : (⟨2, ![a, b]⟩ : Shape).ShapeCasts ⟨2, ![a, b]⟩) (i : Fin a) (j : Fin b) :
    shapeCast ⟨2, ![a, b]⟩ x h (ix2 i j) = x (ix2 i j) :=
  shapeCast_apply x h _ _ rfl

/-- A vector cast to a column reads, at `(i, u)`, the vector at `i`: the row-major positions `i` and `i · 1 + u`
    agree because `u = 0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the lanes reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions over one axis, read at an index -/

section Reductions

/-- Over result index `q` of a 512 × 128 block reduced along its lanes, the source index with lane `d` inserted is `(q, d)`. -/
theorem lift_S512x128 (h : S512x128.Reduces [1] S512) (q : Fin 512) (d : Fin 128) :
    h.lift (ix1 q) d = ix2 q d := by
  funext c
  match c with
  | ⟨0, _⟩ => exact Fin.ext rfl
  | ⟨1, _⟩ => exact Fin.ext rfl

/-- Over result index `q` of a 4096 × 512 block reduced down its columns, the source index with row `i` inserted is `(i, q)`. -/
theorem lift_S4096x512 (h : S4096x512.Reduces [0] S512) (q : Fin 512) (i : Fin 4096) :
    h.lift (ix1 q) i = ix2 i q := by
  funext c
  match c with
  | ⟨0, _⟩ => exact Fin.ext rfl
  | ⟨1, _⟩ => exact Fin.ext rfl

/-- The sum along the lanes of a 512 × 128 block, at row `q`: `∑ d, v (q, d)`. -/
theorem laneSum_apply (v : FVec Ideal S512x128 .f32) (h : S512x128.Reduces [1] S512) (hφ : FKind.Formats .f32)
    (hacc : (0x00000000#32 : BitVec 32) = FKind.add.neutral .f32 hφ) (q : Fin 512) :
    multiReduction .add [1] S512 v 0x00000000#32 h hφ hacc (ix1 q) = ∑ d : Fin 128, v (ix2 q d) := by
  refine (Ideal.multiReduction_add_single v _ h hφ hacc (ix1 q)).trans ?_
  exact Finset.sum_congr rfl fun d _ => congrArg v (lift_S512x128 h q d)

/-- The sum down the columns of a 4096 × 512 block, at column `q`: `∑ i, v (i, q)`. -/
theorem colSum_apply (v : FVec Ideal S4096x512 .f32) (h : S4096x512.Reduces [0] S512) (hφ : FKind.Formats .f32)
    (hacc : (0x00000000#32 : BitVec 32) = FKind.add.neutral .f32 hφ) (q : Fin 512) :
    multiReduction .add [0] S512 v 0x00000000#32 h hφ hacc (ix1 q) = ∑ i : Fin 4096, v (ix2 i q) := by
  refine (Ideal.multiReduction_add_single v _ h hφ hacc (ix1 q)).trans ?_
  exact Finset.sum_congr rfl fun i _ => congrArg v (lift_S4096x512 h q i)

/-- The sixteen-bit word of -∞ denotes the bottom of the extended reals … -/
theorem ofBits_bf16_negInf : Ideal.ofBits .bf16 0xFF80#16 = (⊥ : EReal) := by
  simp [Ideal.ofBits, Ideal.ieee]

/-- … and that of +∞ the top. -/
theorem ofBits_bf16_posInf : Ideal.ofBits .bf16 0x7F80#16 = (⊤ : EReal) := by
  simp [Ideal.ofBits, Ideal.ieee]

/-- A minimum over one axis is the fold of `min` from the accumulator's value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The maximum down the columns from -∞, at column `q`: the supremum over the rows (a supremum over a finite set is
    the fold of `max` from `⊥`). -/
theorem colMax_apply (v : FVec Ideal S4096x512 .bf16) (h : S4096x512.Reduces [0] S512) (hφ : FKind.Formats .bf16)
    (hacc : (0xFF80#16 : BitVec 16) = FKind.maximumf.neutral .bf16 hφ) (q : Fin 512) :
    multiReduction .maximumf [0] S512 v 0xFF80#16 h hφ hacc (ix1 q) = Finset.univ.sup fun i : Fin 4096 => v (ix2 i q) := by
  refine (Ideal.multiReduction_maximumf_single v _ h hφ hacc (ix1 q)).trans ?_
  have e : (v ∘ h.lift (ix1 q)) = fun i : Fin 4096 => v (ix2 i q) := funext fun i => congrArg v (lift_S4096x512 h q i)
  rw [e]
  show Finset.fold max (Ideal.ofBits .bf16 0xFF80#16) _ _ = _
  rw [ofBits_bf16_negInf]
  rfl

/-- The minimum down the columns from +∞, at column `q`: the infimum over the rows. -/
theorem colMin_apply (v : FVec Ideal S4096x512 .bf16) (h : S4096x512.Reduces [0] S512) (hφ : FKind.Formats .bf16)
    (hacc : (0x7F80#16 : BitVec 16) = FKind.minimumf.neutral .bf16 hφ) (q : Fin 512) :
    multiReduction .minimumf [0] S512 v 0x7F80#16 h hφ hacc (ix1 q) = Finset.univ.inf fun i : Fin 4096 => v (ix2 i q) := by
  refine (multiReduction_minimumf_single v _ h hφ hacc (ix1 q)).trans ?_
  have e : (v ∘ h.lift (ix1 q)) = fun i : Fin 4096 => v (ix2 i q) := funext fun i => congrArg v (lift_S4096x512 h q i)
  rw [e]
  show Finset.fold min (Ideal.ofBits .bf16 0x7F80#16) _ _ = _
  rw [ofBits_bf16_posInf]
  rfl

end Reductions

/-! ## The block product: batch rows against proxy rows, contracted over the 128 entries of a row -/

section Product

/-- The left operand's index at output `j` and contraction index `k`: row `j 0` … -/
theorem lhsIdx_0 (j : S4096x512.Idx) (k : dot_S4096x128_S512x128_S4096x512_1_1_0_0_n_n.contr.Idx) :
    (dot_S4096x128_S512x128_S4096x512_1_1_0_0_n_n.lhsIdx j k 0).val = (j 0).val := by
  unfold DotDims.lhsIdx
  rw [dif_neg (show ¬(0 : Fin S4096x128.rank) ∈ dot_S4096x128_S512x128_S4096x512_1_1_0_0_n_n.lhsBatch by decide), dif_pos (show (0 : Fin S4096x128.rank) ∈ dot_S4096x128_S512x128_S4096x512_1_1_0_0_n_n.lhsNonContracting by decide)]
  rfl
/-- … entry `k`. -/
theorem lhsIdx_1 (j : S4096x512.Idx) (k : dot_S4096x128_S512x128_S4096x512_1_1_0_0_n_n.contr.Idx) :
    (dot_S4096x128_S512x128_S4096x512_1_1_0_0_n_n.lhsIdx j k 1).val = (k ⟨0, by decide⟩).val :=
  dot_S4096x128_S512x128_S4096x512_1_1_0_0_n_n.lhsIdx_val_of_single rfl j k
/-- The right operand's index: row `j 1` … -/
theorem rhsIdx_0 (j : S4096x512.Idx) (k : dot_S4096x128_S512x128_S4096x512_1_1_0_0_n_n.contr.Idx) :
    (dot_S4096x128_S512x128_S4096x512_1_1_0_0_n_n.rhsIdx j k 0).val = (j 1).val := by
  unfold DotDims.rhsIdx
  rw [dif_neg (show ¬(0 : Fin S512x128.rank) ∈ dot_S4096x128_S512x128_S4096x512_1_1_0_0_n_n.rhsBatch by decide), dif_pos (show (0 : Fin S512x128.rank) ∈ dot_S4096x128_S512x128_S4096x512_1_1_0_0_n_n.rhsNonContracting by decide)]
  rfl
/-- … entry `k`. -/
theorem rhsIdx_1 (j : S4096x512.Idx) (k : dot_S4096x128_S512x128_S4096x512_1_1_0_0_n_n.contr.Idx) :
    (dot_S4096x128_S512x128_S4096x512_1_1_0_0_n_n.rhsIdx j k 1).val = (k ⟨0, by decide⟩).val :=
  dot_S4096x128_S512x128_S4096x512_1_1_0_0_n_n.rhsIdx_val_of_single rfl j k

/-- The product into the zero accumulator, at `(i, q)`: `∑ d, lhs (i, d) · rhs (q, d)`, the contraction index re-read as
    its one coordinate. -/
theorem matmul_apply (lhs : FVec Ideal S4096x128 .bf16) (rhs : FVec Ideal S512x128 .bf16) (i : Fin 4096) (q : Fin 512) :
    FloatOps.matmul dot_S4096x128_S512x128_S4096x512_1_1_0_0_n_n none lhs rhs (constant S4096x512 .f32 0x00000000#32) (ix2 i q)
      = ∑ d : Fin 128, lhs (ix2 i d) * rhs (ix2 q d) := by
  refine (Ideal.matmul_constant_zero_apply dot_S4096x128_S512x128_S4096x512_1_1_0_0_n_n none lhs rhs (ix2 i q)).trans ?_
  refine (Equiv.sum_comp (contrEquiv1 dot_S4096x128_S512x128_S4096x512_1_1_0_0_n_n 128 rfl rfl).symm _).symm.trans ?_
  refine Finset.sum_congr rfl fun k _ => ?_
  have hk := contrEquiv1_symm_val dot_S4096x128_S512x128_S4096x512_1_1_0_0_n_n 128 rfl rfl k
  have el : dot_S4096x128_S512x128_S4096x512_1_1_0_0_n_n.lhsIdx (ix2 i q) ((contrEquiv1 dot_S4096x128_S512x128_S4096x512_1_1_0_0_n_n 128 rfl rfl).symm k) = ix2 i k := funext fun a => Fin.ext (by
    match a with
    | ⟨0, _⟩ => exact lhsIdx_0 _ _
    | ⟨1, _⟩ => exact (lhsIdx_1 _ _).trans hk)
  have er : dot_S4096x128_S512x128_S4096x512_1_1_0_0_n_n.rhsIdx (ix2 i q) ((contrEquiv1 dot_S4096x128_S512x128_S4096x512_1_1_0_0_n_n 128 rfl rfl).symm k) = ix2 q k := funext fun a => Fin.ext (by
    match a with
    | ⟨0, _⟩ => exact rhsIdx_0 _ _
    | ⟨1, _⟩ => exact (rhsIdx_1 _ _).trans hk)
  rw [el, er]

end Product

/-! ## Words: a select on a comparison is the `if` on the relation, and the count flag is 0 or 1 -/

section Words

variable {α : Type}

/-- A select on the bit of a truth value is the `if` on it. -/
theorem select_ofBool (c : Bool) (a b : α) : Scalar.select (BitVec.ofBool c) a b = if c then a else b := by
  cases c
  · exact select_zero a b
  · exact select_one a b

/-- A select on "the words are equal". -/
theorem select_cmpi_eq (x y : BitVec 32) (a b : α) :
    Scalar.select (IntOp.cmpi .eq x y) a b = if decide (x = y) then a else b := by
  show Scalar.select (BitVec.ofBool (x == y)) a b = _
  rw [select_ofBool]
  by_cases h : x = y <;> simp [h]

/-- A select on "the words differ". -/
theorem select_cmpi_ne (x y : BitVec 32) (a b : α) :
    Scalar.select (IntOp.cmpi .ne x y) a b = if decide (x ≠ y) then a else b := by
  show Scalar.select (BitVec.ofBool (x != y)) a b = _
  rw [select_ofBool]
  by_cases h : x = y <;> simp [h]

/-- A select on "the extended reals differ". -/
theorem select_cmp_one (x y : EReal) (a b : α) :
    Scalar.select (Ideal.cmp .one x y) a b = if x ≠ y then a else b := by
  by_cases h : x = y
  · subst h; simp [Scalar.select, Ideal.cmp]
  · simp [Scalar.select, Ideal.cmp, h]

/-- The bit of "the extended reals differ", widened to a word and converted to a number, is 1 or 0. -/
theorem sitofp_extui_cmp_one (x y : EReal) :
    (FloatOps.sitofp (F := Ideal) .f32 ((Ideal.cmp .one x y).setWidth 32) : EReal) = ind (decide (x ≠ y)) := by
  by_cases h : x = y
  · subst h; simp [FloatOps.sitofp, Ideal.cmp, ind]
  · simp [FloatOps.sitofp, Ideal.cmp, ind, h]

/-- The single-precision word of 1.0 denotes 1. -/
theorem ofBits_one_f32 : Ideal.ofBits .f32 0x3F800000#32 = 1 := IdealRules.sign_bit.ideal_onePat .f32

/-- The count flag of a row `a + b` against a constant `c`, read at an index: 1 where `a + b ≠ c`, else 0. -/
theorem flag_apply {s : Shape} (a b : FVec Ideal s .f32) (c : EReal) (h : 1 < 32) (j : s.Idx) :
    (sitofp .f32 (extui 32 (cmpf .one (addf a b) (broadcast s c)) h) : FVec Ideal s .f32) j
      = ind (decide (a j + b j ≠ c)) :=
  sitofp_extui_cmp_one _ _

end Words

/-! ## The scaled proxy rows -/

section Scaled

/-- The proxy block with every row scaled to unit length and multiplied by a constant `c`, read at `(q, d)`: entry `d`
    of row `q` times the reciprocal square root of the row's sum of squares, times `c`. -/
theorem scaledRows_apply (c : EReal) (v6 : Vec Ideal S512x128 .f32)
    (h1 : S512x128.ShapeCasts S512x128) (h2 : S512x128.Reduces [1] S512) (hφ : FKind.Formats .f32)
    (hacc : (0x00000000#32 : BitVec 32) = FKind.add.neutral .f32 hφ)
    (h3 : S512.ShapeCasts S512x1) (h4 : S512x1.Broadcasts S512x128) (h5 : FTy.bits .bf16 < FTy.bits .f32)
    (q : Fin 512) (d : Fin 128) :
    (truncf .bf16
      (mulf
        (mulf (shapeCast S512x128 v6 h1)
          (broadcastTo S512x128
            (rsqrt (shapeCast S512x1
              (multiReduction .add [1] S512 (mulf (shapeCast S512x128 v6 h1) (shapeCast S512x128 v6 h1)) 0x00000000#32 h2 hφ hacc) h3)) h4))
        (broadcast S512x128 c)) h5 : FVec Ideal S512x128 .bf16) (ix2 q d)
      = unitRsqrt (prow v6 q) d * c := by
  show (shapeCast S512x128 v6 h1 (ix2 q d) * broadcastTo S512x128 _ h4 (ix2 q d)) * c = _
  rw [broadcastTo_a1_ab_apply, shapeCast_ab_ab_apply]
  show (v6 (ix2 q d) * Ideal.rsqrt (shapeCast S512x1 _ h3 (ix2 q 0))) * c = _
  rw [shapeCast_a_a1_apply, laneSum_apply]
  unfold unitRsqrt ssq prow
  refine congrArg (fun s => v6 (ix2 q d) * Ideal.rsqrt s * c) ?_
  refine Finset.sum_congr rfl fun d' _ => ?_
  show shapeCast S512x128 v6 h1 (ix2 q d') * shapeCast S512x128 v6 h1 (ix2 q d') = _
  rw [shapeCast_ab_ab_apply]

end Scaled

/-! ## The positive branch, value by value -/

section Positive

variable (v6 : Vec Ideal S512x128 .f32) (v17 : Vec Ideal S4096x128 .bf16) (v20 : Vec Ideal S4096x1 .i32) (v22 : Vec Ideal S1x512 .i32)

/-- The product block of the positive branch at an entry: the batch row against the proxy row scaled to unit length and by -32. -/
def posC (i : Fin 4096) (q : Fin 512) : EReal :=
  dot (brow v17 i) (fun d => unitRsqrt (prow v6 q) d * negScale)

/-- The positive branch's mask at an entry. -/
def posMask (i : Fin 4096) (q : Fin 512) : Bool := decide (v20 (ix2 i 0) = v22 (ix2 0 q))

/-- The products of the positive branch at `(i, q)`: the inner product of batch row `i` with the scaled proxy row `q`. -/
theorem pay3_apply (i : Fin 4096) (q : Fin 512) : k0_pay3 (F := Ideal) v6 v17 (ix2 i q) = posC v6 v17 i q := by
  unfold k0_pay3
  refine (matmul_apply _ _ i q).trans ?_
  unfold posC dot
  refine Finset.sum_congr rfl fun d _ => ?_
  exact congrArg₂ (· * ·) (shapeCast_ab_ab_apply v17 _ i d) (scaledRows_apply negScale v6 _ _ _ _ _ _ _ q d)

/-- The positive mask at `(i, q)`: the comparison of row `i`'s label with column `q`'s label. -/
theorem pay4_apply (i : Fin 4096) (q : Fin 512) :
    k0_pay4 (F := Ideal) v20 v22 (ix2 i q) = IntOp.cmpi .eq (v20 (ix2 i 0)) (v22 (ix2 0 q)) := by
  unfold k0_pay4
  show IntOp.cmpi .eq (broadcastTo S4096x512 (shapeCast S4096x1 v20 _) _ (ix2 i q)) (broadcastTo S4096x512 (shapeCast S1x512 v22 _) _ (ix2 i q)) = _
  rw [broadcastTo_a1_ab_apply, broadcastTo_1b_ab_apply, shapeCast_ab_ab_apply, shapeCast_ab_ab_apply]

/-- The masked products at `(i, q)`: the product where the mask is on, the shift where it is off. -/
theorem pay5_apply (i : Fin 4096) (q : Fin 512) :
    k0_pay5 (F := Ideal) v6 v17 v20 v22 (ix2 i q) = if posMask v20 v22 i q then posC v6 v17 i q else shift := by
  unfold k0_pay5
  show Scalar.select (k0_pay4 (F := Ideal) v20 v22 (ix2 i q)) (k0_pay3 (F := Ideal) v6 v17 (ix2 i q)) (Ideal.ofBits .f32 0xC04CCCCD#32) = _
  rw [pay4_apply, pay3_apply, select_cmpi_eq]
  rfl

/-- The reference row of the positive branch at column `q`: the infimum of the masked products over the rows. -/
theorem pay6_apply (q : Fin 512) :
    k0_pay6 (F := Ideal) v6 v17 v20 v22 (ix2 0 q)
      = Finset.univ.inf fun i : Fin 4096 => if posMask v20 v22 i q then posC v6 v17 i q else shift := by
  unfold k0_pay6
  refine (extf_apply (φ := .bf16) (ψ := .f32) _ _ (ix2 0 q)).trans ?_
  refine (shapeCast_a_1a_apply _ _ 0 q).trans ?_
  refine (colMin_apply _ _ _ _ q).trans ?_
  exact congrArg (Finset.univ.inf) (funext fun i => pay5_apply v6 v17 v20 v22 i q)

/-- The count flag of the positive branch at column `q`: 1 where supremum plus infimum differs from twice the shift, else 0. -/
theorem pay7_apply (q : Fin 512) :
    k0_pay7 (F := Ideal) v6 v17 v20 v22 (ix2 0 q)
      = ind (decide ((Finset.univ.sup fun i : Fin 4096 => if posMask v20 v22 i q then posC v6 v17 i q else shift)
          + (Finset.univ.inf fun i : Fin 4096 => if posMask v20 v22 i q then posC v6 v17 i q else shift) ≠ shift2)) := by
  unfold k0_pay7
  refine (flag_apply _ _ _ _ (ix2 0 q)).trans ?_
  refine congrArg₂ (fun a b => ind (decide (a + b ≠ shift2))) ?_ (pay6_apply v6 v17 v20 v22 q)
  refine (extf_apply (φ := .bf16) (ψ := .f32) _ _ (ix2 0 q)).trans ?_
  refine (shapeCast_a_1a_apply _ _ 0 q).trans ?_
  refine (colMax_apply _ _ _ _ q).trans ?_
  exact congrArg (Finset.univ.sup) (funext fun i => pay5_apply v6 v17 v20 v22 i q)

/-- The sum of the masked exponentials about the reference row, at column `q`. -/
theorem pay8_apply (q : Fin 512) :
    k0_pay8 (F := Ideal) v6 v17 v20 v22 (ix2 0 q)
      = ∑ i : Fin 4096, if posMask v20 v22 i q then Ideal.exp (posC v6 v17 i q - k0_pay6 (F := Ideal) v6 v17 v20 v22 (ix2 0 q)) else 0 := by
  unfold k0_pay8
  refine (shapeCast_a_1a_apply _ _ 0 q).trans ?_
  refine (colSum_apply _ _ _ _ q).trans ?_
  refine Finset.sum_congr rfl fun i _ => ?_
  show Scalar.select (k0_pay4 (F := Ideal) v20 v22 (ix2 i q))
      (Ideal.exp (k0_pay3 (F := Ideal) v6 v17 (ix2 i q) - broadcastTo S4096x512 (k0_pay6 (F := Ideal) v6 v17 v20 v22) _ (ix2 i q)))
      (Ideal.ofBits .f32 0x00000000#32) = _
  rw [pay4_apply, pay3_apply, select_cmpi_eq, broadcastTo_1b_ab_apply, Ideal.ofBits_zero_f32]
  rfl

end Positive

/-! ## The positive column -/

section PositiveColumn

variable (v6 : Vec Ideal S512x128 .f32) (v17 : Vec Ideal S4096x128 .bf16) (v20 : Vec Ideal S4096x1 .i32) (v22 : Vec Ideal S1x512 .i32)

/-- The stored row at an index: the logarithm of the sum where the flag is not zero (of 1 where it is), plus the
    reference row minus the shift. -/
theorem pay1_apply (v35 v40 v47 : FVec Ideal S1x512 .f32) (j : S1x512.Idx) :
    k0_pay1 (F := Ideal) v35 v40 v47 (Scalar.ofBits .f32 0x00000000#32) j
      = Ideal.log (if v40 j ≠ 0 then v47 j else 1) + (v35 j - shift) := by
  unfold k0_pay1
  show Ideal.log (Scalar.select (Ideal.cmp .one (v40 j) (Ideal.ofBits .f32 0x00000000#32)) (v47 j) (Ideal.ofBits .f32 0x3F800000#32))
      + (v35 j - Ideal.ofBits .f32 0xC04CCCCD#32) = _
  rw [select_cmp_one, Ideal.ofBits_zero_f32, ofBits_one_f32]
  rfl

/-- The positive branch's count flag at column `q` is the shifted column's second component. -/
theorem pos_nz (q : Fin 512) : k0_pay7 (F := Ideal) v6 v17 v20 v22 (ix2 0 q) = (posBlockCol v6 v17 v20 v22 q).2 :=
  pay7_apply v6 v17 v20 v22 q

/-- The positive branch's stored row at column `q` is the shifted column's first component. -/
theorem pos_lse (q : Fin 512) :
    k0_pay1 (F := Ideal) (k0_pay6 v6 v17 v20 v22) (k0_pay7 v6 v17 v20 v22) (k0_pay8 v6 v17 v20 v22) (Scalar.ofBits .f32 0x00000000#32) (ix2 0 q)
      = (posBlockCol v6 v17 v20 v22 q).1 := by
  rw [pay1_apply, pay7_apply, pay8_apply, pay6_apply]
  rfl

end PositiveColumn

/-! ## The negative branch, value by value, and the negative column -/

section Negative

variable (arg0 : BitVec 32) (v6 : Vec Ideal S512x128 .f32) (v17 : Vec Ideal S4096x128 .bf16) (v20 : Vec Ideal S4096x1 .i32)

/-- The product block of the negative branch at an entry: the batch row against the proxy row scaled to unit length and by 32. -/
def negC (i : Fin 4096) (q : Fin 512) : EReal :=
  dot (brow v17 i) (fun d => unitRsqrt (prow v6 q) d * scale)

/-- The negative branch's mask at an entry: the batch row's label differs from the column's number. -/
def negMask (i : Fin 4096) (q : Fin 512) : Bool :=
  decide (v20 (ix2 i 0) ≠ (arg0 - 8#32) * 512#32 + BitVec.ofNat 32 q.val)

/-- The products of the negative branch at `(i, q)`: the inner product of batch row `i` with the scaled proxy row `q`. -/
theorem pay9_apply (i : Fin 4096) (q : Fin 512) : k0_pay9 (F := Ideal) v6 v17 (ix2 i q) = negC v6 v17 i q := by
  unfold k0_pay9
  refine (matmul_apply _ _ i q).trans ?_
  unfold negC dot
  refine Finset.sum_congr rfl fun d _ => ?_
  exact congrArg₂ (· * ·) (shapeCast_ab_ab_apply v17 _ i d) (scaledRows_apply scale v6 _ _ _ _ _ _ _ q d)

/-- The negative mask at `(i, q)`: row `i`'s label compared with the column's number `(arg0 - 8) · 512 + q`, the lane
    counter along axis 1 reading `q`. -/
theorem pay10_apply (i : Fin 4096) (q : Fin 512) :
    k0_pay10 (F := Ideal) arg0 v20 (ix2 i q)
      = IntOp.cmpi .ne (v20 (ix2 i 0)) ((arg0 - 8#32) * 512#32 + BitVec.ofNat 32 q.val) := by
  unfold k0_pay10
  show IntOp.cmpi .ne (broadcastTo S4096x512 (shapeCast S4096x1 v20 _) _ (ix2 i q))
      (broadcastTo S4096x512 (addi (broadcast S1x512 (Scalar.muli (Scalar.subi arg0 8#32) 512#32)) (iota .tc S1x512 32 [1] _)) _ (ix2 i q)) = _
  rw [broadcastTo_a1_ab_apply, broadcastTo_1b_ab_apply, shapeCast_ab_ab_apply]
  show IntOp.cmpi .ne (v20 (ix2 i 0)) ((arg0 - 8#32) * 512#32 + BitVec.ofNat 32 (0 * 512 + q.val)) = _
  rw [Nat.zero_mul, Nat.zero_add]

/-- The masked products at `(i, q)`: the product where the mask is on, the shift where it is off. -/
theorem pay11_apply (i : Fin 4096) (q : Fin 512) :
    k0_pay11 (F := Ideal) arg0 v6 v17 v20 (ix2 i q) = if negMask arg0 v20 i q then negC v6 v17 i q else shift := by
  unfold k0_pay11
  show Scalar.select (k0_pay10 (F := Ideal) arg0 v20 (ix2 i q)) (k0_pay9 (F := Ideal) v6 v17 (ix2 i q)) (Ideal.ofBits .f32 0xC04CCCCD#32) = _
  rw [pay10_apply, pay9_apply, select_cmpi_ne]
  rfl

/-- The reference row of the negative branch at column `q`: the supremum of the masked products over the rows. -/
theorem pay12_apply (q : Fin 512) :
    k0_pay12 (F := Ideal) arg0 v6 v17 v20 (ix2 0 q)
      = Finset.univ.sup fun i : Fin 4096 => if negMask arg0 v20 i q then negC v6 v17 i q else shift := by
  unfold k0_pay12
  refine (extf_apply (φ := .bf16) (ψ := .f32) _ _ (ix2 0 q)).trans ?_
  refine (shapeCast_a_1a_apply _ _ 0 q).trans ?_
  refine (colMax_apply _ _ _ _ q).trans ?_
  exact congrArg (Finset.univ.sup) (funext fun i => pay11_apply arg0 v6 v17 v20 i q)

/-- The count flag of the negative branch at column `q`: 1 where supremum plus infimum differs from twice the shift, else 0. -/
theorem pay13_apply (q : Fin 512) :
    k0_pay13 (F := Ideal) arg0 v6 v17 v20 (ix2 0 q)
      = ind (decide ((Finset.univ.sup fun i : Fin 4096 => if negMask arg0 v20 i q then negC v6 v17 i q else shift)
          + (Finset.univ.inf fun i : Fin 4096 => if negMask arg0 v20 i q then negC v6 v17 i q else shift) ≠ shift2)) := by
  unfold k0_pay13
  refine (flag_apply _ _ _ _ (ix2 0 q)).trans ?_
  refine congrArg₂ (fun a b => ind (decide (a + b ≠ shift2))) (pay12_apply arg0 v6 v17 v20 q) ?_
  refine (extf_apply (φ := .bf16) (ψ := .f32) _ _ (ix2 0 q)).trans ?_
  refine (shapeCast_a_1a_apply _ _ 0 q).trans ?_
  refine (colMin_apply _ _ _ _ q).trans ?_
  exact congrArg (Finset.univ.inf) (funext fun i => pay11_apply arg0 v6 v17 v20 i q)

/-- The masked exponentials about the reference row, at `(i, q)`. -/
theorem pay14_apply (i : Fin 4096) (q : Fin 512) :
    k0_pay14 (F := Ideal) arg0 v6 v17 v20 (ix2 i q)
      = if negMask arg0 v20 i q then Ideal.exp (negC v6 v17 i q - k0_pay12 (F := Ideal) arg0 v6 v17 v20 (ix2 0 q)) else 0 := by
  unfold k0_pay14
  show Scalar.select (k0_pay10 (F := Ideal) arg0 v20 (ix2 i q))
      (Ideal.exp (k0_pay9 (F := Ideal) v6 v17 (ix2 i q) - broadcastTo S4096x512 (k0_pay12 (F := Ideal) arg0 v6 v17 v20) _ (ix2 i q)))
      (Ideal.ofBits .f32 0x00000000#32) = _
  rw [pay10_apply, pay9_apply, select_cmpi_ne, broadcastTo_1b_ab_apply, Ideal.ofBits_zero_f32]
  rfl

/-- The stored row of the negative branch at column `q`: the logarithm of the column sum of the exponentials where the
    flag is not zero (of 1 where it is), plus the reference row minus the shift. -/
theorem pay2_apply (v35 v43 : FVec Ideal S1x512 .f32) (v48 : FVec Ideal S4096x512 .f32) (q : Fin 512) :
    k0_pay2 (F := Ideal) v35 v43 v48 (ix2 0 q)
      = Ideal.log (if v43 (ix2 0 q) ≠ 0 then ∑ i : Fin 4096, v48 (ix2 i q) else 1) + (v35 (ix2 0 q) - shift) := by
  unfold k0_pay2
  show Ideal.log (Scalar.select (Ideal.cmp .one (v43 (ix2 0 q)) (Ideal.ofBits .f32 0x00000000#32))
        (shapeCast S1x512 _ _ (ix2 0 q)) (Ideal.ofBits .f32 0x3F800000#32))
      + (v35 (ix2 0 q) - Ideal.ofBits .f32 0xC04CCCCD#32) = _
  rw [select_cmp_one, Ideal.ofBits_zero_f32, ofBits_one_f32, shapeCast_a_1a_apply]
  refine congrArg (fun s => Ideal.log (if v43 (ix2 0 q) ≠ 0 then s else 1) + (v35 (ix2 0 q) - shift)) ?_
  exact colSum_apply _ _ _ _ q

/-- The negative branch's count flag at column `q` is the shifted column's second component. -/
theorem neg_nz (q : Fin 512) : k0_pay13 (F := Ideal) arg0 v6 v17 v20 (ix2 0 q) = (negBlockCol arg0 v6 v17 v20 q).2 :=
  pay13_apply arg0 v6 v17 v20 q

/-- The negative branch's stored row at column `q` is the shifted column's first component. -/
theorem neg_lse (q : Fin 512) :
    k0_pay2 (F := Ideal) (k0_pay12 arg0 v6 v17 v20) (k0_pay13 arg0 v6 v17 v20) (k0_pay14 arg0 v6 v17 v20) (ix2 0 q)
      = (negBlockCol arg0 v6 v17 v20 q).1 := by
  rw [pay2_apply, pay13_apply]
  have e : (fun i : Fin 4096 => k0_pay14 (F := Ideal) arg0 v6 v17 v20 (ix2 i q))
      = fun i : Fin 4096 => if negMask arg0 v20 i q then Ideal.exp (negC v6 v17 i q - k0_pay12 (F := Ideal) arg0 v6 v17 v20 (ix2 0 q)) else 0 :=
    funext fun i => pay14_apply arg0 v6 v17 v20 i q
  rw [e, pay12_apply]
  rfl

end Negative

end Cert.KernelIdeal.Payload

end
-- ==== Proof.KI.Prefix.lean ====
/-
  What the four arrays the region's windows stage hold when the region is entered, read at an index, at the extended
  reals: the batch with every row divided by its length, the table with the rows the labels select joined in front of
  it, and the labels as a column and as a row.
-/
import proofs.«402344_j24489903522255_3_alg».proof.Proof.KI.Kit
import proofs.«402344_j24489903522255_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossSpec Idealize.ShloMosaic.ValueIdx

variable (mI : (ℓ : Loc nD τ sig) → Buf (Elt Ideal) ℓ)

/-- The three argument arrays as plain functions. -/
def argX (c : Dev nD) (i : Fin 4096) (d : Fin 128) : EReal := (mI ((c : Thread nD τ).loc main_arg0) : S4096x128.Idx → EReal) (ix2 i d)
def argP (c : Dev nD) (k : Fin 16384) (d : Fin 128) : EReal := (mI ((c : Thread nD τ).loc main_arg1) : S16384x128.Idx → EReal) (ix2 k d)
def argL (c : Dev nD) (i : Fin 4096) : BitVec 32 := (mI ((c : Thread nD τ).loc main_arg2) : S4096.Idx → BitVec 32) (ix1 i)

/-! ## The host operations before the region, composed

Each array the windows stage is one term of the three argument arrays. The terms are named here so that the lemmas
reading them at an index are stated over plain arrays. -/

/-- The batch with every row divided by the square root of its sum of squares. -/
def normedBatch (A : FVec Ideal S4096x128 .f32) : FVec Ideal S4096x128 .bf16 :=
  truncf .bf16 (Host.divf A (broadcastInDim S4096x128 ![0, 1] bcast_S4096x1_S4096x128_0_1
    (Host.sqrt (broadcastInDim S4096x1 ![0] bcast_S4096_S4096x1_0
      (Host.reduceAdd (mulf A A) (constant S_ .f32 0x00000000#32) reducesTo_S4096x128_S4096_d1 h_S_))))) bitsLt_bf16_f32

/-- The labels with a negative one moved up by the table's height. -/
def wrappedLabels (L : IVec S4096 32) : IVec S4096 32 :=
  select (cmpi .slt L (broadcastInDim S4096 ![] bcast_S_S4096 (constantI S_ 32 0#32)))
    (addi L (broadcastInDim S4096 ![] bcast_S_S4096 (constantI S_ 32 16384#32))) L

/-- The wrapped labels as a column of start indices. -/
def startCol (L : IVec S4096 32) : IVec S4096x1 32 :=
  broadcastInDim S4096x1 ![0] bcast_S4096_S4096x1_0 (wrappedLabels L)

/-- Per batch row, whether its start index lies in the table. -/
def inTable (L : IVec S4096 32) : IVec S4096 1 :=
  Host.reduce IntOp.andi
    (andi (cmpi .sge (startCol L) (broadcastInDim S4096x1 ![] bcast_S_S4096x1 (constantI S_ 32 0#32)))
      (cmpi .sle (startCol L) (broadcastInDim S4096x1 ![0, 1] bcast_S1x1_S4096x1_0_1
        (broadcastInDim S1x1 ![1] bcast_S1_S1x1_1 (constantI S1 32 16383#32)))))
    (constantI S_ 1 1#1) reducesTo_S4096x1_S4096_d1 h_S_

/-- The rows of the table the labels select, a fill where a start index lies outside it. -/
def takenRows (P : FVec Ideal S16384x128 .f32) (L : IVec S4096 32) : FVec Ideal S4096x128 .f32 :=
  select (broadcastInDim S4096x128 ![0] bcast_S4096_S4096x128_0 (inTable L))
    (Host.gather gather_S16384x128_S4096x1_S4096x128_1_0_n_n_0_1_1128 P (startCol L))
    (broadcastInDim S4096x128 ![] bcast_S_S4096x128 (constant S_ .f32 0x7FC00000#32))

/-- The selected rows joined in front of the table. -/
def joinedTable (P : FVec Ideal S16384x128 .f32) (L : IVec S4096 32) : FVec Ideal S20480x128 .f32 :=
  concatenate S20480x128 0 [⟨S4096x128, takenRows P L⟩, ⟨S16384x128, P⟩] concatenates_S4096x128_S16384x128_S20480x128_d0

theorem V_main_v6_eq (c : Dev nD) :
    (V mI c main_v6 : S4096x1.Idx → BitVec 32)
      = shapeCast S4096x1 (mI ((c : Thread nD τ).loc main_arg2) : S4096.Idx → BitVec 32) shapeCasts_S4096_S4096x1 := by
  dsimp only [V, V0, preOps]
  simp only [hostOps0, hostOps0_1, hostOps0_2, hostOps0_3, List.flatten_cons, List.flatten_nil, List.append_nil, List.cons_append, List.nil_append]
  after_results
  rfl

theorem V_main_v7_eq (c : Dev nD) :
    (V mI c main_v7 : S1x4096.Idx → BitVec 32)
      = shapeCast S1x4096 (mI ((c : Thread nD τ).loc main_arg2) : S4096.Idx → BitVec 32) shapeCasts_S4096_S1x4096 := by
  dsimp only [V, V0, preOps]
  simp only [hostOps0, hostOps0_1, hostOps0_2, hostOps0_3, List.flatten_cons, List.flatten_nil, List.append_nil, List.cons_append, List.nil_append]
  after_results
  rfl

theorem V_main_v3_eq (c : Dev nD) :
    (V mI c main_v3 : S4096x128.Idx → EReal)
      = normedBatch (mI ((c : Thread nD τ).loc main_arg0) : S4096x128.Idx → EReal) := by
  dsimp only [V, V0, preOps]
  simp only [hostOps0, hostOps0_1, hostOps0_2, hostOps0_3, List.flatten_cons, List.flatten_nil, List.append_nil, List.cons_append, List.nil_append]
  after_results
  rfl

/-- Joining is a function of the two pieces. -/
theorem joined_congr {a a' : S4096x128.Idx → EReal} {b b' : S16384x128.Idx → EReal} (ha : a = a') (hb : b = b') :
    concatenate S20480x128 0 [⟨S4096x128, a⟩, ⟨S16384x128, b⟩] concatenates_S4096x128_S16384x128_S20480x128_d0
      = concatenate S20480x128 0 [⟨S4096x128, a'⟩, ⟨S16384x128, b'⟩] concatenates_S4096x128_S16384x128_S20480x128_d0 := by
  rw [ha, hb]

set_option maxHeartbeats 1600000 in
theorem V_main_v5_eq (c : Dev nD) :
    (V mI c main_v5 : S20480x128.Idx → EReal)
      = joinedTable (mI ((c : Thread nD τ).loc main_arg1) : S16384x128.Idx → EReal)
          (mI ((c : Thread nD τ).loc main_arg2) : S4096.Idx → BitVec 32) := by
  dsimp only [V, V0, preOps]
  simp only [hostOps0, hostOps0_1, hostOps0_2, hostOps0_3, List.flatten_cons, List.flatten_nil, List.append_nil, List.cons_append, List.nil_append]
  -- the two reshapes after the join leave it; the join reads the selected rows and the table as they stand before it
  simp only [StableHlo.after_cons, StableHlo.after_nil]
  rw [StableHlo.reshape_result_ne]; rotate_left; decide
  rw [StableHlo.reshape_result_ne]; rotate_left; decide
  rw [StableHlo.binary_result]
  refine joined_congr ?_ ?_
  · after_results_simp <;> rfl
  · after_results_simp <;> rfl

/-! ## The pieces read at an index -/

section AtIndex
variable {α : Type}

/-- A column broadcast along the rows' entries reads the column's entry of that row. -/
theorem bcastCol_apply (y : S4096x1.Idx → α) (i : Fin 4096) (d : Fin 128) :
    broadcastInDim S4096x128 ![0, 1] bcast_S4096x1_S4096x128_0_1 y (ix2 i d) = y (ix2 i (0 : Fin 1)) :=
  broadcastInDim_apply _ bcast_S4096x1_S4096x128_0_1 y (ix2 i d) (ix2 i (0 : Fin 1)) (fun a => match a with
    | ⟨0, _⟩ => by show i.val = if (4096 : Nat) = 1 then 0 else i.val; rw [if_neg (by decide)]
    | ⟨1, _⟩ => by show 0 = if (1 : Nat) = 1 then 0 else d.val; rw [if_pos rfl])

/-- A vector made a column reads the vector's entry of that row. -/
theorem bcastVecCol_apply (y : S4096.Idx → α) (i : Fin 4096) (u : Fin 1) :
    broadcastInDim S4096x1 ![0] bcast_S4096_S4096x1_0 y (ix2 i u) = y (ix1 i) :=
  broadcastInDim_apply _ bcast_S4096_S4096x1_0 y (ix2 i u) (ix1 i) (fun a => match a with
    | ⟨0, _⟩ => by show i.val = if (4096 : Nat) = 1 then 0 else i.val; rw [if_neg (by decide)])

/-- A vector broadcast along the rows' entries reads the vector's entry of that row. -/
theorem bcastVecRows_apply (y : S4096.Idx → α) (i : Fin 4096) (d : Fin 128) :
    broadcastInDim S4096x128 ![0] bcast_S4096_S4096x128_0 y (ix2 i d) = y (ix1 i) :=
  broadcastInDim_apply _ bcast_S4096_S4096x128_0 y (ix2 i d) (ix1 i) (fun a => match a with
    | ⟨0, _⟩ => by show i.val = if (4096 : Nat) = 1 then 0 else i.val; rw [if_neg (by decide)])

end AtIndex

/-- The host's sum over a row's entries from the zero word is the sum of the row. -/
theorem rowSum_apply (B : FVec Ideal S4096x128 .f32) (i : Fin 4096) :
    Host.reduceAdd B (constant S_ .f32 0x00000000#32) reducesTo_S4096x128_S4096_d1 h_S_ (ix1 i) = ∑ k : Fin 128, B (ix2 i k) := by
  show Ideal.hostReduceAdd reducesTo_S4096x128_S4096_d1 B (Ideal.ofBits .f32 0x00000000#32) (ix1 i) = _
  rw [Ideal.hostReduceAdd_single reducesTo_S4096x128_S4096_d1 (by decide), Ideal.ofBits_zero_f32, zero_add]
  refine Finset.sum_congr rfl fun k _ => ?_
  exact congrArg B (funext fun a => Fin.ext (by match a with | ⟨0, _⟩ => rfl | ⟨1, _⟩ => rfl))

/-- The divided batch at an index: the entry over the square root of its row's sum of squares. -/
theorem normedBatch_apply (A : FVec Ideal S4096x128 .f32) (i : Fin 4096) (d : Fin 128) :
    normedBatch A (ix2 i d) = unitDiv (fun d' => A (ix2 i d')) d := by
  unfold normedBatch unitDiv ssq
  show Ideal.div (A (ix2 i d)) (broadcastInDim S4096x128 _ bcast_S4096x1_S4096x128_0_1 _ (ix2 i d)) = _
  rw [bcastCol_apply]
  show Ideal.div (A (ix2 i d)) (Ideal.sqrt (broadcastInDim S4096x1 _ bcast_S4096_S4096x1_0 _ (ix2 i (0 : Fin 1)))) = _
  rw [bcastVecCol_apply, rowSum_apply]
  rfl

theorem V_batch (c : Dev nD) (i : Fin 4096) (d : Fin 128) :
    (V mI c main_v3 : S4096x128.Idx → EReal) (ix2 i d) = unitDiv (argX mI c i) d := by
  rw [V_main_v3_eq, normedBatch_apply]
  rfl

/-! ## The labels as a column and as a row -/

theorem V_labels_col (c : Dev nD) (i : Fin 4096) : (V mI c main_v6 : S4096x1.Idx → BitVec 32) (ix2 i 0) = argL mI c i := by
  rw [V_main_v6_eq]
  exact shapeCast_apply _ shapeCasts_S4096_S4096x1 (ix2 i (0 : Fin 1)) (ix1 i) (by
    rw [Shape.rowMajor_val_two, Shape.rowMajor_val_one]
    show i.val = i.val * 1 + 0
    omega)

theorem V_labels_row (c : Dev nD) (j : Fin 4096) : (V mI c main_v7 : S1x4096.Idx → BitVec 32) (ix2 0 j) = argL mI c j := by
  rw [V_main_v7_eq]
  exact shapeCast_a_1a_apply _ shapeCasts_S4096_S1x4096 0 j

/-! ## The rows the labels select -/

/-- The wrapped labels at an index: the label wrapped as the specification wraps it. -/
theorem wrappedLabels_apply (L : IVec S4096 32) (i : Fin 4096) : wrappedLabels L (ix1 i) = wrapLabel (L (ix1 i)) := by
  show (if BitVec.ofBool ((L (ix1 i)).slt 0#32) = 1#1 then L (ix1 i) + 16384#32 else L (ix1 i)) = _
  unfold wrapLabel
  cases (L (ix1 i)).slt 0#32 <;> rfl

/-- The column of start indices at a row: that row's wrapped label. -/
theorem startCol_apply (L : IVec S4096 32) (i : Fin 4096) (u : Fin 1) : startCol L (ix2 i u) = wrapLabel (L (ix1 i)) := by
  unfold startCol
  rw [bcastVecCol_apply, wrappedLabels_apply]

/-- A fold of a commutative, associative operation over a one-element range is one application. -/
theorem fold_fin_one {β : Type} (f : β → β → β) [Std.Commutative f] [Std.Associative f] (b : β) (g : Fin 1 → β) :
    (Finset.univ : Finset (Fin 1)).fold f b g = f (g 0) b := by
  rw [Finset.univ_unique, Finset.fold_singleton]
  rfl

set_option maxHeartbeats 800000 in
/-- The in-range bit of a row: the wrapped label is at least 0 and at most 16383. -/
theorem inTable_apply (L : IVec S4096 32) (i : Fin 4096) :
    inTable L (ix1 i)
      = IntOp.andi (IntOp.andi (IntOp.cmpi .sge (wrapLabel (L (ix1 i))) 0#32) (IntOp.cmpi .sle (wrapLabel (L (ix1 i))) 16383#32)) 1#1 := by
  unfold inTable
  have hR : S4096x1.Reduces [1] S4096 := by decide
  have hl : hR.lift (ix1 i) (0 : Fin 1) = ix2 i (0 : Fin 1) :=
    funext fun a => Fin.ext (by match a with | ⟨0, _⟩ => rfl | ⟨1, _⟩ => rfl)
  rw [Host.reduce_eq_fold_single IntOp.andi _ _ reducesTo_S4096x1_S4096_d1 hR h_S_ (ix1 i)]
  refine (fold_fin_one IntOp.andi _ _).trans ?_
  show IntOp.andi (IntOp.andi (IntOp.cmpi .sge (startCol L (hR.lift (ix1 i) (0 : Fin 1))) 0#32)
    (IntOp.cmpi .sle (startCol L (hR.lift (ix1 i) (0 : Fin 1))) 16383#32)) 1#1 = _
  rw [hl, startCol_apply]

/-- A label in the table's range is not negative, so wrapping leaves it as it is. -/
theorem wrapLabel_of_range {l : BitVec 32} (h : (0#32).sle l = true ∧ l.slt 16384#32 = true) : wrapLabel l = l := by
  have h0 : l.slt 0#32 = false := by
    have h1 := h.1
    simp only [BitVec.sle, BitVec.slt, decide_eq_true_eq, decide_eq_false_iff_not, BitVec.toInt_zero] at h1 ⊢
    omega
  unfold wrapLabel
  rw [h0]
  rfl

/-- A label in the table's range passes the in-range test. -/
theorem inTable_of_range (L : IVec S4096 32) (i : Fin 4096)
    (h : (0#32).sle (L (ix1 i)) = true ∧ (L (ix1 i)).slt 16384#32 = true) : inTable L (ix1 i) = 1#1 := by
  rw [inTable_apply, wrapLabel_of_range h]
  have e1 : (16384#32 : BitVec 32).toInt = 16384 := by decide
  have e2 : (16383#32 : BitVec 32).toInt = 16383 := by decide
  have h2 : (L (ix1 i)).sle 16383#32 = true := by
    have h1 := h.2
    simp only [BitVec.sle, BitVec.slt, decide_eq_true_eq, e1, e2] at h1 ⊢
    omega
  show (BitVec.ofBool ((0#32).sle (L (ix1 i))) &&& BitVec.ofBool ((L (ix1 i)).sle 16383#32)) &&& 1#1 = 1#1
  rw [h.1, h2]
  rfl

/-- An entry of a list that is one element is that element. -/
theorem getElem_of_eq_singleton {β : Type} {l : List β} {x : β} (h : l = [x]) (k : Nat) (hk : k < l.length) : l[k] = x := by
  subst h
  have hk0 : k = 0 := by simpa using hk
  subst hk0
  rfl

/-- A gather of whole rows of a table at a column of start indices (the row axis collapsed and start-indexed, the entry
    axis the one offset axis, the index vector along the column's unit axis), read at an index: the table's row at that
    row's start index, read signed and clamped into the table, at the same entry. -/
theorem gatherRows_apply_of {α : Type} (D : GatherDims S16384x128 S4096x1 S4096x128)
    (hoff : D.offsetDims = [1]) (hcoll : D.collapsedSliceDims = [0]) (hob : D.operandBatchingDims = [])
    (hsim : D.startIndexMap = [0]) (hivd : D.indexVectorDim = 1)
    (P : S16384x128.Idx → α) (idx : IVec S4096x1 32) (i : Fin 4096) (d : Fin 128) (w : BitVec 32) (hw : idx (ix2 i (0 : Fin 1)) = w) :
    Host.gather D P idx (ix2 i d) = P (ix2 ⟨min w.toInt.toNat 16383, by omega⟩ d) := by
  subst hw
  unfold Host.gather
  refine congrArg P (funext fun a => Fin.ext ?_)
  have hbd : D.batchDims = [0] := by
    show (List.finRange 2).filter (· ∉ D.offsetDims) = [0]
    rw [hoff]; decide
  have hsk : D.siKept = [0] := by
    show (List.finRange 2).filter (·.val ≠ D.indexVectorDim) = [0]
    rw [hivd]; decide
  match a with
  | ⟨0, _⟩ =>
    have hb : (0 : Fin 2) ∉ D.operandBatchingDims := by rw [hob]; exact List.not_mem_nil
    have hk : (0 : Fin 2) ∉ D.sKept := by rw [GatherDims.mem_sKept, hcoll]; simp
    have hm : (0 : Fin 2) ∈ D.startIndexMap := by rw [hsim]; exact List.mem_singleton.mpr rfl
    have hsl : D.sliceSizes 0 = 1 := D.slice_collapsed 0 (by rw [hcoll]; exact List.mem_singleton.mpr rfl)
    show D.start (ix2 i d) idx 0 + D.batchCoord (ix2 i d) 0 + D.offCoord (ix2 i d) 0 = min (idx (ix2 i (0 : Fin 1))).toInt.toNat 16383
    rw [GatherDims.batchCoord_eq_zero _ _ _ hb, GatherDims.offCoord_eq_zero _ _ _ hk, Nat.add_zero]
    unfold GatherDims.start
    rw [dif_pos hm]
    show min (idx _).toInt.toNat (16384 - D.sliceSizes 0) = _
    rw [hsl]
    refine congrArg (fun j => min (idx j).toInt.toNat 16383) (funext fun b => ?_)
    match b with
    | ⟨0, _⟩ =>
      unfold GatherDims.siIdx
      rw [dif_neg (by rw [hivd]; exact Nat.zero_ne_one)]
      unfold GatherDims.siCoord
      apply Fin.ext
      have e : ∀ X : Fin 2, X = 0 → ((ix2 i d : S4096x128.Idx) X).val = i.val := by rintro _ rfl; rfl
      exact e _ (getElem_of_eq_singleton hbd _ _)
    | ⟨1, _⟩ =>
      unfold GatherDims.siIdx
      rw [dif_pos (by rw [hivd])]
      apply Fin.ext
      show List.idxOf (0 : Fin 2) D.startIndexMap = 0
      rw [hsim]; rfl
  | ⟨1, _⟩ =>
    have hb : (1 : Fin 2) ∉ D.operandBatchingDims := by rw [hob]; exact List.not_mem_nil
    have hm : (1 : Fin 2) ∉ D.startIndexMap := by rw [hsim]; decide
    have hk : (1 : Fin 2) ∈ D.sKept := by rw [GatherDims.mem_sKept, hcoll, hob]; decide
    show D.start (ix2 i d) idx 1 + D.batchCoord (ix2 i d) 1 + D.offCoord (ix2 i d) 1 = d.val
    rw [GatherDims.batchCoord_eq_zero _ _ _ hb, Nat.add_zero]
    unfold GatherDims.start
    rw [dif_neg hm, Nat.zero_add]
    unfold GatherDims.offCoord
    rw [dif_pos hk]
    have e : ∀ X : Fin 2, X = 1 → ((ix2 i d : S4096x128.Idx) X).val = d.val := by rintro _ rfl; rfl
    exact e _ (getElem_of_eq_singleton hoff _ _)

/-- The program's gather, read at an index. -/
theorem gatherRows_apply {α : Type} (P : S16384x128.Idx → α) (idx : IVec S4096x1 32) (i : Fin 4096) (d : Fin 128)
    (w : BitVec 32) (hw : idx (ix2 i (0 : Fin 1)) = w) :
    Host.gather gather_S16384x128_S4096x1_S4096x128_1_0_n_n_0_1_1128 P idx (ix2 i d)
      = P (ix2 ⟨min w.toInt.toNat 16383, by omega⟩ d) :=
  gatherRows_apply_of _ rfl rfl rfl rfl rfl P idx i d w hw

/-- The selected rows at an index, for a label in the table's range: the table's row the label selects. -/
theorem takenRows_apply (P : FVec Ideal S16384x128 .f32) (L : IVec S4096 32) (i : Fin 4096) (d : Fin 128)
    (h : (0#32).sle (L (ix1 i)) = true ∧ (L (ix1 i)).slt 16384#32 = true) :
    takenRows P L (ix2 i d) = P (ix2 (rowOf (L (ix1 i))) d) := by
  unfold takenRows
  rw [select_apply, bcastVecRows_apply, inTable_of_range L i h, select_one,
    gatherRows_apply P (startCol L) i d (wrapLabel (L (ix1 i))) (startCol_apply L i 0)]
  rfl

/-! ## The joined table -/

/-- Below the batch's height the joined table reads the selected rows. -/
theorem joinedTable_apply_pos (P : FVec Ideal S16384x128 .f32) (L : IVec S4096 32) (j : Fin 4096) (d : Fin 128) :
    joinedTable P L (ix2 (⟨j.val, by omega⟩ : Fin 20480) d) = takenRows P L (ix2 j d) := by
  unfold joinedTable
  exact concatenate_pair_apply_left (t := S20480x128) (s₁ := S4096x128) (s₂ := S16384x128) 0 (takenRows P L) P
    concatenates_S4096x128_S16384x128_S20480x128_d0 (ix2 (⟨j.val, by omega⟩ : Fin 20480) d) rfl (ix2 j d)
    (fun b => match b with | ⟨0, _⟩ => rfl | ⟨1, _⟩ => rfl)

/-- From the batch's height on it reads the table itself. -/
theorem joinedTable_apply_neg (P : FVec Ideal S16384x128 .f32) (L : IVec S4096 32) (k : Fin 16384) (d : Fin 128) :
    joinedTable P L (ix2 (⟨4096 + k.val, by omega⟩ : Fin 20480) d) = P (ix2 k d) := by
  unfold joinedTable
  exact concatenate_pair_apply_right (t := S20480x128) (s₁ := S4096x128) (s₂ := S16384x128) 0 (takenRows P L) P
    concatenates_S4096x128_S16384x128_S20480x128_d0 (ix2 (⟨4096 + k.val, by omega⟩ : Fin 20480) d) rfl rfl (ix2 k d)
    (fun b hb => match b, hb with | ⟨0, _⟩, hb => absurd rfl hb | ⟨1, _⟩, _ => rfl)
    (by show k.val + 4096 = 4096 + k.val; omega)

theorem V_table_pos (c : Dev nD) (hlab : ∀ i, (0#32).sle (argL mI c i) = true ∧ (argL mI c i).slt 16384#32 = true)
    (j : Fin 4096) (d : Fin 128) :
    (V mI c main_v5 : S20480x128.Idx → EReal) (ix2 ⟨j.val, by omega⟩ d) = argP mI c (rowOf (argL mI c j)) d := by
  rw [V_main_v5_eq, joinedTable_apply_pos, takenRows_apply _ _ j d (hlab j)]
  rfl

theorem V_table_neg (c : Dev nD) (k : Fin 16384) (d : Fin 128) :
    (V mI c main_v5 : S20480x128.Idx → EReal) (ix2 ⟨4096 + k.val, by omega⟩ d) = argP mI c k d := by
  rw [V_main_v5_eq, joinedTable_apply_neg]
  rfl

end Cert.KernelIdeal.Hand

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.KI.Tail.lean ====
/-
  What the host operations after the kernel's region compute, at exact arithmetic, from the two rows the region wrote.

  The region leaves a row of 20480 log-sum-exp values and a row of 20480 count flags (0 or 1). The operations after it
  cut each row into its first 4096 columns (the positive columns) and its last 16384 (the negative ones), and on each
  half take the mean of the softplus over the columns whose flag exceeds one half: the sum of `where(flag, softplus, 0)`
  divided by the larger of the number of flags and one. The result is the sum of the two means.

  The proof composes the operations into one term over the two rows, written with one definition for the softplus of
  a vector and one for the mean over a vector (both halves are the same operations at two lengths), and then reads that
  term at its one index: a slice and a reshape read one entry of the row, the pointwise operations read through, the
  self-comparison `x ≠ x` is never true on the extended reals so the softplus takes its main branch, a flag's bit read
  as a number is 1 or 0, and a sum into a scalar is the initial value 0 plus the sum over every entry.
-/
import proofs.«402344_j24489903522255_3_alg».proof.Proof.KI.Kit
import proofs.«402344_j24489903522255_3_alg».proof.Proof.Spec
import proofs.«402344_j24489903522255_3_alg».proof.Proof.LibERealRows
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossSpec Idealize.ShloMosaic.ValueIdx

namespace Tail

/-! ## Vocabulary -/

/-- The vector shape of length `n`. -/
abbrev Sv (n : Nat) : Shape := ⟨1, ![n]⟩

/-- The two rows the region wrote, as functions of their index. -/
abbrev lseRow (W : Valuation τ sig (Elt Ideal)) : S1x20480.Idx → EReal := W (Proc.devRef .tc main_v8_0)
abbrev flagRow (W : Valuation τ sig (Elt Ideal)) : S1x20480.Idx → EReal := W (Proc.devRef .tc main_v8_1)

/-- The softplus of a vector, operation by operation as the program spells it: with `z` the zero vector,
    `select (x - z ≠ x - z) (x + z) (max x z + log1p (exp (-|x - z|)))`. -/
def softplusVec {n : Nat} (hb : S_.BroadcastsInDim (Sv n) (![] : Fin 0 → Fin (Sv n).rank)) (x : FVec Ideal (Sv n) .f32) :
    FVec Ideal (Sv n) .f32 :=
  select
    (cmpf .une (subf x (broadcastInDim (Sv n) ![] hb (constant (F := Ideal) S_ .f32 0x00000000#32)))
               (subf x (broadcastInDim (Sv n) ![] hb (constant (F := Ideal) S_ .f32 0x00000000#32))))
    (addf x (broadcastInDim (Sv n) ![] hb (constant (F := Ideal) S_ .f32 0x00000000#32)))
    (addf (maximumf x (broadcastInDim (Sv n) ![] hb (constant (F := Ideal) S_ .f32 0x00000000#32)))
      (Host.log1p (Host.exp (Host.negf (Host.absf
        (subf x (broadcastInDim (Sv n) ![] hb (constant (F := Ideal) S_ .f32 0x00000000#32))))))))

/-- The mean of the softplus over the flagged entries, operation by operation: the flags are `flag > 0.5`; the
    numerator sums `where(flag, softplus, 0)`, the denominator is the larger of the number of flags and one. -/
def meanVec {n : Nat} (hb : S_.BroadcastsInDim (Sv n) (![] : Fin 0 → Fin (Sv n).rank)) (hr : (Sv n).ReducesTo [0] S_)
    (lse flag : FVec Ideal (Sv n) .f32) : FVec Ideal S_ .f32 :=
  Host.divf
    (Host.reduceAdd
      (select (cmpf .ogt flag (broadcastInDim (Sv n) ![] hb (constant (F := Ideal) S_ .f32 0x3F000000#32)))
        (softplusVec hb lse)
        (broadcastInDim (Sv n) ![] hb (id (constant (F := Ideal) S_ .f32 0x00000000#32))))
      (constant (F := Ideal) S_ .f32 0x00000000#32) hr h_S_)
    (maximumf
      (Host.reduceAdd
        (uitofp .f32 (cmpf .ogt flag (broadcastInDim (Sv n) ![] hb (constant (F := Ideal) S_ .f32 0x3F000000#32))))
        (constant (F := Ideal) S_ .f32 0x00000000#32) hr h_S_)
      (constant (F := Ideal) S_ .f32 0x3F800000#32))

/-! ## The result as one term over the two rows -/

/-- The operations after the region, composed: the result buffer holds the sum of the two means, each over one half of
    the two rows cut out by a slice and reshaped to a vector. -/
theorem tail_term (W : Valuation τ sig (Elt Ideal)) :
    (StableHlo.after (List.flatten (tailOps (F := Ideal))) W (Proc.devRef .tc main_v35) : S_.Idx → EReal)
      = addf
          (meanVec (n := 4096) bcast_S_S4096 reducesTo_S4096_S_d0
            (shapeCast S4096 (extractStridedSlice S1x4096 ![0, 0] (lseRow W) slices_S1x20480_S1x4096_0_0) shapeCasts_S1x4096_S4096)
            (shapeCast S4096 (extractStridedSlice S1x4096 ![0, 0] (flagRow W) slices_S1x20480_S1x4096_0_0) shapeCasts_S1x4096_S4096))
          (meanVec (n := 16384) bcast_S_S16384 reducesTo_S16384_S_d0
            (shapeCast S16384 (extractStridedSlice S1x16384 ![0, 4096] (lseRow W) slices_S1x20480_S1x16384_0_4096) shapeCasts_S1x16384_S16384)
            (shapeCast S16384 (extractStridedSlice S1x16384 ![0, 4096] (flagRow W) slices_S1x20480_S1x16384_0_4096) shapeCasts_S1x16384_S16384)) := by
  simp only [tailOps, hostOps1, hostOps1_1, hostOps1_2, hostOps1_3, hostOps1_4, hostOps1_5, hostOps1_6, hostOps1_7,
    List.flatten_cons, List.flatten_nil, List.append_nil, List.cons_append, List.nil_append]
  after_results_simp
  rfl

/-! ## Reading the vectors at an index -/

/-- A vector's index set is its coordinate range, -/
def idxEquiv1 {n : Nat} : (Sv n).Idx ≃ Fin n where
  toFun i := i 0
  invFun a := ix1 a
  left_inv i := (eq_ix1 i).symm
  right_inv _ := rfl

/-- so a sum over it is the sum over the coordinate. -/
theorem sum_idx1 {n : Nat} (f : (Sv n).Idx → EReal) : ∑ i, f i = ∑ a : Fin n, f (ix1 a) := by
  rw [← Equiv.sum_comp (idxEquiv1 (n := n)).symm f]
  rfl

/-- A broadcast scalar reads the scalar everywhere. -/
theorem bcast_apply {n : Nat} (hb : S_.BroadcastsInDim (Sv n) (![] : Fin 0 → Fin (Sv n).rank)) (c : S_.Idx → EReal) (i : (Sv n).Idx) :
    broadcastInDim (Sv n) ![] hb c i = c ix0 :=
  broadcastInDim_apply _ hb c i ix0 (fun a => a.elim0)

/-- The comparison `a ≠ a` answers no. -/
theorem cmp_une_self (a : EReal) : Ideal.cmp .une a a = 0#1 := by
  show BitVec.ofBool (decide (a ≠ a)) = 0#1
  simp

/-- The comparison `a > b` is the bit of `b < a`. -/
theorem cmp_ogt (a b : EReal) : Ideal.cmp .ogt a b = BitVec.ofBool (decide (b < a)) := rfl

/-- A select on the bit of a truth value is the `if` on it. -/
theorem select_ofBool {α : Type} (d : Bool) (a b : α) : Scalar.select (BitVec.ofBool d) a b = if d then a else b := by
  cases d <;> rfl

/-- The bit of a truth value, read as an unsigned number, is 1 or 0. -/
theorem uitofp_ofBool (d : Bool) : (FloatOps.uitofp (F := Ideal) .f32 (BitVec.ofBool d) : EReal) = ind d := by
  cases d
  · show (((0 : ℕ) : ℝ) : EReal) = 0
    simp
  · show (((1 : ℕ) : ℝ) : EReal) = 1
    simp

/-- The host's quotient at an index is the quotient of the elements. -/
theorem hostDivf_apply {s : Shape} (a b : FVec Ideal s .f32) (i : s.Idx) : Host.divf a b i = Ideal.div (a i) (b i) := rfl

/-- The program's softplus at an index is the specification's. -/
theorem softplusVec_apply {n : Nat} (hb : S_.BroadcastsInDim (Sv n) (![] : Fin 0 → Fin (Sv n).rank)) (x : FVec Ideal (Sv n) .f32)
    (i : (Sv n).Idx) : softplusVec hb x i = softplus (x i) := by
  have hz : broadcastInDim (Sv n) ![] hb (constant (F := Ideal) S_ .f32 0x00000000#32) i = 0 := by
    rw [bcast_apply]; exact Ideal.ofBits_zero_f32
  show Scalar.select (Ideal.cmp .une (x i - _) (x i - _)) (x i + _) (max (x i) _ + Ideal.log1p (Ideal.exp (-(max (x i - _) (-(x i - _)))))) = _
  rw [cmp_une_self, select_zero, hz]
  rfl

/-- The specification's mean, unfolded. -/
theorem meanOver_def {n : Nat} (lse : Fin n → EReal) (nz : Fin n → Bool) :
    meanOver lse nz = Ideal.div (∑ j, if nz j then softplus (lse j) else 0) (max (∑ j, ind (nz j)) 1) := rfl

/-- The mean over the flagged entries, read at its one index. -/
theorem meanVec_apply {n : Nat} (hb : S_.BroadcastsInDim (Sv n) (![] : Fin 0 → Fin (Sv n).rank)) (hr : (Sv n).ReducesTo [0] S_)
    (lse flag : FVec Ideal (Sv n) .f32) (i : S_.Idx) :
    meanVec hb hr lse flag i
      = meanOver (fun j : Fin n => lse (ix1 j)) (fun j : Fin n => decide (halfW < flag (ix1 j))) := by
  have hflag : ∀ j : (Sv n).Idx,
      cmpf .ogt flag (broadcastInDim (Sv n) ![] hb (constant (F := Ideal) S_ .f32 0x3F000000#32)) j
        = BitVec.ofBool (decide (halfW < flag j)) := fun j => by
    show Ideal.cmp .ogt (flag j) (broadcastInDim (Sv n) ![] hb (constant (F := Ideal) S_ .f32 0x3F000000#32) j) = _
    rw [bcast_apply, cmp_ogt]; rfl
  have hzero : ∀ j : (Sv n).Idx, broadcastInDim (Sv n) ![] hb (id (constant (F := Ideal) S_ .f32 0x00000000#32)) j = 0 := fun j => by
    rw [bcast_apply]; exact Ideal.ofBits_zero_f32
  have hc0 : constant (F := Ideal) S_ .f32 0x00000000#32 (Shape.Idx.first h_S_) = 0 := Ideal.ofBits_zero_f32
  unfold meanVec
  rw [meanOver_def]
  rw [hostDivf_apply, maximumf_apply, constant_apply]
  simp only [Host.reduceAdd, Ideal.hostReduceAdd_def]
  rw [Ideal.hostReduceAdd_total hr (fun b => b.elim0), Ideal.hostReduceAdd_total hr (fun b => b.elim0), hc0, zero_add, zero_add,
    sum_idx1, sum_idx1, Cert.ERealRows.ofBits_one]
  congr 1
  · refine Finset.sum_congr rfl fun j _ => ?_
    rw [select_apply, hflag, select_ofBool, softplusVec_apply, hzero]
  · congr 1
    refine Finset.sum_congr rfl fun j _ => ?_
    show FloatOps.uitofp (F := Ideal) .f32 (cmpf .ogt flag _ (ix1 j)) = _
    rw [hflag, uitofp_ofBool]

/-! ## The two halves of a row as vectors -/

/-- Entry `j` of the first 4096 columns of a row, reshaped to a vector, is the row's entry `j`. -/
theorem head_apply (x : S1x20480.Idx → EReal) (j : Fin 4096) :
    shapeCast S4096 (extractStridedSlice S1x4096 ![0, 0] x slices_S1x20480_S1x4096_0_0) shapeCasts_S1x4096_S4096 (ix1 j)
      = x (ix2 0 ⟨j.val, by omega⟩) := by
  refine (shapeCast_apply _ shapeCasts_S1x4096_S4096 (ix1 j) (ix2 0 j) ?_).trans ?_
  · rw [Shape.rowMajor_val_two, Shape.rowMajor_val_one]
    show 0 * 4096 + j.val = j.val
    omega
  · exact extractStridedSlice_apply _ x slices_S1x20480_S1x4096_0_0 (ix2 0 j) (ix2 0 ⟨j.val, by omega⟩)
      (fun a => match a with
        | ⟨0, _⟩ => rfl
        | ⟨1, _⟩ => by show j.val = 0 + j.val; omega)

/-- Entry `k` of the last 16384 columns of a row, reshaped to a vector, is the row's entry `4096 + k`. -/
theorem rest_apply (x : S1x20480.Idx → EReal) (k : Fin 16384) :
    shapeCast S16384 (extractStridedSlice S1x16384 ![0, 4096] x slices_S1x20480_S1x16384_0_4096) shapeCasts_S1x16384_S16384 (ix1 k)
      = x (ix2 0 ⟨4096 + k.val, by omega⟩) := by
  refine (shapeCast_apply _ shapeCasts_S1x16384_S16384 (ix1 k) (ix2 0 k) ?_).trans ?_
  · rw [Shape.rowMajor_val_two, Shape.rowMajor_val_one]
    show 0 * 16384 + k.val = k.val
    omega
  · exact extractStridedSlice_apply _ x slices_S1x20480_S1x16384_0_4096 (ix2 0 k) (ix2 0 ⟨4096 + k.val, by omega⟩)
      (fun a => match a with
        | ⟨0, _⟩ => rfl
        | ⟨1, _⟩ => rfl)

end Tail

open Tail

/-! ## The result -/

/-- What the host operations after the region leave in the result buffer: the mean softplus of the counted positive
    columns plus that of the counted negative ones, read off the two rows the region wrote — the log-sum-exp row and
    the row of count flags, a column counting when its flag exceeds one half. -/
theorem tail_value (W : Valuation τ sig (Elt Ideal)) :
    (StableHlo.after (List.flatten (tailOps (F := Ideal))) W (Proc.devRef .tc main_v35) : S_.Idx → EReal)
      = fun _ =>
          meanOver (fun j : Fin 4096 => (W (Proc.devRef .tc main_v8_0) : S1x20480.Idx → EReal) (ix2 0 ⟨j.val, by omega⟩))
                   (fun j : Fin 4096 => decide (halfW < (W (Proc.devRef .tc main_v8_1) : S1x20480.Idx → EReal) (ix2 0 ⟨j.val, by omega⟩)))
          + meanOver (fun k : Fin 16384 => (W (Proc.devRef .tc main_v8_0) : S1x20480.Idx → EReal) (ix2 0 ⟨4096 + k.val, by omega⟩))
                     (fun k : Fin 16384 => decide (halfW < (W (Proc.devRef .tc main_v8_1) : S1x20480.Idx → EReal) (ix2 0 ⟨4096 + k.val, by omega⟩))) := by
  rw [tail_term W]
  funext i
  rw [addf_apply, meanVec_apply, meanVec_apply]
  simp only [head_apply, rest_apply]

end Cert.KernelIdeal.Hand

end
-- ==== Proof.KI.Value.lean ====
/-
  What the kernel's program returns, at exact arithmetic: the loss in its shift-folded spelling. The run ends with the
  result buffer at the later host operations applied to the two arrays the region wrote; column `512 t + q` of each array
  is entry `q` of what grid point `t` left; that entry is the shifted column of the specification on the point's four
  input blocks; and those blocks are the unit batch rows, the label column, the column labels and the proxy rows the
  column selects.
-/
import proofs.«402344_j24489903522255_3_alg».proof.Proof.KI.Blocks
import proofs.«402344_j24489903522255_3_alg».proof.Proof.KI.Payload
import proofs.«402344_j24489903522255_3_alg».proof.Proof.KI.Prefix
import proofs.«402344_j24489903522255_3_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossSpec Idealize.ShloMosaic.ValueIdx Cert.KernelIdeal.Payload

variable (mI : (ℓ : Loc nD τ sig) → Buf (Elt Ideal) ℓ) (ρ : Dev nD → PrngReg)

/-- What the precondition says of the labels. -/
abbrev LabOk (c : Dev nD) : Prop := ∀ i, (0#32).sle (argL mI c i) = true ∧ (argL mI c i).slt 16384#32 = true

/-! ## A column's point and place -/

theorem split_pos (j : Fin 4096) : ∃ (t : Fin cfg0.N) (q : Fin 512), t.val < 8 ∧ j.val = 512 * t.val + q.val :=
  ⟨⟨j.val / 512, lt_of_lt_of_eq (by have := j.isLt; omega) (show (40 : ℕ) = cfg0.N from N_0.symm)⟩, ⟨j.val % 512, Nat.mod_lt _ (by norm_num)⟩,
    by show j.val / 512 < 8; have := j.isLt; omega, by show j.val = 512 * (j.val / 512) + j.val % 512; omega⟩

theorem split_neg (k : Fin 16384) : ∃ (t : Fin cfg0.N) (q : Fin 512), 8 ≤ t.val ∧ 4096 + k.val = 512 * t.val + q.val :=
  ⟨⟨8 + k.val / 512, lt_of_lt_of_eq (by have := k.isLt; omega) (show (40 : ℕ) = cfg0.N from N_0.symm)⟩, ⟨k.val % 512, Nat.mod_lt _ (by norm_num)⟩,
    by show 8 ≤ 8 + k.val / 512; omega, by show 4096 + k.val = 512 * (8 + k.val / 512) + k.val % 512; omega⟩

/-! ## The blocks of a point, as rows of the arguments -/

theorem batch_row (c : Dev nD) (t : Fin cfg0.N) (i : Fin 4096) :
    brow (iblk mI c 0 t) i = unitDiv (argX mI c i) :=
  funext fun d => (iblk0_at mI c t i d).trans (V_batch mI c i d)

theorem label_col (c : Dev nD) (t : Fin cfg0.N) (i : Fin 4096) :
    (iblk mI c 1 t : Vec Ideal S4096x1 .i32) (ix2 i 0) = argL mI c i :=
  (iblk1_at mI c t i).trans (V_labels_col mI c i)

theorem col_label (c : Dev nD) (t : Fin cfg0.N) (q : Fin 512) (ht : t.val < 8) (j : Fin 4096) (hj : j.val = 512 * t.val + q.val) :
    (iblk mI c 2 t : Vec Ideal S1x512 .i32) (ix2 0 q) = argL mI c j := by
  refine (iblk2_at mI c t q).trans ?_
  have e : (⟨512 * min t.val 7 + q.val, by omega⟩ : Fin 4096) = j := Fin.ext (by show 512 * min t.val 7 + q.val = j.val; omega)
  rw [e]
  exact V_labels_row mI c j

theorem proxy_row_pos (c : Dev nD) (hlab : LabOk mI c) (t : Fin cfg0.N) (q : Fin 512) (j : Fin 4096) (hj : j.val = 512 * t.val + q.val) :
    prow (iblk mI c 3 t) q = argP mI c (rowOf (argL mI c j)) := by
  funext d
  refine (iblk3_at mI c t q d).trans ?_
  have e : (⟨512 * t.val + q.val, by have := j.isLt; omega⟩ : Fin 20480) = ⟨j.val, by have := j.isLt; omega⟩ := Fin.ext hj.symm
  rw [e]
  exact V_table_pos mI c hlab j d

theorem proxy_row_neg (c : Dev nD) (t : Fin cfg0.N) (q : Fin 512) (k : Fin 16384) (hk : 4096 + k.val = 512 * t.val + q.val) :
    prow (iblk mI c 3 t) q = argP mI c k := by
  funext d
  refine (iblk3_at mI c t q d).trans ?_
  have e : (⟨512 * t.val + q.val, by have := k.isLt; omega⟩ : Fin 20480) = ⟨4096 + k.val, by have := k.isLt; omega⟩ := Fin.ext hk.symm
  rw [e]
  exact V_table_neg mI c k d

/-- The column number a point of the negative part compares the labels with, as a word. -/
theorem neg_col_word (t : Fin cfg0.N) (q : Fin 512) (k : Fin 16384) (ht : 8 ≤ t.val) (hk : 4096 + k.val = 512 * t.val + q.val) :
    (BitVec.ofNat 32 ((grid0.coords t) 0).val - 8#32) * 512#32 + BitVec.ofNat 32 q.val = BitVec.ofNat 32 k.val := by
  have hN : t.val < 40 := lt_of_lt_of_eq t.isLt (show cfg0.N = 40 from N_0)
  have hc : ((grid0.coords t) 0).val = t.val := (by decide +kernel : ∀ t : Fin grid0.N, ((grid0.coords t) 0).val = t.val) t
  rw [hc]
  apply BitVec.eq_of_toNat_eq
  have hq := q.isLt; have hk' := k.isLt
  simp only [BitVec.toNat_add, BitVec.toNat_mul, BitVec.toNat_sub, BitVec.toNat_ofNat]
  omega

/-! ## The shifted columns -/

theorem pos_block_col (c : Dev nD) (hlab : LabOk mI c) (t : Fin cfg0.N) (q : Fin 512) (ht : t.val < 8) (j : Fin 4096) (hj : j.val = 512 * t.val + q.val) :
    posBlockCol (iblk mI c 3 t) (iblk mI c 0 t) (iblk mI c 1 t) (iblk mI c 2 t) q
      = posColShift (argX mI c) (argP mI c) (argL mI c) j := by
  unfold posBlockCol posColShift
  have hf : (fun i => dot (brow (iblk mI c 0 t) i) (fun d => unitRsqrt (prow (iblk mI c 3 t) q) d * negScale))
      = fun i => cPos (argX mI c) (argP mI c) (argL mI c) i j := funext fun i => by
    unfold cPos; rw [batch_row mI c t i, proxy_row_pos mI c hlab t q j hj]
  have hg : (fun i => decide ((iblk mI c 1 t : Vec Ideal S4096x1 .i32) (ix2 i 0) = (iblk mI c 2 t : Vec Ideal S1x512 .i32) (ix2 0 q)))
      = fun i => maskPos (argL mI c) i j := funext fun i => by
    unfold maskPos; rw [label_col mI c t i, col_label mI c t q ht j hj]
  rw [hf, hg]

theorem neg_block_col (c : Dev nD) (t : Fin cfg0.N) (q : Fin 512) (ht : 8 ≤ t.val) (k : Fin 16384) (hk : 4096 + k.val = 512 * t.val + q.val) :
    negBlockCol (BitVec.ofNat 32 ((grid0.coords t) 0).val) (iblk mI c 3 t) (iblk mI c 0 t) (iblk mI c 1 t) q
      = negColShift (argX mI c) (argP mI c) (argL mI c) k := by
  unfold negBlockCol negColShift
  have hf : (fun i => dot (brow (iblk mI c 0 t) i) (fun d => unitRsqrt (prow (iblk mI c 3 t) q) d * scale))
      = fun i => cNeg (argX mI c) (argP mI c) i k := funext fun i => by
    unfold cNeg; rw [batch_row mI c t i, proxy_row_neg mI c t q k hk]
  have hg : (fun i => decide ((iblk mI c 1 t : Vec Ideal S4096x1 .i32) (ix2 i 0) ≠ (BitVec.ofNat 32 ((grid0.coords t) 0).val - 8#32) * 512#32 + BitVec.ofNat 32 q.val))
      = fun i => maskNeg (argL mI c) i k := funext fun i => by
    unfold maskNeg; rw [label_col mI c t i, neg_col_word t q k ht hk]
  rw [hf, hg]

/-! ## The two arrays after the run, column by column -/

theorem lse_pos (c : Dev nD) (hlab : LabOk mI c) (j : Fin 4096) :
    ((dats mI 0 c).arrAt 4 cfg0.N : S1x20480.Idx → EReal) (ix2 0 ⟨j.val, by have := j.isLt; omega⟩)
      = (posColShift (argX mI c) (argP mI c) (argL mI c) j).1 := by
  obtain ⟨t, q, ht, hj⟩ := split_pos j
  have e : (⟨j.val, by have := j.isLt; omega⟩ : Fin 20480) = ⟨512 * t.val + q.val, by have := j.isLt; omega⟩ := Fin.ext hj
  rw [e, arr4_at mI c t q]
  rw [show outLse mI c t = posLse (iblk mI c 0 t) (iblk mI c 1 t) (iblk mI c 2 t) (iblk mI c 3 t) from if_pos ht]
  exact (pos_lse (iblk mI c 3 t) (iblk mI c 0 t) (iblk mI c 1 t) (iblk mI c 2 t) q).trans
    (congrArg Prod.fst (pos_block_col mI c hlab t q ht j hj))

theorem nz_pos (c : Dev nD) (hlab : LabOk mI c) (j : Fin 4096) :
    ((dats mI 0 c).arrAt 5 cfg0.N : S1x20480.Idx → EReal) (ix2 0 ⟨j.val, by have := j.isLt; omega⟩)
      = (posColShift (argX mI c) (argP mI c) (argL mI c) j).2 := by
  obtain ⟨t, q, ht, hj⟩ := split_pos j
  have e : (⟨j.val, by have := j.isLt; omega⟩ : Fin 20480) = ⟨512 * t.val + q.val, by have := j.isLt; omega⟩ := Fin.ext hj
  rw [e, arr5_at mI c t q]
  rw [show outNz mI c t = posNz (iblk mI c 0 t) (iblk mI c 1 t) (iblk mI c 2 t) (iblk mI c 3 t) from if_pos ht]
  exact (pos_nz (iblk mI c 3 t) (iblk mI c 0 t) (iblk mI c 1 t) (iblk mI c 2 t) q).trans
    (congrArg Prod.snd (pos_block_col mI c hlab t q ht j hj))

theorem lse_neg (c : Dev nD) (k : Fin 16384) :
    ((dats mI 0 c).arrAt 4 cfg0.N : S1x20480.Idx → EReal) (ix2 0 ⟨4096 + k.val, by have := k.isLt; omega⟩)
      = (negColShift (argX mI c) (argP mI c) (argL mI c) k).1 := by
  obtain ⟨t, q, ht, hk⟩ := split_neg k
  have e : (⟨4096 + k.val, by have := k.isLt; omega⟩ : Fin 20480) = ⟨512 * t.val + q.val, by have := k.isLt; omega⟩ := Fin.ext hk
  rw [e, arr4_at mI c t q]
  rw [show outLse mI c t = negLse (BitVec.ofNat 32 ((grid0.coords t) 0).val) (iblk mI c 0 t) (iblk mI c 1 t) (iblk mI c 3 t) from if_neg (by omega)]
  exact (neg_lse (BitVec.ofNat 32 ((grid0.coords t) 0).val) (iblk mI c 3 t) (iblk mI c 0 t) (iblk mI c 1 t) q).trans
    (congrArg Prod.fst (neg_block_col mI c t q ht k hk))

theorem nz_neg (c : Dev nD) (k : Fin 16384) :
    ((dats mI 0 c).arrAt 5 cfg0.N : S1x20480.Idx → EReal) (ix2 0 ⟨4096 + k.val, by have := k.isLt; omega⟩)
      = (negColShift (argX mI c) (argP mI c) (argL mI c) k).2 := by
  obtain ⟨t, q, ht, hk⟩ := split_neg k
  have e : (⟨4096 + k.val, by have := k.isLt; omega⟩ : Fin 20480) = ⟨512 * t.val + q.val, by have := k.isLt; omega⟩ := Fin.ext hk
  rw [e, arr5_at mI c t q]
  rw [show outNz mI c t = negNz (BitVec.ofNat 32 ((grid0.coords t) 0).val) (iblk mI c 0 t) (iblk mI c 1 t) (iblk mI c 3 t) from if_neg (by omega)]
  exact (neg_nz (BitVec.ofNat 32 ((grid0.coords t) 0).val) (iblk mI c 3 t) (iblk mI c 0 t) (iblk mI c 1 t) q).trans
    (congrArg Prod.snd (neg_block_col mI c t q ht k hk))

/-! ## The result -/

/-- The result buffer after the later host operations, given labels in range: the shift-folded loss of the arguments. -/
theorem result_value (c : Dev nD) (hlab : LabOk mI c) :
    (Pipeline.afterTail₀ cfgs (dats mI) 0 (V0 mI) tailOps c main_v35 : S_.Idx → EReal)
      = fun _ => lossShift (argX mI c) (argP mI c) (argL mI c) := by
  unfold Pipeline.afterTail₀
  rw [tail_value]
  have h4 : Pipeline.withArrays spec0 c (V0 mI c) (fun w => (dats mI 0 c).arrAt w cfg0.N) (Proc.devRef .tc main_v8_0) = (dats mI 0 c).arrAt 4 cfg0.N :=
    Pipeline.withArrays_arr spec0 launch0.win.arr_inj c _ _ 4
  have h5 : Pipeline.withArrays spec0 c (V0 mI c) (fun w => (dats mI 0 c).arrAt w cfg0.N) (Proc.devRef .tc main_v8_1) = (dats mI 0 c).arrAt 5 cfg0.N :=
    Pipeline.withArrays_arr spec0 launch0.win.arr_inj c _ _ 5
  rw [h4, h5]
  funext _
  unfold lossShift
  simp only [lse_pos mI c hlab, nz_pos mI c hlab, lse_neg mI c, nz_neg mI c]

/-- The run, read: the result buffer ends at the shift-folded loss, the arguments as launched. -/
theorem run_value (hlab : ∀ c, LabOk mI c) :
    θ_run defs (onTc (τ := τ) (main (F := Ideal))) ⟨mI, fun _ => 0, ρ⟩ (fun r => ∀ c : Dev nD,
      r.2.mem ((c.tc : Thread nD τ).loc main_v35) = (fun _ => lossShift (argX mI c) (argP mI c) (argL mI c))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)) :=
  (θ_run defs _ _).mono (fun _ h c =>
    ⟨((h c).2 main_v35 (Pipeline.mem_restRefs_of main_v35 (by decide) (by decide))).trans (result_value mI c (hlab c)),
     ((h c).2 main_arg0 (Pipeline.mem_restRefs_of main_arg0 (by decide) (by decide))).trans (W_main_arg0 mI (dats mI) c),
     ((h c).2 main_arg1 (Pipeline.mem_restRefs_of main_arg1 (by decide) (by decide))).trans (W_main_arg1 mI (dats mI) c),
     ((h c).2 main_arg2 (Pipeline.mem_restRefs_of main_arg2 (by decide) (by decide))).trans (W_main_arg2 mI (dats mI) c)⟩)
    (run_main mI ρ)

end Cert.KernelIdeal.Hand

end
-- ==== Proof.Ref.Run.lean ====
/- The reference program's run, read stretch by stretch.

   The program is a straight line of 157 host operations. It is cut into ten stretches where the data flow is
   narrow. Each stretch is run from an ARBITRARY incoming valuation that is only assumed to hold, in the few
   buffers the stretch reads from earlier ones, the stage values of the three argument arrays; it is shown to leave
   the stage values in the few buffers later stretches read, and to keep every buffer it does not write. Chaining
   the ten stretches gives the last stage of the three launch arrays in the result buffer, the arguments unchanged. -/
import proofs.«402344_j24489903522255_3_alg».proof.Proof.Ref.ReadP

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The batch: 4096 rows of 128 floats. -/
abbrev Arg0 (F : FTy → Type) := (⟨S4096x128, .f32⟩ : BufTy).Contents (Elt F)
/-- The proxy table: 16384 rows of 128 floats. -/
abbrev Arg1 (F : FTy → Type) := (⟨S16384x128, .f32⟩ : BufTy).Contents (Elt F)
/-- The labels: 4096 integers. -/
abbrev Arg2 (F : FTy → Type) := (⟨S4096, .i32⟩ : BufTy).Contents (Elt F)

/-- A property of every element of two lists holds of every element of their concatenation. -/
theorem forall_append {α : Type _} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- An operation writes one buffer; that buffer lies in the image of a list of references as soon as its
    reference lies in the list, which is decided. -/
local macro "written_in_list" : tactic =>
  `(tactic| (simp only [nullary_writes, unary_writes, binary_writes, ternary_writes, reshape_writes,
      Finset.singleton_subset_iff, List.mem_toFinset]; exact List.mem_map_of_mem (by decide)))

/-! ## Stretch A: the two normalisations

Each batch row and each proxy row divided by its Euclidean norm: the row's squares summed, the square root of
the sum, spread back over the row, the row divided by it. -/

abbrev opsA : List (HloOp τ sig (Elt F)) :=
  [ TRef.binary (TRef.of (T := ⟨S4096x128, .f32⟩) main_arg0) (TRef.of (T := ⟨S4096x128, .f32⟩) main_arg0) (TRef.of (T := ⟨S4096x128, .f32⟩) main_call0_v0) mulf,
    TRef.nullary (TRef.of (T := ⟨S_, .f32⟩) main_call0_cst) (constant S_ .f32 0x00000000#32),
    TRef.binary (TRef.of (T := ⟨S4096x128, .f32⟩) main_call0_v0) (TRef.of (T := ⟨S_, .f32⟩) main_call0_cst) (TRef.of (T := ⟨S4096, .f32⟩) main_call0_v1) (fun x v => Host.reduceAdd x v reducesTo_S4096x128_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    unary main_v0 main_v1 (broadcastInDim S4096x128 ![0, 1] bcast_S4096x1_S4096x128_0_1 : (⟨S4096x1, .f32⟩ : BufTy).Contents (Elt F) → (⟨S4096x128, .f32⟩ : BufTy).Contents (Elt F)),
    binary main_arg0 main_v1 main_v2 (Host.divf : (⟨S4096x128, .f32⟩ : BufTy).Contents (Elt F) → (⟨S4096x128, .f32⟩ : BufTy).Contents (Elt F) → (⟨S4096x128, .f32⟩ : BufTy).Contents (Elt F)),
    TRef.binary (TRef.of (T := ⟨S16384x128, .f32⟩) main_arg1) (TRef.of (T := ⟨S16384x128, .f32⟩) main_arg1) (TRef.of (T := ⟨S16384x128, .f32⟩) main_call1_v0) mulf,
    TRef.nullary (TRef.of (T := ⟨S_, .f32⟩) main_call1_cst) (constant S_ .f32 0x00000000#32),
    TRef.binary (TRef.of (T := ⟨S16384x128, .f32⟩) main_call1_v0) (TRef.of (T := ⟨S_, .f32⟩) main_call1_cst) (TRef.of (T := ⟨S16384, .f32⟩) main_call1_v1) (fun x v => Host.reduceAdd x v reducesTo_S16384x128_S16384_d1 h_S_),
    TRef.unary (TRef.of (T := ⟨S16384, .f32⟩) main_call1_v1) (TRef.of (T := ⟨S16384x1, .f32⟩) main_call1_v2) (broadcastInDim S16384x1 ![0] bcast_S16384_S16384x1_0),
    TRef.unary (TRef.of (T := ⟨S16384x1, .f32⟩) main_call1_v2) (TRef.of (T := ⟨S16384x1, .f32⟩) main_v3) Host.sqrt,
    unary main_v3 main_v4 (broadcastInDim S16384x128 ![0, 1] bcast_S16384x1_S16384x128_0_1 : (⟨S16384x1, .f32⟩ : BufTy).Contents (Elt F) → (⟨S16384x128, .f32⟩ : BufTy).Contents (Elt F)),
    binary main_arg1 main_v4 main_v5 (Host.divf : (⟨S16384x128, .f32⟩ : BufTy).Contents (Elt F) → (⟨S16384x128, .f32⟩ : BufTy).Contents (Elt F) → (⟨S16384x128, .f32⟩ : BufTy).Contents (Elt F)) ]

/-- The references stretch A writes. -/
abbrev wrA : List (Ref sig .tc) :=
  [main_call0_v0, main_call0_cst, main_call0_v1, main_call0_v2, main_v0, main_v1, main_v2,
   main_call1_v0, main_call1_cst, main_call1_v1, main_call1_v2, main_v3, main_v4, main_v5]

theorem opsA_sub : (opsA : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub .., unary_bufs_sub .., binary_bufs_sub ..⟩
theorem opsA_fresh : (opsA : List (HloOp τ sig (Elt F))).Forall fun op => op.fresh = ∅ := by
  simp only [List.Forall]; and_intros <;> rfl
theorem opsA_writes : (opsA : List (HloOp τ sig (Elt F))).Forall fun op =>
    op.writes ⊆ (wrA.map (Proc.devRef (τ := τ) .tc)).toFinset := by
  simp only [List.Forall]; and_intros <;> written_in_list
/-- Stretch A keeps every buffer it does not write. -/
theorem keepA (W : Valuation τ sig (Elt F)) (r : Ref sig .tc) (h : r ∉ wrA) :
    after opsA W (Proc.devRef .tc r) = W (Proc.devRef .tc r) :=
  after_of_writes_sub opsA W opsA_writes h

/-- The normalised batch, from a valuation holding the batch. -/
theorem A_v2 (W : Valuation τ sig (Elt F)) (x0 : Arg0 F) (h0 : W (Proc.devRef .tc main_arg0) = x0) :
    after opsA W (Proc.devRef .tc main_v2) = val_main_v2 (F := F) x0 := by
  after_results_simp
  rw [h0]
  rfl
/-- The normalised proxy table, from a valuation holding the table. -/
theorem A_v5 (W : Valuation τ sig (Elt F)) (x1 : Arg1 F) (h1 : W (Proc.devRef .tc main_arg1) = x1) :
    after opsA W (Proc.devRef .tc main_v5) = val_main_v5 (F := F) x1 := by
  after_results_simp
  rw [h1]
  rfl

/-! ## Stretch B: wrapped labels, gathered rows, the two products

A negative label has the table's height added; the labelled rows of the normalised table are gathered; the
normalised batch is multiplied with the transposed gathered rows (batch by batch) and with the transposed
normalised table (batch by table). -/

abbrev opsB : List (HloOp τ sig (Elt F)) :=
  [ nullary main_c (constantI S_ 32 0#32),
    unary main_c main_v6 (broadcastInDim S4096 ![] bcast_S_S4096 : (⟨S_, .i32⟩ : BufTy).Contents (Elt F) → (⟨S4096, .i32⟩ : BufTy).Contents (Elt F)),
    binary main_arg2 main_v6 main_v7 (cmpi .slt : (⟨S4096, .i32⟩ : BufTy).Contents (Elt F) → (⟨S4096, .i32⟩ : BufTy).Contents (Elt F) → (⟨S4096, .i1⟩ : BufTy).Contents (Elt F)),
    nullary main_c_0 (constantI S_ 32 16384#32),
    unary main_c_0 main_v8 (broadcastInDim S4096 ![] bcast_S_S4096 : (⟨S_, .i32⟩ : BufTy).Contents (Elt F) → (⟨S4096, .i32⟩ : BufTy).Contents (Elt F)),
    binary main_arg2 main_v8 main_v9 (addi : (⟨S4096, .i32⟩ : BufTy).Contents (Elt F) → (⟨S4096, .i32⟩ : BufTy).Contents (Elt F) → (⟨S4096, .i32⟩ : BufTy).Contents (Elt F)),
    ternary main_v7 main_v9 main_arg2 main_v10 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v10 main_v11 (broadcastInDim S4096x1 ![0] bcast_S4096_S4096x1_0 : (⟨S4096, .i32⟩ : BufTy).Contents (Elt F) → (⟨S4096x1, .i32⟩ : BufTy).Contents (Elt F)),
    binary main_v5 main_v11 main_v12 ((fun x i => Host.gather gather_S16384x128_S4096x1_S4096x128_1_0_n_n_0_1_1128 x i) : (⟨S16384x128, .f32⟩ : BufTy).Contents (Elt F) → (⟨S4096x1, .i32⟩ : BufTy).Contents (Elt F) → (⟨S4096x128, .f32⟩ : BufTy).Contents (Elt F)),
    unary main_v12 main_v13 ((transpose S128x4096 [1, 0] · transposes_S4096x128_S128x4096_1_0) : (⟨S4096x128, .f32⟩ : BufTy).Contents (Elt F) → (⟨S128x4096, .f32⟩ : BufTy).Contents (Elt F)),
    binary main_v2 main_v13 main_v14 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    unary main_v5 main_v15 ((transpose S128x16384 [1, 0] · transposes_S16384x128_S128x16384_1_0) : (⟨S16384x128, .f32⟩ : BufTy).Contents (Elt F) → (⟨S128x16384, .f32⟩ : BufTy).Contents (Elt F)),
    binary main_v2 main_v15 main_v16 ((fun l r => Host.dotGeneral dot_S4096x128_S128x16384_S4096x16384_1_0_0_1_n_n none l r) : (⟨S4096x128, .f32⟩ : BufTy).Contents (Elt F) → (⟨S128x16384, .f32⟩ : BufTy).Contents (Elt F) → (⟨S4096x16384, .f32⟩ : BufTy).Contents (Elt F)) ]

/-- The references stretch B writes. -/
abbrev wrB : List (Ref sig .tc) :=
  [main_c, main_v6, main_v7, main_c_0, main_v8, main_v9, main_v10, main_v11, main_v12, main_v13, main_v14,
   main_v15, main_v16]

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub ..⟩
theorem opsB_fresh : (opsB : List (HloOp τ sig (Elt F))).Forall fun op => op.fresh = ∅ := by
  simp only [List.Forall]; and_intros <;> rfl
theorem opsB_writes : (opsB : List (HloOp τ sig (Elt F))).Forall fun op =>
    op.writes ⊆ (wrB.map (Proc.devRef (τ := τ) .tc)).toFinset := by
  simp only [List.Forall]; and_intros <;> written_in_list
/-- Stretch B keeps every buffer it does not write. -/
theorem keepB (W : Valuation τ sig (Elt F)) (r : Ref sig .tc) (h : r ∉ wrB) :
    after opsB W (Proc.devRef .tc r) = W (Proc.devRef .tc r) :=
  after_of_writes_sub opsB W opsB_writes h

/-- The batch-by-batch similarities, from the two normalised arrays and the labels. -/
theorem B_v14 (W : Valuation τ sig (Elt F)) (x0 : Arg0 F) (x1 : Arg1 F) (x2 : Arg2 F)
    (h2 : W (Proc.devRef .tc main_v2) = val_main_v2 (F := F) x0)
    (h5 : W (Proc.devRef .tc main_v5) = val_main_v5 (F := F) x1)
    (ha2 : W (Proc.devRef .tc main_arg2) = x2) :
    after opsB W (Proc.devRef .tc main_v14) = val_main_v14 (F := F) x0 x1 x2 := by
  after_results_simp
  rw [h2, h5, ha2]
  rfl
/-- The batch-by-table similarities, from the two normalised arrays. -/
theorem B_v16 (W : Valuation τ sig (Elt F)) (x0 : Arg0 F) (x1 : Arg1 F)
    (h2 : W (Proc.devRef .tc main_v2) = val_main_v2 (F := F) x0)
    (h5 : W (Proc.devRef .tc main_v5) = val_main_v5 (F := F) x1) :
    after opsB W (Proc.devRef .tc main_v16) = val_main_v16 (F := F) x0 x1 := by
  after_results_simp
  rw [h2, h5]
  rfl

/-! ## Stretch C: the two masks

As floats: label i equals label j, over pairs of the batch; label i differs from column j, over batch by table. -/

abbrev opsC : List (HloOp τ sig (Elt F)) :=
  [ unary main_arg2 main_v17 (broadcastInDim S4096x1 ![0] bcast_S4096_S4096x1_0 : (⟨S4096, .i32⟩ : BufTy).Contents (Elt F) → (⟨S4096x1, .i32⟩ : BufTy).Contents (Elt F)),
    unary main_arg2 main_v18 (broadcastInDim S1x4096 ![1] bcast_S4096_S1x4096_1 : (⟨S4096, .i32⟩ : BufTy).Contents (Elt F) → (⟨S1x4096, .i32⟩ : BufTy).Contents (Elt F)),
    unary main_v17 main_v19 (broadcastInDim S4096x4096 ![0, 1] bcast_S4096x1_S4096x4096_0_1 : (⟨S4096x1, .i32⟩ : BufTy).Contents (Elt F) → (⟨S4096x4096, .i32⟩ : BufTy).Contents (Elt F)),
    unary main_v18 main_v20 (broadcastInDim S4096x4096 ![0, 1] bcast_S1x4096_S4096x4096_0_1 : (⟨S1x4096, .i32⟩ : BufTy).Contents (Elt F) → (⟨S4096x4096, .i32⟩ : BufTy).Contents (Elt F)),
    binary main_v19 main_v20 main_v21 (cmpi .eq : (⟨S4096x4096, .i32⟩ : BufTy).Contents (Elt F) → (⟨S4096x4096, .i32⟩ : BufTy).Contents (Elt F) → (⟨S4096x4096, .i1⟩ : BufTy).Contents (Elt F)),
    unary main_v21 main_v22 (uitofp .f32 : (⟨S4096x4096, .i1⟩ : BufTy).Contents (Elt F) → (⟨S4096x4096, .f32⟩ : BufTy).Contents (Elt F)),
    unary main_arg2 main_v23 (broadcastInDim S4096x1 ![0] bcast_S4096_S4096x1_0 : (⟨S4096, .i32⟩ : BufTy).Contents (Elt F) → (⟨S4096x1, .i32⟩ : BufTy).Contents (Elt F)),
    nullary main_v24 (iotaInDim S16384 32 0),
    unary main_v24 main_v25 (broadcastInDim S1x16384 ![1] bcast_S16384_S1x16384_1 : (⟨S16384, .i32⟩ : BufTy).Contents (Elt F) → (⟨S1x16384, .i32⟩ : BufTy).Contents (Elt F)),
    unary main_v23 main_v26 (broadcastInDim S4096x16384 ![0, 1] bcast_S4096x1_S4096x16384_0_1 : (⟨S4096x1, .i32⟩ : BufTy).Contents (Elt F) → (⟨S4096x16384, .i32⟩ : BufTy).Contents (Elt F)),
    unary main_v25 main_v27 (broadcastInDim S4096x16384 ![0, 1] bcast_S1x16384_S4096x16384_0_1 : (⟨S1x16384, .i32⟩ : BufTy).Contents (Elt F) → (⟨S4096x16384, .i32⟩ : BufTy).Contents (Elt F)),
    binary main_v26 main_v27 main_v28 (cmpi .ne : (⟨S4096x16384, .i32⟩ : BufTy).Contents (Elt F) → (⟨S4096x16384, .i32⟩ : BufTy).Contents (Elt F) → (⟨S4096x16384, .i1⟩ : BufTy).Contents (Elt F)),
    unary main_v28 main_v29 (uitofp .f32 : (⟨S4096x16384, .i1⟩ : BufTy).Contents (Elt F) → (⟨S4096x16384, .f32⟩ : BufTy).Contents (Elt F)) ]

/-- The references stretch C writes. -/
abbrev wrC : List (Ref sig .tc) :=
  [main_v17, main_v18, main_v19, main_v20, main_v21, main_v22, main_v23, main_v24, main_v25, main_v26, main_v27,
   main_v28, main_v29]

theorem opsC_sub : (opsC : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., nullary_bufs_sub .., unary_bufs_sub .., unary_bufs_sub .., unary_bufs_sub .., binary_bufs_sub .., unary_bufs_sub ..⟩
theorem opsC_fresh : (opsC : List (HloOp τ sig (Elt F))).Forall fun op => op.fresh = ∅ := by
  simp only [List.Forall]; and_intros <;> rfl
theorem opsC_writes : (opsC : List (HloOp τ sig (Elt F))).Forall fun op =>
    op.writes ⊆ (wrC.map (Proc.devRef (τ := τ) .tc)).toFinset := by
  simp only [List.Forall]; and_intros <;> written_in_list
/-- Stretch C keeps every buffer it does not write. -/
theorem keepC (W : Valuation τ sig (Elt F)) (r : Ref sig .tc) (h : r ∉ wrC) :
    after opsC W (Proc.devRef .tc r) = W (Proc.devRef .tc r) :=
  after_of_writes_sub opsC W opsC_writes h

/-- The same-label mask, from the labels. -/
theorem C_v22 (W : Valuation τ sig (Elt F)) (x2 : Arg2 F) (ha2 : W (Proc.devRef .tc main_arg2) = x2) :
    after opsC W (Proc.devRef .tc main_v22) = val_main_v22 (F := F) x2 := by
  after_results_simp
  rw [ha2]
  rfl
/-- The other-column mask, from the labels. -/
theorem C_v29 (W : Valuation τ sig (Elt F)) (x2 : Arg2 F) (ha2 : W (Proc.devRef .tc main_arg2) = x2) :
    after opsC W (Proc.devRef .tc main_v29) = val_main_v29 (F := F) x2 := by
  after_results_simp
  rw [ha2]
  rfl

/-! ## Stretch D: margins and scales

The batch-by-batch similarities minus the margin, times the negative scale; the batch-by-table similarities
plus the margin, times the positive scale. -/

abbrev opsD : List (HloOp τ sig (Elt F)) :=
  [ nullary main_cst (constant S_ .f32 0x3DCCCCCD#32),
    unary main_cst main_v30 (broadcastInDim S4096x4096 ![] bcast_S_S4096x4096 : (⟨S_, .f32⟩ : BufTy).Contents (Elt F) → (⟨S4096x4096, .f32⟩ : BufTy).Contents (Elt F)),
    binary main_v14 main_v30 main_v31 (subf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0xC2000000#32),
    unary main_cst_1 main_v32 (broadcastInDim S4096x4096 ![] bcast_S_S4096x4096 : (⟨S_, .f32⟩ : BufTy).Contents (Elt F) → (⟨S4096x4096, .f32⟩ : BufTy).Contents (Elt F)),
    binary main_v32 main_v31 main_v33 (mulf : (⟨S4096x4096, .f32⟩ : BufTy).Contents (Elt F) → (⟨S4096x4096, .f32⟩ : BufTy).Contents (Elt F) → (⟨S4096x4096, .f32⟩ : BufTy).Contents (Elt F)),
    nullary main_cst_2 (constant S_ .f32 0xBDCCCCCD#32),
    unary main_cst_2 main_v34 (broadcastInDim S4096x16384 ![] bcast_S_S4096x16384 : (⟨S_, .f32⟩ : BufTy).Contents (Elt F) → (⟨S4096x16384, .f32⟩ : BufTy).Contents (Elt F)),
    binary main_v16 main_v34 main_v35 (subf : (⟨S4096x16384, .f32⟩ : BufTy).Contents (Elt F) → (⟨S4096x16384, .f32⟩ : BufTy).Contents (Elt F) → (⟨S4096x16384, .f32⟩ : BufTy).Contents (Elt F)),
    nullary main_cst_3 (constant S_ .f32 0x42000000#32),
    unary main_cst_3 main_v36 (broadcastInDim S4096x16384 ![] bcast_S_S4096x16384 : (⟨S_, .f32⟩ : BufTy).Contents (Elt F) → (⟨S4096x16384, .f32⟩ : BufTy).Contents (Elt F)),
    binary main_v36 main_v35 main_v37 (mulf : (⟨S4096x16384, .f32⟩ : BufTy).Contents (Elt F) → (⟨S4096x16384, .f32⟩ : BufTy).Contents (Elt F) → (⟨S4096x16384, .f32⟩ : BufTy).Contents (Elt F)) ]

/-- The references stretch D writes. -/
abbrev wrD : List (Ref sig .tc) :=
  [main_cst, main_v30, main_v31, main_cst_1, main_v32, main_v33, main_cst_2, main_v34, main_v35, main_cst_3,
   main_v36, main_v37]

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
theorem opsD_fresh : (opsD : List (HloOp τ sig (Elt F))).Forall fun op => op.fresh = ∅ := by
  simp only [List.Forall]; and_intros <;> rfl
theorem opsD_writes : (opsD : List (HloOp τ sig (Elt F))).Forall fun op =>
    op.writes ⊆ (wrD.map (Proc.devRef (τ := τ) .tc)).toFinset := by
  simp only [List.Forall]; and_intros <;> written_in_list
/-- Stretch D keeps every buffer it does not write. -/
theorem keepD (W : Valuation τ sig (Elt F)) (r : Ref sig .tc) (h : r ∉ wrD) :
    after opsD W (Proc.devRef .tc r) = W (Proc.devRef .tc r) :=
  after_of_writes_sub opsD W opsD_writes h

/-- The scaled batch-by-batch similarities. -/
theorem D_v33 (W : Valuation τ sig (Elt F)) (x0 : Arg0 F) (x1 : Arg1 F) (x2 : Arg2 F)
    (h14 : W (Proc.devRef .tc main_v14) = val_main_v14 (F := F) x0 x1 x2) :
    after opsD W (Proc.devRef .tc main_v33) = val_main_v33 (F := F) x0 x1 x2 := by
  after_results_simp
  rw [h14]
  rfl
/-- The scaled batch-by-table similarities. -/
theorem D_v37 (W : Valuation τ sig (Elt F)) (x0 : Arg0 F) (x1 : Arg1 F)
    (h16 : W (Proc.devRef .tc main_v16) = val_main_v16 (F := F) x0 x1) :
    after opsD W (Proc.devRef .tc main_v37) = val_main_v37 (F := F) x0 x1 := by
  after_results_simp
  rw [h16]
  rfl

/-! ## Stretch E: the positive column, first half

The masked scaled similarities; their smallest and largest value down each column of the batch axis; the flag
"largest plus smallest is not zero"; the exponentials of the similarities shifted by the column's smallest
masked value, masked again. -/

abbrev opsE : List (HloOp τ sig (Elt F)) :=
  [ binary main_v33 main_v22 main_v38 (mulf : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x7F800000#32),
    binary main_v38 main_cst_4 main_v39 ((fun x v => Host.reduce FloatOps.minimumf x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    unary main_v39 main_v40 (broadcastInDim S1x4096 ![1] bcast_S4096_S1x4096_1 : (⟨S4096, .f32⟩ : BufTy).Contents (Elt F) → (⟨S1x4096, .f32⟩ : BufTy).Contents (Elt F)),
    nullary main_cst_5 (constant S_ .f32 0xFF800000#32),
    binary main_v38 main_cst_5 main_v41 ((fun x v => Host.reduce FloatOps.maximumf x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    nullary main_cst_6 (constant S_ .f32 0x7F800000#32),
    binary main_v38 main_cst_6 main_v42 ((fun x v => Host.reduce FloatOps.minimumf x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    binary main_v41 main_v42 main_v43 (addf : (⟨S4096, .f32⟩ : BufTy).Contents (Elt F) → (⟨S4096, .f32⟩ : BufTy).Contents (Elt F) → (⟨S4096, .f32⟩ : BufTy).Contents (Elt F)),
    nullary main_cst_7 (constant S_ .f32 0x00000000#32),
    unary main_cst_7 main_v44 (broadcastInDim S4096 ![] bcast_S_S4096 : (⟨S_, .f32⟩ : BufTy).Contents (Elt F) → (⟨S4096, .f32⟩ : BufTy).Contents (Elt F)),
    binary main_v43 main_v44 main_v45 (cmpf .une : (⟨S4096, .f32⟩ : BufTy).Contents (Elt F) → (⟨S4096, .f32⟩ : BufTy).Contents (Elt F) → (⟨S4096, .i1⟩ : BufTy).Contents (Elt F)),
    unary main_v40 main_v46 (broadcastInDim S4096x4096 ![0, 1] bcast_S1x4096_S4096x4096_0_1 : (⟨S1x4096, .f32⟩ : BufTy).Contents (Elt F) → (⟨S4096x4096, .f32⟩ : BufTy).Contents (Elt F)),
    binary main_v33 main_v46 main_v47 (subf : (⟨S4096x4096, .f32⟩ : BufTy).Contents (Elt F) → (⟨S4096x4096, .f32⟩ : BufTy).Contents (Elt F) → (⟨S4096x4096, .f32⟩ : BufTy).Contents (Elt F)),
    unary main_v47 main_v48 (Host.exp : (⟨S4096x4096, .f32⟩ : BufTy).Contents (Elt F) → (⟨S4096x4096, .f32⟩ : BufTy).Contents (Elt F)),
    binary main_v48 main_v22 main_v49 (mulf : (⟨S4096x4096, .f32⟩ : BufTy).Contents (Elt F) → (⟨S4096x4096, .f32⟩ : BufTy).Contents (Elt F) → (⟨S4096x4096, .f32⟩ : BufTy).Contents (Elt F)) ]

/-- The references stretch E writes. -/
abbrev wrE : List (Ref sig .tc) :=
  [main_v38, main_cst_4, main_v39, main_v40, main_cst_5, main_v41, main_cst_6, main_v42, main_v43, main_cst_7,
   main_v44, main_v45, main_v46, main_v47, main_v48, main_v49]

theorem opsE_sub : (opsE : List (HloOp τ sig (Elt F))).Forall fun op => op.bufs ⊆ tcRefs τ sig :=
  ⟨binary_bufs_sub .., nullary_bufs_sub .., binary_bufs_sub .., unary_bufs_sub .., nullary_bufs_sub .., binary_bufs_sub .., nullary_bufs_sub .., binary_bufs_sub .., binary_bufs_sub .., nullary_bufs_sub .., unary_bufs_sub .., binary_bufs_sub .., unary_bufs_sub .., binary_bufs_sub .., unary_bufs_sub .., binary_bufs_sub ..⟩
theorem opsE_fresh : (opsE : List (HloOp τ sig (Elt F))).Forall fun op => op.fresh = ∅ := by
  simp only [List.Forall]; and_intros <;> rfl
theorem opsE_writes : (opsE : List (HloOp τ sig (Elt F))).Forall fun op =>
    op.writes ⊆ (wrE.map (Proc.devRef (τ := τ) .tc)).toFinset := by
  simp only [List.Forall]; and_intros <;> written_in_list
/-- Stretch E keeps every buffer it does not write. -/
theorem keepE (W : Valuation τ sig (Elt F)) (r : Ref sig .tc) (h : r ∉ wrE) :
    after opsE W (Proc.devRef .tc r) = W (Proc.devRef .tc r) :=
  after_of_writes_sub opsE W opsE_writes h

/-- The column shift of the positive side, as a row. -/
theorem E_v40 (W : Valuation τ sig (Elt F)) (x0 : Arg0 F) (x1 : Arg1 F) (x2 : Arg2 F)
    (h33 : W (Proc.devRef .tc main_v33) = val_main_v33 (F := F) x0 x1 x2)
    (h22 : W (Proc.devRef .tc main_v22) = val_main_v22 (F := F) x2) :
    after opsE W (Proc.devRef .tc main_v40) = val_main_v40 (F := F) x0 x1 x2 := by
  after_results_simp
  rw [h33, h22]
  rfl
/-- The flag of the positive side: the column's largest plus smallest masked value is not zero. -/
theorem E_v45 (W : Valuation τ sig (Elt F)) (x0 : Arg0 F) (x1 : Arg1 F) (x2 : Arg2 F)
    (h33 : W (Proc.devRef .tc main_v33) = val_main_v33 (F := F) x0 x1 x2)
    (h22 : W (Proc.devRef .tc main_v22) = val_main_v22 (F := F) x2) :
    after opsE W (Proc.devRef .tc main_v45) = val_main_v45 (F := F) x0 x1 x2 := by
  after_results_simp
  rw [h33, h22]
  rfl
/-- The masked shifted exponentials of the positive side. -/
theorem E_v49 (W : Valuation τ sig (Elt F)) (x0 : Arg0 F) (x1 : Arg1 F) (x2 : Arg2 F)
    (h33 : W (Proc.devRef .tc main_v33) = val_main_v33 (F := F) x0 x1 x2)
    (h22 : W (Proc.devRef .tc main_v22) = val_main_v22 (F := F) x2) :
    after opsE W (Proc.devRef .tc main_v49) = val_main_v49 (F := F) x0 x1 x2 := by
  after_results_simp
  rw [h33, h22]
  rfl

/-! ## Stretch F: the positive column, second half

The column sums of the masked exponentials, one in their place where the flag is clear, the logarithm, plus the
column's shift. -/

abbrev opsF : List (HloOp τ sig (Elt F)) :=
  [ nullary main_cst_8 (constant S_ .f32 0x00000000#32),
    binary main_v49 main_cst_8 main_v50 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S4096, .f32⟩) main_call2_v1) (broadcastInDim S4096 ![] bcast_S_S4096),
    TRef.ternary (TRef.of (T := ⟨S4096, .i1⟩) main_v45) (TRef.of (T := ⟨S4096, .f32⟩) main_v50) (TRef.of (T := ⟨S4096, .f32⟩) main_call2_v1) (TRef.of (T := ⟨S4096, .f32⟩) main_v51) select,
    unary main_v51 main_v52 (Host.log : (⟨S4096, .f32⟩ : BufTy).Contents (Elt F) → (⟨S4096, .f32⟩ : BufTy).Contents (Elt F)),
    reshape main_v40 main_v53 rfl shapeCasts_S1x4096_S4096,
    binary main_v52 main_v53 main_v54 (addf : (⟨S4096, .f32⟩ : BufTy).Contents (Elt F) → (⟨S4096, .f32⟩ : BufTy).Contents (Elt F) → (⟨S4096, .f32⟩ : BufTy).Contents (Elt F)) ]

/-- The references stretch F writes. -/
abbrev wrF : List (Ref sig .tc) :=
  [main_cst_8, main_v50, main_cst_9, main_call2_v0, main_call2_v1, main_v51, main_v52, main_v53, main_v54]

theorem opsF_sub : (opsF : List (HloOp τ sig (Elt F))).Forall fun op => op.bufs ⊆ tcRefs τ sig :=
  ⟨nullary_bufs_sub .., binary_bufs_sub .., nullary_bufs_sub .., unary_bufs_sub .., unary_bufs_sub .., ternary_bufs_sub .., unary_bufs_sub .., reshape_bufs_sub .., binary_bufs_sub ..⟩
theorem opsF_fresh : (opsF : List (HloOp τ sig (Elt F))).Forall fun op => op.fresh = ∅ := by
  simp only [List.Forall]; and_intros <;> rfl
theorem opsF_writes : (opsF : List (HloOp τ sig (Elt F))).Forall fun op =>
    op.writes ⊆ (wrF.map (Proc.devRef (τ := τ) .tc)).toFinset := by
  simp only [List.Forall]; and_intros <;> written_in_list
/-- Stretch F keeps every buffer it does not write. -/
theorem keepF (W : Valuation τ sig (Elt F)) (r : Ref sig .tc) (h : r ∉ wrF) :
    after opsF W (Proc.devRef .tc r) = W (Proc.devRef .tc r) :=
  after_of_writes_sub opsF W opsF_writes h

/-- The positive column: the masked log-sum-exp down the batch axis. -/
theorem F_v54 (W : Valuation τ sig (Elt F)) (x0 : Arg0 F) (x1 : Arg1 F) (x2 : Arg2 F)
    (h49 : W (Proc.devRef .tc main_v49) = val_main_v49 (F := F) x0 x1 x2)
    (h45 : W (Proc.devRef .tc main_v45) = val_main_v45 (F := F) x0 x1 x2)
    (h40 : W (Proc.devRef .tc main_v40) = val_main_v40 (F := F) x0 x1 x2) :
    after opsF W (Proc.devRef .tc main_v54) = val_main_v54 (F := F) x0 x1 x2 := by
  after_results_simp
  rw [h49, h45, h40]
  rfl

/-! ## Stretch G: the negative column

The same masked log-sum-exp down the batch axis, for the batch-by-table similarities: the masked values, the
column's largest as the shift, the flag "largest plus smallest is not zero", the masked shifted exponentials
summed, one in place of the sum where the flag is clear, the logarithm, plus the shift. -/

abbrev opsG : List (HloOp τ sig (Elt F)) :=
  [ binary main_v37 main_v29 main_v55 (mulf : (⟨S4096x16384, .f32⟩ : BufTy).Contents (Elt F) → (⟨S4096x16384, .f32⟩ : BufTy).Contents (Elt F) → (⟨S4096x16384, .f32⟩ : BufTy).Contents (Elt F)),
    nullary main_cst_10 (constant S_ .f32 0xFF800000#32),
    binary main_v55 main_cst_10 main_v56 ((fun x v => Host.reduce FloatOps.maximumf x v reducesTo_S4096x16384_S16384_d0 h_S_) : (⟨S4096x16384, .f32⟩ : BufTy).Contents (Elt F) → (⟨S_, .f32⟩ : BufTy).Contents (Elt F) → (⟨S16384, .f32⟩ : BufTy).Contents (Elt F)),
    unary main_v56 main_v57 (broadcastInDim S1x16384 ![1] bcast_S16384_S1x16384_1 : (⟨S16384, .f32⟩ : BufTy).Contents (Elt F) → (⟨S1x16384, .f32⟩ : BufTy).Contents (Elt F)),
    nullary main_cst_11 (constant S_ .f32 0xFF800000#32),
    binary main_v55 main_cst_11 main_v58 ((fun x v => Host.reduce FloatOps.maximumf x v reducesTo_S4096x16384_S16384_d0 h_S_) : (⟨S4096x16384, .f32⟩ : BufTy).Contents (Elt F) → (⟨S_, .f32⟩ : BufTy).Contents (Elt F) → (⟨S16384, .f32⟩ : BufTy).Contents (Elt F)),
    nullary main_cst_12 (constant S_ .f32 0x7F800000#32),
    binary main_v55 main_cst_12 main_v59 ((fun x v => Host.reduce FloatOps.minimumf x v reducesTo_S4096x16384_S16384_d0 h_S_) : (⟨S4096x16384, .f32⟩ : BufTy).Contents (Elt F) → (⟨S_, .f32⟩ : BufTy).Contents (Elt F) → (⟨S16384, .f32⟩ : BufTy).Contents (Elt F)),
    binary main_v58 main_v59 main_v60 (addf : (⟨S16384, .f32⟩ : BufTy).Contents (Elt F) → (⟨S16384, .f32⟩ : BufTy).Contents (Elt F) → (⟨S16384, .f32⟩ : BufTy).Contents (Elt F)),
    nullary main_cst_13 (constant S_ .f32 0x00000000#32),
    unary main_cst_13 main_v61 (broadcastInDim S16384 ![] bcast_S_S16384 : (⟨S_, .f32⟩ : BufTy).Contents (Elt F) → (⟨S16384, .f32⟩ : BufTy).Contents (Elt F)),
    binary main_v60 main_v61 main_v62 (cmpf .une : (⟨S16384, .f32⟩ : BufTy).Contents (Elt F) → (⟨S16384, .f32⟩ : BufTy).Contents (Elt F) → (⟨S16384, .i1⟩ : BufTy).Contents (Elt F)),
    unary main_v57 main_v63 (broadcastInDim S4096x16384 ![0, 1] bcast_S1x16384_S4096x16384_0_1 : (⟨S1x16384, .f32⟩ : BufTy).Contents (Elt F) → (⟨S4096x16384, .f32⟩ : BufTy).Contents (Elt F)),
    binary main_v37 main_v63 main_v64 (subf : (⟨S4096x16384, .f32⟩ : BufTy).Contents (Elt F) → (⟨S4096x16384, .f32⟩ : BufTy).Contents (Elt F) → (⟨S4096x16384, .f32⟩ : BufTy).Contents (Elt F)),
    unary main_v64 main_v65 (Host.exp : (⟨S4096x16384, .f32⟩ : BufTy).Contents (Elt F) → (⟨S4096x16384, .f32⟩ : BufTy).Contents (Elt F)),
    binary main_v65 main_v29 main_v66 (mulf : (⟨S4096x16384, .f32⟩ : BufTy).Contents (Elt F) → (⟨S4096x16384, .f32⟩ : BufTy).Contents (Elt F) → (⟨S4096x16384, .f32⟩ : BufTy).Contents (Elt F)),
    nullary main_cst_14 (constant S_ .f32 0x00000000#32),
    binary main_v66 main_cst_14 main_v67 ((fun x v => Host.reduceAdd x v reducesTo_S4096x16384_S16384_d0 h_S_) : (⟨S4096x16384, .f32⟩ : BufTy).Contents (Elt F) → (⟨S_, .f32⟩ : BufTy).Contents (Elt F) → (⟨S16384, .f32⟩ : BufTy).Contents (Elt F)),
    nullary main_cst_15 (constant S_ .f32 0x3F800000#32),
    TRef.unary (TRef.of (T := ⟨S_, .f32⟩) main_cst_15) (TRef.of (T := ⟨S_, .f32⟩) main_call3_v0) id,
    TRef.unary (TRef.of (T := ⟨S_, .f32⟩) main_call3_v0) (TRef.of (T := ⟨S16384, .f32⟩) main_call3_v1) (broadcastInDim S16384 ![] bcast_S_S16384),
    TRef.ternary (TRef.of (T := ⟨S16384, .i1⟩) main_v62) (TRef.of (T := ⟨S16384, .f32⟩) main_v67) (TRef.of (T := ⟨S16384, .f32⟩) main_call3_v1) (TRef.of (T := ⟨S16384, .f32⟩) main_v68) select,
    unary main_v68 main_v69 (Host.log : (⟨S16384, .f32⟩ : BufTy).Contents (Elt F) → (⟨S16384, .f32⟩ : BufTy).Contents (Elt F)),
    reshape main_v57 main_v70 rfl shapeCasts_S1x16384_S16384,
    binary main_v69 main_v70 main_v71 (addf : (⟨S16384, .f32⟩ : BufTy).Contents (Elt F) → (⟨S16384, .f32⟩ : BufTy).Contents (Elt F) → (⟨S16384, .f32⟩ : BufTy).Contents (Elt F)) ]

/-- The references stretch G writes. -/
abbrev wrG : List (Ref sig .tc) :=
  [main_v55, main_cst_10, main_v56, main_v57, main_cst_11, main_v58, main_cst_12, main_v59, main_v60, main_cst_13,
   main_v61, main_v62, main_v63, main_v64, main_v65, main_v66, main_cst_14, main_v67, main_cst_15, main_call3_v0,
   main_call3_v1, main_v68, main_v69, main_v70, main_v71]

theorem opsG_sub : (opsG : List (HloOp τ sig (Elt F))).Forall fun op => op.bufs ⊆ tcRefs τ sig :=
  ⟨binary_bufs_sub .., nullary_bufs_sub .., binary_bufs_sub .., unary_bufs_sub .., nullary_bufs_sub .., binary_bufs_sub .., nullary_bufs_sub .., binary_bufs_sub .., binary_bufs_sub .., nullary_bufs_sub .., unary_bufs_sub .., binary_bufs_sub .., unary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., binary_bufs_sub ..⟩
theorem opsG_fresh : (opsG : List (HloOp τ sig (Elt F))).Forall fun op => op.fresh = ∅ := by
  simp only [List.Forall]; and_intros <;> rfl
theorem opsG_writes : (opsG : List (HloOp τ sig (Elt F))).Forall fun op =>
    op.writes ⊆ (wrG.map (Proc.devRef (τ := τ) .tc)).toFinset := by
  simp only [List.Forall]; and_intros <;> written_in_list
/-- Stretch G keeps every buffer it does not write. -/
theorem keepG (W : Valuation τ sig (Elt F)) (r : Ref sig .tc) (h : r ∉ wrG) :
    after opsG W (Proc.devRef .tc r) = W (Proc.devRef .tc r) :=
  after_of_writes_sub opsG W opsG_writes h

/-- The flag of the negative side. -/
theorem G_v62 (W : Valuation τ sig (Elt F)) (x0 : Arg0 F) (x1 : Arg1 F) (x2 : Arg2 F)
    (h37 : W (Proc.devRef .tc main_v37) = val_main_v37 (F := F) x0 x1)
    (h29 : W (Proc.devRef .tc main_v29) = val_main_v29 (F := F) x2) :
    after opsG W (Proc.devRef .tc main_v62) = val_main_v62 (F := F) x0 x1 x2 := by
  after_results_simp
  rw [h37, h29]
  rfl
/-- The negative column. -/
theorem G_v71 (W : Valuation τ sig (Elt F)) (x0 : Arg0 F) (x1 : Arg1 F) (x2 : Arg2 F)
    (h37 : W (Proc.devRef .tc main_v37) = val_main_v37 (F := F) x0 x1)
    (h29 : W (Proc.devRef .tc main_v29) = val_main_v29 (F := F) x2) :
    after opsG W (Proc.devRef .tc main_v71) = val_main_v71 (F := F) x0 x1 x2 := by
  after_results_simp
  rw [h37, h29]
  rfl

/-! ## Stretch H: the softplus of the positive column

In its stable form: the larger of the value and zero, plus log1p of the exponential of minus the absolute value;
the value itself where it is not a number. -/

abbrev opsH : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S4096, .f32⟩) main_call4_v0) (broadcastInDim S4096 ![] bcast_S_S4096),
    TRef.binary (TRef.of (T := ⟨S4096, .f32⟩) main_v54) (TRef.of (T := ⟨S4096, .f32⟩) main_call4_v0) (TRef.of (T := ⟨S4096, .f32⟩) main_call4_v1) maximumf,
    TRef.unary (TRef.of (T := ⟨S_, .f32⟩) main_call4_cst) (TRef.of (T := ⟨S4096, .f32⟩) main_call4_v2) (broadcastInDim S4096 ![] bcast_S_S4096),
    TRef.binary (TRef.of (T := ⟨S4096, .f32⟩) main_v54) (TRef.of (T := ⟨S4096, .f32⟩) main_call4_v2) (TRef.of (T := ⟨S4096, .f32⟩) main_call4_v3) subf,
    TRef.binary (TRef.of (T := ⟨S4096, .f32⟩) main_call4_v3) (TRef.of (T := ⟨S4096, .f32⟩) main_call4_v3) (TRef.of (T := ⟨S4096, .i1⟩) main_call4_v4) (cmpf .une),
    TRef.unary (TRef.of (T := ⟨S_, .f32⟩) main_call4_cst) (TRef.of (T := ⟨S4096, .f32⟩) main_call4_v5) (broadcastInDim S4096 ![] bcast_S_S4096),
    TRef.binary (TRef.of (T := ⟨S4096, .f32⟩) main_v54) (TRef.of (T := ⟨S4096, .f32⟩) main_call4_v5) (TRef.of (T := ⟨S4096, .f32⟩) main_call4_v6) addf,
    TRef.unary (TRef.of (T := ⟨S4096, .f32⟩) main_call4_v3) (TRef.of (T := ⟨S4096, .f32⟩) main_call4_v7) Host.absf,
    TRef.unary (TRef.of (T := ⟨S4096, .f32⟩) main_call4_v7) (TRef.of (T := ⟨S4096, .f32⟩) main_call4_v8) Host.negf,
    TRef.unary (TRef.of (T := ⟨S4096, .f32⟩) main_call4_v8) (TRef.of (T := ⟨S4096, .f32⟩) main_call4_v9) Host.exp,
    TRef.unary (TRef.of (T := ⟨S4096, .f32⟩) main_call4_v9) (TRef.of (T := ⟨S4096, .f32⟩) main_call4_v10) Host.log1p,
    TRef.binary (TRef.of (T := ⟨S4096, .f32⟩) main_call4_v1) (TRef.of (T := ⟨S4096, .f32⟩) main_call4_v10) (TRef.of (T := ⟨S4096, .f32⟩) main_call4_v11) addf,
    TRef.ternary (TRef.of (T := ⟨S4096, .i1⟩) main_call4_v4) (TRef.of (T := ⟨S4096, .f32⟩) main_call4_v6) (TRef.of (T := ⟨S4096, .f32⟩) main_call4_v11) (TRef.of (T := ⟨S4096, .f32⟩) main_v72) select ]

/-- The references stretch H writes. -/
abbrev wrH : List (Ref sig .tc) :=
  [main_call4_cst, main_call4_v0, main_call4_v1, main_call4_v2, main_call4_v3, main_call4_v4, main_call4_v5,
   main_call4_v6, main_call4_v7, main_call4_v8, main_call4_v9, main_call4_v10, main_call4_v11, main_v72]

theorem opsH_sub : (opsH : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem opsH_fresh : (opsH : List (HloOp τ sig (Elt F))).Forall fun op => op.fresh = ∅ := by
  simp only [List.Forall]; and_intros <;> rfl
theorem opsH_writes : (opsH : List (HloOp τ sig (Elt F))).Forall fun op =>
    op.writes ⊆ (wrH.map (Proc.devRef (τ := τ) .tc)).toFinset := by
  simp only [List.Forall]; and_intros <;> written_in_list
/-- Stretch H keeps every buffer it does not write. -/
theorem keepH (W : Valuation τ sig (Elt F)) (r : Ref sig .tc) (h : r ∉ wrH) :
    after opsH W (Proc.devRef .tc r) = W (Proc.devRef .tc r) :=
  after_of_writes_sub opsH W opsH_writes h

/-- The softplus of the positive column. -/
theorem H_v72 (W : Valuation τ sig (Elt F)) (x0 : Arg0 F) (x1 : Arg1 F) (x2 : Arg2 F)
    (h54 : W (Proc.devRef .tc main_v54) = val_main_v54 (F := F) x0 x1 x2) :
    after opsH W (Proc.devRef .tc main_v72) = val_main_v72 (F := F) x0 x1 x2 := by
  after_results_simp
  rw [h54]
  rfl

/-! ## Stretch I: the softplus of the negative column, in the same stable form -/

abbrev opsI : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S16384, .f32⟩) main_call5_v0) (broadcastInDim S16384 ![] bcast_S_S16384),
    TRef.binary (TRef.of (T := ⟨S16384, .f32⟩) main_v71) (TRef.of (T := ⟨S16384, .f32⟩) main_call5_v0) (TRef.of (T := ⟨S16384, .f32⟩) main_call5_v1) maximumf,
    TRef.unary (TRef.of (T := ⟨S_, .f32⟩) main_call5_cst) (TRef.of (T := ⟨S16384, .f32⟩) main_call5_v2) (broadcastInDim S16384 ![] bcast_S_S16384),
    TRef.binary (TRef.of (T := ⟨S16384, .f32⟩) main_v71) (TRef.of (T := ⟨S16384, .f32⟩) main_call5_v2) (TRef.of (T := ⟨S16384, .f32⟩) main_call5_v3) subf,
    TRef.binary (TRef.of (T := ⟨S16384, .f32⟩) main_call5_v3) (TRef.of (T := ⟨S16384, .f32⟩) main_call5_v3) (TRef.of (T := ⟨S16384, .i1⟩) main_call5_v4) (cmpf .une),
    TRef.unary (TRef.of (T := ⟨S_, .f32⟩) main_call5_cst) (TRef.of (T := ⟨S16384, .f32⟩) main_call5_v5) (broadcastInDim S16384 ![] bcast_S_S16384),
    TRef.binary (TRef.of (T := ⟨S16384, .f32⟩) main_v71) (TRef.of (T := ⟨S16384, .f32⟩) main_call5_v5) (TRef.of (T := ⟨S16384, .f32⟩) main_call5_v6) addf,
    TRef.unary (TRef.of (T := ⟨S16384, .f32⟩) main_call5_v3) (TRef.of (T := ⟨S16384, .f32⟩) main_call5_v7) Host.absf,
    TRef.unary (TRef.of (T := ⟨S16384, .f32⟩) main_call5_v7) (TRef.of (T := ⟨S16384, .f32⟩) main_call5_v8) Host.negf,
    TRef.unary (TRef.of (T := ⟨S16384, .f32⟩) main_call5_v8) (TRef.of (T := ⟨S16384, .f32⟩) main_call5_v9) Host.exp,
    TRef.unary (TRef.of (T := ⟨S16384, .f32⟩) main_call5_v9) (TRef.of (T := ⟨S16384, .f32⟩) main_call5_v10) Host.log1p,
    TRef.binary (TRef.of (T := ⟨S16384, .f32⟩) main_call5_v1) (TRef.of (T := ⟨S16384, .f32⟩) main_call5_v10) (TRef.of (T := ⟨S16384, .f32⟩) main_call5_v11) addf,
    TRef.ternary (TRef.of (T := ⟨S16384, .i1⟩) main_call5_v4) (TRef.of (T := ⟨S16384, .f32⟩) main_call5_v6) (TRef.of (T := ⟨S16384, .f32⟩) main_call5_v11) (TRef.of (T := ⟨S16384, .f32⟩) main_v73) select ]

/-- The references stretch I writes. -/
abbrev wrI : List (Ref sig .tc) :=
  [main_call5_cst, main_call5_v0, main_call5_v1, main_call5_v2, main_call5_v3, main_call5_v4, main_call5_v5,
   main_call5_v6, main_call5_v7, main_call5_v8, main_call5_v9, main_call5_v10, main_call5_v11, main_v73]

theorem opsI_sub : (opsI : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem opsI_fresh : (opsI : List (HloOp τ sig (Elt F))).Forall fun op => op.fresh = ∅ := by
  simp only [List.Forall]; and_intros <;> rfl
theorem opsI_writes : (opsI : List (HloOp τ sig (Elt F))).Forall fun op =>
    op.writes ⊆ (wrI.map (Proc.devRef (τ := τ) .tc)).toFinset := by
  simp only [List.Forall]; and_intros <;> written_in_list
/-- Stretch I keeps every buffer it does not write. -/
theorem keepI (W : Valuation τ sig (Elt F)) (r : Ref sig .tc) (h : r ∉ wrI) :
    after opsI W (Proc.devRef .tc r) = W (Proc.devRef .tc r) :=
  after_of_writes_sub opsI W opsI_writes h

/-- The softplus of the negative column. -/
theorem I_v73 (W : Valuation τ sig (Elt F)) (x0 : Arg0 F) (x1 : Arg1 F) (x2 : Arg2 F)
    (h71 : W (Proc.devRef .tc main_v71) = val_main_v71 (F := F) x0 x1 x2) :
    after opsI W (Proc.devRef .tc main_v73) = val_main_v73 (F := F) x0 x1 x2 := by
  after_results_simp
  rw [h71]
  rfl

/-! ## Stretch J: the two masked means and their sum

On each side: the softplus values where the flag is set and zero elsewhere, summed; the flags counted, the count
raised to at least one; the sum divided by the count. The result is the sum of the two means. -/

abbrev opsJ : List (HloOp τ sig (Elt F)) :=
  [ nullary main_cst_16 (constant S_ .f32 0x00000000#32),
    TRef.unary (TRef.of (T := ⟨S_, .f32⟩) main_cst_16) (TRef.of (T := ⟨S_, .f32⟩) main_call6_v0) id,
    TRef.unary (TRef.of (T := ⟨S_, .f32⟩) main_call6_v0) (TRef.of (T := ⟨S4096, .f32⟩) main_call6_v1) (broadcastInDim S4096 ![] bcast_S_S4096),
    TRef.ternary (TRef.of (T := ⟨S4096, .i1⟩) main_v45) (TRef.of (T := ⟨S4096, .f32⟩) main_v72) (TRef.of (T := ⟨S4096, .f32⟩) main_call6_v1) (TRef.of (T := ⟨S4096, .f32⟩) main_v74) select,
    nullary main_cst_17 (constant S_ .f32 0x00000000#32),
    binary main_v74 main_cst_17 main_v75 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v45 main_v76 ((extui 32 · natLt_1_32) : (⟨S4096, .i1⟩ : BufTy).Contents (Elt F) → (⟨S4096, .i32⟩ : BufTy).Contents (Elt F)),
    nullary main_c_18 (constantI S_ 32 0#32),
    binary main_v76 main_c_18 main_v77 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_c_19 (constantI S_ 32 1#32),
    binary main_v77 main_c_19 main_v78 (maxsi : (⟨S_, .i32⟩ : BufTy).Contents (Elt F) → (⟨S_, .i32⟩ : BufTy).Contents (Elt F) → (⟨S_, .i32⟩ : BufTy).Contents (Elt F)),
    unary main_v78 main_v79 (sitofp .f32 : (⟨S_, .i32⟩ : BufTy).Contents (Elt F) → (⟨S_, .f32⟩ : BufTy).Contents (Elt F)),
    binary main_v75 main_v79 main_v80 (Host.divf : (⟨S_, .f32⟩ : BufTy).Contents (Elt F) → (⟨S_, .f32⟩ : BufTy).Contents (Elt F) → (⟨S_, .f32⟩ : BufTy).Contents (Elt F)),
    nullary main_cst_20 (constant S_ .f32 0x00000000#32),
    TRef.unary (TRef.of (T := ⟨S_, .f32⟩) main_cst_20) (TRef.of (T := ⟨S_, .f32⟩) main_call7_v0) id,
    TRef.unary (TRef.of (T := ⟨S_, .f32⟩) main_call7_v0) (TRef.of (T := ⟨S16384, .f32⟩) main_call7_v1) (broadcastInDim S16384 ![] bcast_S_S16384),
    TRef.ternary (TRef.of (T := ⟨S16384, .i1⟩) main_v62) (TRef.of (T := ⟨S16384, .f32⟩) main_v73) (TRef.of (T := ⟨S16384, .f32⟩) main_call7_v1) (TRef.of (T := ⟨S16384, .f32⟩) main_v81) select,
    nullary main_cst_21 (constant S_ .f32 0x00000000#32),
    binary main_v81 main_cst_21 main_v82 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    unary main_v62 main_v83 ((extui 32 · natLt_1_32) : (⟨S16384, .i1⟩ : BufTy).Contents (Elt F) → (⟨S16384, .i32⟩ : BufTy).Contents (Elt F)),
    nullary main_c_22 (constantI S_ 32 0#32),
    binary main_v83 main_c_22 main_v84 ((fun x v => Host.reduce IntOp.addi x v reducesTo_S16384_S_d0 h_S_) : (⟨S16384, .i32⟩ : BufTy).Contents (Elt F) → (⟨S_, .i32⟩ : BufTy).Contents (Elt F) → (⟨S_, .i32⟩ : BufTy).Contents (Elt F)),
    nullary main_c_23 (constantI S_ 32 1#32),
    binary main_v84 main_c_23 main_v85 (maxsi : (⟨S_, .i32⟩ : BufTy).Contents (Elt F) → (⟨S_, .i32⟩ : BufTy).Contents (Elt F) → (⟨S_, .i32⟩ : BufTy).Contents (Elt F)),
    unary main_v85 main_v86 (sitofp .f32 : (⟨S_, .i32⟩ : BufTy).Contents (Elt F) → (⟨S_, .f32⟩ : BufTy).Contents (Elt F)),
    binary main_v82 main_v86 main_v87 (Host.divf : (⟨S_, .f32⟩ : BufTy).Contents (Elt F) → (⟨S_, .f32⟩ : BufTy).Contents (Elt F) → (⟨S_, .f32⟩ : BufTy).Contents (Elt F)),
    binary main_v80 main_v87 main_v88 (addf : (⟨S_, .f32⟩ : BufTy).Contents (Elt F) → (⟨S_, .f32⟩ : BufTy).Contents (Elt F) → (⟨S_, .f32⟩ : BufTy).Contents (Elt F)) ]

/-- The references stretch J writes. -/
abbrev wrJ : List (Ref sig .tc) :=
  [main_cst_16, main_call6_v0, main_call6_v1, main_v74, main_cst_17, main_v75, main_v76, main_c_18, main_v77,
   main_c_19, main_v78, main_v79, main_v80, main_cst_20, main_call7_v0, main_call7_v1, main_v81, main_cst_21,
   main_v82, main_v83, main_c_22, main_v84, main_c_23, main_v85, main_v86, main_v87, main_v88]

theorem opsJ_sub : (opsJ : List (HloOp τ sig (Elt F))).Forall fun op => op.bufs ⊆ tcRefs τ sig :=
  ⟨nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., unary_bufs_sub .., binary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., unary_bufs_sub .., binary_bufs_sub .., binary_bufs_sub ..⟩
theorem opsJ_fresh : (opsJ : List (HloOp τ sig (Elt F))).Forall fun op => op.fresh = ∅ := by
  simp only [List.Forall]; and_intros <;> rfl
theorem opsJ_writes : (opsJ : List (HloOp τ sig (Elt F))).Forall fun op =>
    op.writes ⊆ (wrJ.map (Proc.devRef (τ := τ) .tc)).toFinset := by
  simp only [List.Forall]; and_intros <;> written_in_list
/-- Stretch J keeps every buffer it does not write. -/
theorem keepJ (W : Valuation τ sig (Elt F)) (r : Ref sig .tc) (h : r ∉ wrJ) :
    after opsJ W (Proc.devRef .tc r) = W (Proc.devRef .tc r) :=
  after_of_writes_sub opsJ W opsJ_writes h

/-- The loss: the sum of the two masked means, from the two flags and the two softplus columns. -/
theorem J_v88 (W : Valuation τ sig (Elt F)) (x0 : Arg0 F) (x1 : Arg1 F) (x2 : Arg2 F)
    (h45 : W (Proc.devRef .tc main_v45) = val_main_v45 (F := F) x0 x1 x2)
    (h72 : W (Proc.devRef .tc main_v72) = val_main_v72 (F := F) x0 x1 x2)
    (h62 : W (Proc.devRef .tc main_v62) = val_main_v62 (F := F) x0 x1 x2)
    (h73 : W (Proc.devRef .tc main_v73) = val_main_v73 (F := F) x0 x1 x2) :
    after opsJ W (Proc.devRef .tc main_v88) = val_main_v88 (F := F) x0 x1 x2 := by
  after_results_simp
  rw [h45, h72, h62, h73]
  rfl

/-! ## The whole line -/

/-- The operations of the program's first printed window: stretches A to E. -/
abbrev opsP0 : List (HloOp τ sig (Elt F)) := opsA ++ (opsB ++ (opsC ++ (opsD ++ opsE)))
/-- The operations of the program's second printed window: stretches F to J. -/
abbrev opsP1 : List (HloOp τ sig (Elt F)) := opsF ++ (opsG ++ (opsH ++ (opsI ++ opsJ)))
/-- The program's 157 operations, in order: the ten stretches one after the other. -/
abbrev ops : List (HloOp τ sig (Elt F)) := opsP0 ++ opsP1

set_option maxRecDepth 8192 in
set_option maxHeartbeats 4000000 in
/-- The program's first printed window is stretches A to E. -/
theorem main_part0_eq (c : Dev nD) : main_part0 (F := F) c = seq opsP0 := rfl
/-- A chain of lines of operations is the one line of all of them. -/
theorem chain_map_seq {n : Nat} {t : Topo} {s : RefSig} {Val : EltTy → Type} {L : Labels} :
    ∀ ls : List (List (HloOp t s Val)), Pipeline.chain (ls.map (seq (nD := n) (Λ := L))) = seq ls.flatten
  | [] => rfl
  | l :: ls => by rw [List.map_cons, Pipeline.chain_cons, List.flatten_cons, seq_append, chain_map_seq ls]

/-- Each call of a module-local function in the second window is the line of that function's operations over
    the call's own buffers: a slice of the stretch the call lies in. -/
theorem call2_eq : fn_where.body (F := F) (.of main_v45) (.of main_v50) (.of main_cst_9) main_call2
    = seq ((opsF.drop 3).take 3) := by chain_rfl
theorem call3_eq : fn_where_1.body (F := F) (.of main_v62) (.of main_v67) (.of main_cst_15) main_call3
    = seq ((opsG.drop 19).take 3) := by chain_rfl
theorem call4_eq : fn_softplus.body (F := F) (.of main_v54) main_call4 = seq opsH := by chain_rfl
theorem call5_eq : fn_softplus_2.body (F := F) (.of main_v71) main_call5 = seq opsI := by chain_rfl
theorem call6_eq : fn_where.body (F := F) (.of main_v45) (.of main_v72) (.of main_cst_16) main_call6
    = seq ((opsJ.drop 1).take 3) := by chain_rfl
theorem call7_eq : fn_where_1.body (F := F) (.of main_v62) (.of main_v73) (.of main_cst_20) main_call7
    = seq ((opsJ.drop 14).take 3) := by chain_rfl

/-- The program's second printed window as a chain of thirteen items: the lines between its six calls, and the
    calls themselves, each left folded. -/
theorem main_part1_chain (c : Dev nD) : main_part1 (F := F) c = Pipeline.chain
    [ seq (opsF.take 3), fn_where.body (.of main_v45) (.of main_v50) (.of main_cst_9) main_call2, seq (opsF.drop 6),
      seq (opsG.take 19), fn_where_1.body (.of main_v62) (.of main_v67) (.of main_cst_15) main_call3, seq (opsG.drop 22),
      fn_softplus.body (.of main_v54) main_call4, fn_softplus_2.body (.of main_v71) main_call5,
      seq (opsJ.take 1), fn_where.body (.of main_v45) (.of main_v72) (.of main_cst_16) main_call6,
      seq ((opsJ.drop 4).take 10), fn_where_1.body (.of main_v62) (.of main_v73) (.of main_cst_20) main_call7,
      seq (opsJ.drop 17) ] := by chain_rfl

/-- The program's second printed window is stretches F to J. -/
theorem main_part1_eq (c : Dev nD) : main_part1 (F := F) c = seq opsP1 := by
  rw [main_part1_chain, call2_eq, call3_eq, call4_eq, call5_eq, call6_eq, call7_eq]
  exact (chain_map_seq [opsF.take 3, (opsF.drop 3).take 3, opsF.drop 6, opsG.take 19, (opsG.drop 19).take 3,
      opsG.drop 22, opsH, opsI, opsJ.take 1, (opsJ.drop 1).take 3, (opsJ.drop 4).take 10, (opsJ.drop 14).take 3,
      opsJ.drop 17]).trans (congrArg seq (by chain_rfl))
/-- The program is its two windows in turn, hence the whole line. -/
theorem main_eq (c : Dev nD) : main (F := F) c = seq ops := by
  show (main_part0 (F := F) c >>= fun _ => main_part1 (F := F) c) = seq (opsP0 ++ opsP1)
  rw [seq_append, main_part0_eq, main_part1_eq]
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append
    (forall_append opsA_sub (forall_append opsB_sub (forall_append opsC_sub (forall_append opsD_sub opsE_sub))))
    (forall_append opsF_sub (forall_append opsG_sub (forall_append opsH_sub (forall_append opsI_sub opsJ_sub))))
theorem ops_fresh : ∀ op ∈ (ops : List (HloOp τ sig (Elt F))), op.fresh = ∅ :=
  List.forall_iff_forall_mem.mp
    (forall_append
      (forall_append opsA_fresh (forall_append opsB_fresh (forall_append opsC_fresh
        (forall_append opsD_fresh opsE_fresh))))
      (forall_append opsF_fresh (forall_append opsG_fresh (forall_append opsH_fresh
        (forall_append opsI_fresh opsJ_fresh)))))

/-- The buffers' contents after each stretch, from contents `V`. -/
abbrev VA (V : Valuation τ sig (Elt F)) : Valuation τ sig (Elt F) := after opsA V
abbrev VB (V : Valuation τ sig (Elt F)) : Valuation τ sig (Elt F) := after opsB (VA V)
abbrev VC (V : Valuation τ sig (Elt F)) : Valuation τ sig (Elt F) := after opsC (VB V)
abbrev VD (V : Valuation τ sig (Elt F)) : Valuation τ sig (Elt F) := after opsD (VC V)
abbrev VE (V : Valuation τ sig (Elt F)) : Valuation τ sig (Elt F) := after opsE (VD V)
abbrev VF (V : Valuation τ sig (Elt F)) : Valuation τ sig (Elt F) := after opsF (VE V)
abbrev VG (V : Valuation τ sig (Elt F)) : Valuation τ sig (Elt F) := after opsG (VF V)
abbrev VH (V : Valuation τ sig (Elt F)) : Valuation τ sig (Elt F) := after opsH (VG V)
abbrev VI (V : Valuation τ sig (Elt F)) : Valuation τ sig (Elt F) := after opsI (VH V)
abbrev VJ (V : Valuation τ sig (Elt F)) : Valuation τ sig (Elt F) := after opsJ (VI V)

/-- Running the whole line is running the ten stretches in turn. -/
theorem after_ops_eq (V : Valuation τ sig (Elt F)) : after ops V = VJ V := by
  show after ((opsA ++ (opsB ++ (opsC ++ (opsD ++ opsE)))) ++ (opsF ++ (opsG ++ (opsH ++ (opsI ++ opsJ))))) V = _
  rw [after_append, after_append, after_append, after_append, after_append, after_append, after_append,
    after_append, after_append]

/-- The ten stretches chained: from contents holding `x0`, `x1`, `x2` in the three argument buffers, the result
    buffer ends at the last stage of them and the argument buffers are as they were. After each stretch the facts
    carried on are the three arguments and the stage values later stretches read. -/
theorem after_stretches (V : Valuation τ sig (Elt F)) (x0 : Arg0 F) (x1 : Arg1 F) (x2 : Arg2 F)
    (a0 : V (Proc.devRef .tc main_arg0) = x0) (a1 : V (Proc.devRef .tc main_arg1) = x1)
    (a2 : V (Proc.devRef .tc main_arg2) = x2) :
    VJ V (Proc.devRef .tc main_v88) = val_main_v88 (F := F) x0 x1 x2
      ∧ VJ V (Proc.devRef .tc main_arg0) = x0 ∧ VJ V (Proc.devRef .tc main_arg1) = x1
      ∧ VJ V (Proc.devRef .tc main_arg2) = x2 := by
  -- after A: the two normalised arrays
  have hA0 := (keepA V main_arg0 (by decide)).trans a0
  have hA1 := (keepA V main_arg1 (by decide)).trans a1
  have hA2 := (keepA V main_arg2 (by decide)).trans a2
  have hA_v2 := A_v2 V x0 a0
  have hA_v5 := A_v5 V x1 a1
  -- after B: the two similarity arrays
  have hB0 := (keepB (VA V) main_arg0 (by decide)).trans hA0
  have hB1 := (keepB (VA V) main_arg1 (by decide)).trans hA1
  have hB2 := (keepB (VA V) main_arg2 (by decide)).trans hA2
  have hB_v14 := B_v14 (VA V) x0 x1 x2 hA_v2 hA_v5 hA2
  have hB_v16 := B_v16 (VA V) x0 x1 hA_v2 hA_v5
  -- after C: the two masks as well
  have hC0 := (keepC (VB V) main_arg0 (by decide)).trans hB0
  have hC1 := (keepC (VB V) main_arg1 (by decide)).trans hB1
  have hC2 := (keepC (VB V) main_arg2 (by decide)).trans hB2
  have hC_v14 := (keepC (VB V) main_v14 (by decide)).trans hB_v14
  have hC_v16 := (keepC (VB V) main_v16 (by decide)).trans hB_v16
  have hC_v22 := C_v22 (VB V) x2 hB2
  have hC_v29 := C_v29 (VB V) x2 hB2
  -- after D: the masks and the two scaled similarity arrays
  have hD0 := (keepD (VC V) main_arg0 (by decide)).trans hC0
  have hD1 := (keepD (VC V) main_arg1 (by decide)).trans hC1
  have hD2 := (keepD (VC V) main_arg2 (by decide)).trans hC2
  have hD_v22 := (keepD (VC V) main_v22 (by decide)).trans hC_v22
  have hD_v29 := (keepD (VC V) main_v29 (by decide)).trans hC_v29
  have hD_v33 := D_v33 (VC V) x0 x1 x2 hC_v14
  have hD_v37 := D_v37 (VC V) x0 x1 hC_v16
  -- after E: the positive side's shift, flag and masked exponentials; the negative side's inputs kept
  have hE0 := (keepE (VD V) main_arg0 (by decide)).trans hD0
  have hE1 := (keepE (VD V) main_arg1 (by decide)).trans hD1
  have hE2 := (keepE (VD V) main_arg2 (by decide)).trans hD2
  have hE_v29 := (keepE (VD V) main_v29 (by decide)).trans hD_v29
  have hE_v37 := (keepE (VD V) main_v37 (by decide)).trans hD_v37
  have hE_v40 := E_v40 (VD V) x0 x1 x2 hD_v33 hD_v22
  have hE_v45 := E_v45 (VD V) x0 x1 x2 hD_v33 hD_v22
  have hE_v49 := E_v49 (VD V) x0 x1 x2 hD_v33 hD_v22
  -- after F: the positive column and its flag
  have hF0 := (keepF (VE V) main_arg0 (by decide)).trans hE0
  have hF1 := (keepF (VE V) main_arg1 (by decide)).trans hE1
  have hF2 := (keepF (VE V) main_arg2 (by decide)).trans hE2
  have hF_v29 := (keepF (VE V) main_v29 (by decide)).trans hE_v29
  have hF_v37 := (keepF (VE V) main_v37 (by decide)).trans hE_v37
  have hF_v45 := (keepF (VE V) main_v45 (by decide)).trans hE_v45
  have hF_v54 := F_v54 (VE V) x0 x1 x2 hE_v49 hE_v45 hE_v40
  -- after G: both columns and both flags
  have hG0 := (keepG (VF V) main_arg0 (by decide)).trans hF0
  have hG1 := (keepG (VF V) main_arg1 (by decide)).trans hF1
  have hG2 := (keepG (VF V) main_arg2 (by decide)).trans hF2
  have hG_v45 := (keepG (VF V) main_v45 (by decide)).trans hF_v45
  have hG_v54 := (keepG (VF V) main_v54 (by decide)).trans hF_v54
  have hG_v62 := G_v62 (VF V) x0 x1 x2 hF_v37 hF_v29
  have hG_v71 := G_v71 (VF V) x0 x1 x2 hF_v37 hF_v29
  -- after H: the positive softplus
  have hH0 := (keepH (VG V) main_arg0 (by decide)).trans hG0
  have hH1 := (keepH (VG V) main_arg1 (by decide)).trans hG1
  have hH2 := (keepH (VG V) main_arg2 (by decide)).trans hG2
  have hH_v45 := (keepH (VG V) main_v45 (by decide)).trans hG_v45
  have hH_v62 := (keepH (VG V) main_v62 (by decide)).trans hG_v62
  have hH_v71 := (keepH (VG V) main_v71 (by decide)).trans hG_v71
  have hH_v72 := H_v72 (VG V) x0 x1 x2 hG_v54
  -- after I: the negative softplus
  have hI0 := (keepI (VH V) main_arg0 (by decide)).trans hH0
  have hI1 := (keepI (VH V) main_arg1 (by decide)).trans hH1
  have hI2 := (keepI (VH V) main_arg2 (by decide)).trans hH2
  have hI_v45 := (keepI (VH V) main_v45 (by decide)).trans hH_v45
  have hI_v62 := (keepI (VH V) main_v62 (by decide)).trans hH_v62
  have hI_v72 := (keepI (VH V) main_v72 (by decide)).trans hH_v72
  have hI_v73 := I_v73 (VH V) x0 x1 x2 hH_v71
  -- after J: the loss
  have hJ0 := (keepJ (VI V) main_arg0 (by decide)).trans hI0
  have hJ1 := (keepJ (VI V) main_arg1 (by decide)).trans hI1
  have hJ2 := (keepJ (VI V) main_arg2 (by decide)).trans hI2
  have hJ_v88 := J_v88 (VI V) x0 x1 x2 hI_v45 hI_v72 hI_v62 hI_v73
  exact ⟨hJ_v88, hJ0, hJ1, hJ2⟩

/-- On every device, for any float values, from any memory with zero counters: every weakly fair execution of
    the program terminates with the result buffer at the last stage of the three arguments' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = val_main_v88 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨h88, h0, h1, h2⟩ := after_stretches (F := F) (launchContents m c) _ _ _ rfl rfl rfl
      have e := after_ops_eq (F := F) (launchContents m c)
      exact ⟨(h c main_v88).trans ((congrFun e _).trans h88), (h c main_arg0).trans ((congrFun e _).trans h0),
        (h c main_arg1).trans ((congrFun e _).trans h1), (h c main_arg2).trans ((congrFun e _).trans h2)⟩)
    (run_seq scopedRefs_eq scopedSems_eq defs main (fun _ => ops) main_eq (fun _ => ops_sub) m ρ (fun _ => ops_fresh))

end Cert.ReferenceIdeal.RefRun

end
-- ==== Proof.Ref.Columns.lean ====
/-
  The reference program's two column computations, read down to the specification at exact arithmetic.

  The reference scales every batch row and every table row to unit length, gathers the table row each label selects,
  forms the two similarity matrices (batch against gathered rows, batch against the whole table), subtracts the margin
  and scales, masks by label agreement, and reduces every column over the batch rows: minimum, maximum, the count flag
  "maximum plus minimum is non-zero", and the masked sum of exponentials about the reference point (the minimum for a
  positive column, the maximum for a negative one). This module reads each of those stages at an index and identifies
  the result with the specification's `posCol` and `negCol`.

  The steps, bottom-up: a row's sum of squares and the unit row; the gathered row (the start index is the wrapped
  label, read signed and clamped into the table, which is `rowOf`); the two products as inner products of unit rows;
  the two masks as indicators; the scaled similarities `wPos`, `wNeg`; a reduction over the batch axis from +∞ by
  minimum as a `Finset.inf` and from -∞ by maximum as a `Finset.sup`; and the column itself.
-/
import proofs.«402344_j24489903522255_3_alg».proof.Proof.Spec
import proofs.«402344_j24489903522255_3_alg».proof.Proof.LibERealRows
import proofs.«402344_j24489903522255_3_alg».proof.Proof.Ref.ReadP
import Idealize.ShloMosaic.Lib.ValueIdx
import Idealize.ShloMosaic.Lib.Pipeline.Value
import Idealize.ShloMosaic.Lib.ValueLayout
import Idealize.ShloMosaic.Lib.ReduceAll
import Idealize.ShloMosaic.PureOps.Ideal.Laws

noncomputable section

namespace Cert.ReferenceIdeal.RefValue

open Cert.ReferenceIdeal Cert.ReferenceIdeal.Gen Cert.ReferenceIdeal.ReadP Cert.LossSpec Idealize.ShloMosaic
  Idealize.ShloMosaic.ValueIdx

/-- The three argument arrays as plain functions. -/
def arrX (x0 : (⟨S4096x128, .f32⟩ : BufTy).Contents (Elt Ideal)) (i : Fin 4096) (d : Fin 128) : EReal := x0 (ix2 i d)
def arrP (x1 : (⟨S16384x128, .f32⟩ : BufTy).Contents (Elt Ideal)) (k : Fin 16384) (d : Fin 128) : EReal := x1 (ix2 k d)
def arrL (x2 : (⟨S4096, .i32⟩ : BufTy).Contents (Elt Ideal)) (i : Fin 4096) : BitVec 32 := x2 (ix1 i)

/-! ## Unit rows -/

/-- The reduced sum of squares of batch row `i`. -/
theorem ssqX_at (x0 : (⟨S4096x128, .f32⟩ : BufTy).Contents (Elt Ideal)) (i : Fin 4096) :
    val_main_call0_v1 (F := Ideal) x0 (ix1 i) = ssq (arrX x0 i) := by
  rw [val_main_call0_v1_apply]
  show Ideal.ofBits .f32 0x00000000#32 + _ = _
  rw [Ideal.ofBits_zero_f32, zero_add]
  refine Finset.sum_congr rfl fun k _ => ?_
  have e : idx_main_call0_v1 (ix1 i) k = ix2 i k :=
    funext fun a => Fin.ext (by match a with | ⟨0, _⟩ => rfl | ⟨1, _⟩ => rfl)
  rw [e]
  rfl

/-- Batch row `i` divided by its length. -/
theorem v2_at (x0 : (⟨S4096x128, .f32⟩ : BufTy).Contents (Elt Ideal)) (i : Fin 4096) (d : Fin 128) :
    val_main_v2 (F := Ideal) x0 (ix2 i d) = unitDiv (arrX x0 i) d := by
  rw [val_main_v2_apply, val_main_v1_apply, val_main_v0_apply, val_main_call0_v2_apply]
  have e : idx_main_call0_v2 (idx_main_v1 (ix2 i d)) = ix1 i :=
    funext fun a => Fin.ext (by match a with | ⟨0, _⟩ => rfl)
  rw [e, ssqX_at]
  rfl

/-- The reduced sum of squares of table row `k`. -/
theorem ssqP_at (x1 : (⟨S16384x128, .f32⟩ : BufTy).Contents (Elt Ideal)) (k : Fin 16384) :
    val_main_call1_v1 (F := Ideal) x1 (ix1 k) = ssq (arrP x1 k) := by
  rw [val_main_call1_v1_apply]
  show Ideal.ofBits .f32 0x00000000#32 + _ = _
  rw [Ideal.ofBits_zero_f32, zero_add]
  refine Finset.sum_congr rfl fun c _ => ?_
  have e : idx_main_call1_v1 (ix1 k) c = ix2 k c :=
    funext fun a => Fin.ext (by match a with | ⟨0, _⟩ => rfl | ⟨1, _⟩ => rfl)
  rw [e]
  rfl

/-- Table row `k` divided by its length. -/
theorem v5_at (x1 : (⟨S16384x128, .f32⟩ : BufTy).Contents (Elt Ideal)) (k : Fin 16384) (d : Fin 128) :
    val_main_v5 (F := Ideal) x1 (ix2 k d) = unitDiv (arrP x1 k) d := by
  rw [val_main_v5_apply, val_main_v4_apply, val_main_v3_apply, val_main_call1_v2_apply]
  have e : idx_main_call1_v2 (idx_main_v4 (ix2 k d)) = ix1 k :=
    funext fun a => Fin.ext (by match a with | ⟨0, _⟩ => rfl)
  rw [e, ssqP_at]
  rfl

/-! ## The gathered row -/

/-- The wrapped label: `l + 16384` when `l` is negative. -/
theorem v10_at (x2 : (⟨S4096, .i32⟩ : BufTy).Contents (Elt Ideal)) (j : Fin 4096) :
    val_main_v10 (F := Ideal) x2 (ix1 j) = wrapLabel (arrL x2 j) := by
  rw [val_main_v10_apply, val_main_v7_apply, val_main_v9_apply, val_main_v6_apply, val_main_v8_apply]
  show (if BitVec.ofBool ((arrL x2 j).slt 0#32) = 1 then arrL x2 j + 16384#32 else arrL x2 j)
    = if (arrL x2 j).slt 0#32 = true then arrL x2 j + 16384#32 else arrL x2 j
  generalize (arrL x2 j).slt 0#32 = b
  cases b <;> rfl

/-- The gather reads, at `(j, d)`, entry `d` of the unit table row that label `j` selects: on the collapsed axis the
    start index is the wrapped label read signed and clamped to the last row, on the offset axis the result's own
    coordinate. -/
theorem v12_at (x1 : (⟨S16384x128, .f32⟩ : BufTy).Contents (Elt Ideal)) (x2 : (⟨S4096, .i32⟩ : BufTy).Contents (Elt Ideal))
    (j : Fin 4096) (d : Fin 128) :
    val_main_v12 (F := Ideal) x1 x2 (ix2 j d) = val_main_v5 (F := Ideal) x1 (ix2 (rowOf (arrL x2 j)) d) := by
  unfold val_main_v12 Host.gather
  refine congrArg (val_main_v5 (F := Ideal) x1) ?_
  funext a
  refine Fin.ext ?_
  match a with
  | ⟨0, _⟩ =>
    show gather_S16384x128_S4096x1_S4096x128_1_0_n_n_0_1_1128.start (ix2 j d) (val_main_v11 (F := Ideal) x2) 0
        + gather_S16384x128_S4096x1_S4096x128_1_0_n_n_0_1_1128.batchCoord (ix2 j d) 0
        + gather_S16384x128_S4096x1_S4096x128_1_0_n_n_0_1_1128.offCoord (ix2 j d) 0 = (rowOf (arrL x2 j)).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x128_S4096x1_S4096x128_1_0_n_n_0_1_1128.startIndexMap from
      List.mem_singleton.mpr rfl)]
    have hsi : gather_S16384x128_S4096x1_S4096x128_1_0_n_n_0_1_1128.siIdx (ix2 j d)
        ⟨List.idxOf (0 : Fin 2) gather_S16384x128_S4096x1_S4096x128_1_0_n_n_0_1_1128.startIndexMap,
          List.idxOf_lt_length_iff.2 (List.mem_singleton.mpr rfl)⟩ = ix2 j (0 : Fin 1) := by
      funext b; refine Fin.ext ?_
      match b with
      | ⟨0, _⟩ => rfl
      | ⟨1, _⟩ => rfl
    rw [hsi, val_main_v11_apply]
    have e : idx_main_v11 (ix2 j (0 : Fin 1)) = ix1 j := funext fun a => Fin.ext (by match a with | ⟨0, _⟩ => rfl)
    rw [e, v10_at]
    rfl
  | ⟨1, _⟩ =>
    show gather_S16384x128_S4096x1_S4096x128_1_0_n_n_0_1_1128.start (ix2 j d) (val_main_v11 (F := Ideal) x2) 1
        + gather_S16384x128_S4096x1_S4096x128_1_0_n_n_0_1_1128.batchCoord (ix2 j d) 1
        + gather_S16384x128_S4096x1_S4096x128_1_0_n_n_0_1_1128.offCoord (ix2 j d) 1 = d.val
    rw [GatherDims.batchCoord_eq_zero _ _ _ List.not_mem_nil]
    have hs : gather_S16384x128_S4096x1_S4096x128_1_0_n_n_0_1_1128.start (ix2 j d) (val_main_v11 (F := Ideal) x2) 1 = 0 := by
      unfold GatherDims.start
      exact dif_neg (by decide)
    have ho : gather_S16384x128_S4096x1_S4096x128_1_0_n_n_0_1_1128.offCoord (ix2 j d) 1 = d.val := by
      unfold GatherDims.offCoord
      rw [dif_pos (by decide)]
      rfl
    rw [hs, ho, Nat.zero_add]

/-! ## The two products -/

/-- Batch row `i` against the gathered row of column `j`: the inner product of the two unit rows. -/
theorem v14_at (x0 : (⟨S4096x128, .f32⟩ : BufTy).Contents (Elt Ideal)) (x1 : (⟨S16384x128, .f32⟩ : BufTy).Contents (Elt Ideal))
    (x2 : (⟨S4096, .i32⟩ : BufTy).Contents (Elt Ideal)) (i j : Fin 4096) :
    val_main_v14 (F := Ideal) x0 x1 x2 (ix2 i j)
      = dot (unitDiv (arrX x0 i)) (unitDiv (arrP x1 (rowOf (arrL x2 j)))) := by
  rw [val_main_v14_apply]
  refine Finset.sum_congr rfl fun k _ => ?_
  have el : lidx_main_v14 (ix2 i j) k = ix2 i k :=
    funext fun a => Fin.ext (by match a with | ⟨0, _⟩ => rfl | ⟨1, _⟩ => rfl)
  have er : idx_main_v13 (ridx_main_v14 (ix2 i j) k) = ix2 j k :=
    funext fun a => Fin.ext (by match a with | ⟨0, _⟩ => rfl | ⟨1, _⟩ => rfl)
  rw [val_main_v13_apply, el, er, v2_at, v12_at, v5_at]

/-- Batch row `i` against table row `k`. -/
theorem v16_at (x0 : (⟨S4096x128, .f32⟩ : BufTy).Contents (Elt Ideal)) (x1 : (⟨S16384x128, .f32⟩ : BufTy).Contents (Elt Ideal))
    (i : Fin 4096) (k : Fin 16384) :
    val_main_v16 (F := Ideal) x0 x1 (ix2 i k) = dot (unitDiv (arrX x0 i)) (unitDiv (arrP x1 k)) := by
  rw [val_main_v16_apply]
  refine Finset.sum_congr rfl fun c _ => ?_
  have el : lidx_main_v16 (ix2 i k) c = ix2 i c :=
    funext fun a => Fin.ext (by match a with | ⟨0, _⟩ => rfl | ⟨1, _⟩ => rfl)
  have er : idx_main_v15 (ridx_main_v16 (ix2 i k) c) = ix2 k c :=
    funext fun a => Fin.ext (by match a with | ⟨0, _⟩ => rfl | ⟨1, _⟩ => rfl)
  rw [val_main_v15_apply, el, er, v2_at, v5_at]

/-! ## The masks -/

/-- The float read of a one-bit word that holds a truth value is its indicator. -/
private theorem bit_ind (c : Bool) : FloatOps.uitofp (F := Ideal) .f32 (BitVec.ofBool c) = ind c := by
  cases c
  · show (((BitVec.ofBool false).toNat : ℝ) : EReal) = 0
    simp
  · show (((BitVec.ofBool true).toNat : ℝ) : EReal) = 1
    simp

/-- Boolean equality of two words is the decided equation. -/
private theorem beq_decide (a b : BitVec 32) : (a == b) = decide (a = b) := by
  by_cases h : a = b <;> simp [h]

/-- Boolean inequality of two words is the decided negated equation. -/
private theorem bne_decide (a b : BitVec 32) : (a != b) = decide (a ≠ b) := by
  by_cases h : a = b <;> simp [h]

/-- The positive mask: batch rows `i` and `j` carry the same label. -/
theorem v22_at (x2 : (⟨S4096, .i32⟩ : BufTy).Contents (Elt Ideal)) (i j : Fin 4096) :
    val_main_v22 (F := Ideal) x2 (ix2 i j) = ind (maskPos (arrL x2) i j) := by
  rw [val_main_v22_apply, val_main_v21_apply, val_main_v19_apply, val_main_v20_apply, val_main_v17_apply,
    val_main_v18_apply]
  have e1 : idx_main_v17 (idx_main_v19 (ix2 i j)) = ix1 i := funext fun a => Fin.ext (by match a with | ⟨0, _⟩ => rfl)
  have e2 : idx_main_v18 (idx_main_v20 (ix2 i j)) = ix1 j := funext fun a => Fin.ext (by match a with | ⟨0, _⟩ => rfl)
  rw [e1, e2]
  show FloatOps.uitofp (F := Ideal) .f32 (BitVec.ofBool (arrL x2 i == arrL x2 j)) = ind (decide (arrL x2 i = arrL x2 j))
  rw [bit_ind, beq_decide]

/-- The negative mask: batch row `i` is not labelled `k`. -/
theorem v29_at (x2 : (⟨S4096, .i32⟩ : BufTy).Contents (Elt Ideal)) (i : Fin 4096) (k : Fin 16384) :
    val_main_v29 (F := Ideal) x2 (ix2 i k) = ind (maskNeg (arrL x2) i k) := by
  rw [val_main_v29_apply, val_main_v28_apply, val_main_v26_apply, val_main_v27_apply, val_main_v23_apply,
    val_main_v25_apply, val_main_v24_apply]
  have e1 : idx_main_v23 (idx_main_v26 (ix2 i k)) = ix1 i := funext fun a => Fin.ext (by match a with | ⟨0, _⟩ => rfl)
  rw [e1]
  show FloatOps.uitofp (F := Ideal) .f32 (BitVec.ofBool (arrL x2 i != BitVec.ofNat 32 k.val))
    = ind (decide (arrL x2 i ≠ BitVec.ofNat 32 k.val))
  rw [bit_ind, bne_decide]

/-! ## The scaled similarities -/

/-- Positive side: the similarity less the margin, scaled by -32. -/
theorem v33_at (x0 : (⟨S4096x128, .f32⟩ : BufTy).Contents (Elt Ideal)) (x1 : (⟨S16384x128, .f32⟩ : BufTy).Contents (Elt Ideal))
    (x2 : (⟨S4096, .i32⟩ : BufTy).Contents (Elt Ideal)) (i j : Fin 4096) :
    val_main_v33 (F := Ideal) x0 x1 x2 (ix2 i j) = wPos (arrX x0) (arrP x1) (arrL x2) i j := by
  rw [val_main_v33_apply, val_main_v31_apply, val_main_v32_apply, val_main_v30_apply, v14_at]
  rfl

/-- Negative side: the similarity less the negated margin, scaled by 32. -/
theorem v37_at (x0 : (⟨S4096x128, .f32⟩ : BufTy).Contents (Elt Ideal)) (x1 : (⟨S16384x128, .f32⟩ : BufTy).Contents (Elt Ideal))
    (i : Fin 4096) (k : Fin 16384) :
    val_main_v37 (F := Ideal) x0 x1 (ix2 i k) = wNeg (arrX x0) (arrP x1) i k := by
  rw [val_main_v37_apply, val_main_v35_apply, val_main_v36_apply, val_main_v34_apply, v16_at]
  rfl

/-- A positive column's masked entry. -/
theorem v38_at (x0 : (⟨S4096x128, .f32⟩ : BufTy).Contents (Elt Ideal)) (x1 : (⟨S16384x128, .f32⟩ : BufTy).Contents (Elt Ideal))
    (x2 : (⟨S4096, .i32⟩ : BufTy).Contents (Elt Ideal)) (i j : Fin 4096) :
    val_main_v38 (F := Ideal) x0 x1 x2 (ix2 i j)
      = wPos (arrX x0) (arrP x1) (arrL x2) i j * ind (maskPos (arrL x2) i j) := by
  rw [val_main_v38_apply, v33_at, v22_at]
  rfl

/-- A negative column's masked entry. -/
theorem v55_at (x0 : (⟨S4096x128, .f32⟩ : BufTy).Contents (Elt Ideal)) (x1 : (⟨S16384x128, .f32⟩ : BufTy).Contents (Elt Ideal))
    (x2 : (⟨S4096, .i32⟩ : BufTy).Contents (Elt Ideal)) (i : Fin 4096) (k : Fin 16384) :
    val_main_v55 (F := Ideal) x0 x1 x2 (ix2 i k)
      = wNeg (arrX x0) (arrP x1) i k * ind (maskNeg (arrL x2) i k) := by
  rw [val_main_v55_apply, v37_at, v29_at]
  rfl

/-! ## A reduction over the batch axis -/

section Reduce

variable {n : Nat}

/-- The reduced index `t` with batch row `k` put back is `(k, t)`. -/
private theorem lift_col (h : (⟨2, ![4096, n]⟩ : Shape).Reduces [0] (⟨1, ![n]⟩ : Shape)) (t : Fin n)
    (k : Fin ((⟨2, ![4096, n]⟩ : Shape).size 0)) : h.lift (ix1 t) k = ix2 (⟨k.val, k.isLt⟩ : Fin 4096) t := by
  funext c
  refine Fin.ext ?_
  rw [h.lift_val]
  match c with
  | ⟨0, _⟩ => rfl
  | ⟨1, _⟩ => rfl

/-- From -∞ a reduce by maximum over the batch axis is, at column `t`, the supremum of the column: the supremum of a
    finite family is by definition the fold of the binary maximum from the bottom element. -/
theorem reduce_max_col (y : (⟨2, ![4096, n]⟩ : Shape).Idx → EReal)
    (h' : (⟨2, ![4096, n]⟩ : Shape).ReducesTo [0] (⟨1, ![n]⟩ : Shape))
    (h : (⟨2, ![4096, n]⟩ : Shape).Reduces [0] (⟨1, ![n]⟩ : Shape)) (hu : 0 < (⟨0, ![]⟩ : Shape).numel) (t : Fin n) :
    Host.reduce (FloatOps.maximumf (F := Ideal) (φ := .f32)) y
        (constant (F := Ideal) (⟨0, ![]⟩ : Shape) .f32 0xFF800000#32) h' hu (ix1 t)
      = Finset.univ.sup fun i : Fin 4096 => y (ix2 i t) := by
  rw [Host.reduce_eq_fold_single (FloatOps.maximumf (F := Ideal) (φ := .f32)) y _ h' h hu]
  have hf : (y ∘ h.lift (ix1 t)) = fun k : Fin 4096 => y (ix2 k t) := funext fun k => congrArg y (lift_col h t k)
  rw [hf]
  show Finset.fold _ (Ideal.ofBits .f32 0xFF800000#32) _ _ = _
  rw [Cert.ERealRows.ofBits_negInf]
  rfl

/-- From +∞ a reduce by minimum over the batch axis is, at column `t`, the infimum of the column. -/
theorem reduce_min_col (y : (⟨2, ![4096, n]⟩ : Shape).Idx → EReal)
    (h' : (⟨2, ![4096, n]⟩ : Shape).ReducesTo [0] (⟨1, ![n]⟩ : Shape))
    (h : (⟨2, ![4096, n]⟩ : Shape).Reduces [0] (⟨1, ![n]⟩ : Shape)) (hu : 0 < (⟨0, ![]⟩ : Shape).numel) (t : Fin n) :
    Host.reduce (FloatOps.minimumf (F := Ideal) (φ := .f32)) y
        (constant (F := Ideal) (⟨0, ![]⟩ : Shape) .f32 0x7F800000#32) h' hu (ix1 t)
      = Finset.univ.inf fun i : Fin 4096 => y (ix2 i t) := by
  rw [Host.reduce_eq_fold_single (FloatOps.minimumf (F := Ideal) (φ := .f32)) y _ h' h hu]
  have hf : (y ∘ h.lift (ix1 t)) = fun k : Fin 4096 => y (ix2 k t) := funext fun k => congrArg y (lift_col h t k)
  rw [hf]
  show Finset.fold _ (Ideal.ofBits .f32 0x7F800000#32) _ _ = _
  rw [Cert.ERealRows.ofBits_posInf]
  rfl

end Reduce

/-! ## One column from its reductions -/

/-- A select on "differs from zero", as the specification's `if` on the decided proposition. -/
private theorem select_une (a s : EReal) :
    Scalar.select (Ideal.cmp .une a 0) s 1 = if decide (a ≠ 0) = true then s else 1 := by
  unfold Scalar.select Ideal.cmp
  by_cases h : a = 0 <;> simp [h]

/-- The compare "differs from zero" as a bit. -/
private theorem cmp_une_zero (a : EReal) : Ideal.cmp .une a 0 = if decide (a ≠ 0) = true then 1#1 else 0#1 := by
  unfold Ideal.cmp
  by_cases h : a = 0 <;> simp [h]

/-- The reference's last steps on a column are the specification's: with the masked maximum `mx`, the masked minimum
    `mn`, the reference point `r` (one of the two) and the masked sum of exponentials `s` about it, the logarithm of
    `s` (of one when the column does not count) plus the reference point. -/
theorem colRef_fst_eq (w : Fin 4096 → EReal) (mk : Fin 4096 → Bool) (useMax : Bool) (mx mn r s : EReal)
    (hmx : mx = Finset.univ.sup fun i => w i * ind (mk i)) (hmn : mn = Finset.univ.inf fun i => w i * ind (mk i))
    (hr : r = if useMax then mx else mn) (hs : s = ∑ i, Ideal.exp (w i - r) * ind (mk i)) :
    Ideal.log (Scalar.select (Ideal.cmp .une (mx + mn) (Ideal.ofBits .f32 0x00000000#32))
        (Ideal.ofBits .f32 0x00000000#32 + s) (Ideal.ofBits .f32 0x3F800000#32)) + r
      = (colRef w mk useMax).1 := by
  subst hs hr hmx hmn
  rw [Ideal.ofBits_zero_f32, zero_add, Cert.ERealRows.ofBits_one, select_une]
  rfl

/-- The count flag of a column. -/
theorem colRef_snd_eq (w : Fin 4096 → EReal) (mk : Fin 4096 → Bool) (useMax : Bool) (mx mn : EReal)
    (hmx : mx = Finset.univ.sup fun i => w i * ind (mk i)) (hmn : mn = Finset.univ.inf fun i => w i * ind (mk i)) :
    Ideal.cmp .une (mx + mn) (Ideal.ofBits .f32 0x00000000#32) = if (colRef w mk useMax).2 then 1#1 else 0#1 := by
  subst hmx hmn
  rw [Ideal.ofBits_zero_f32, cmp_une_zero]
  rfl

/-! ## The positive column -/

section Pos

variable (x0 : (⟨S4096x128, .f32⟩ : BufTy).Contents (Elt Ideal)) (x1 : (⟨S16384x128, .f32⟩ : BufTy).Contents (Elt Ideal))
  (x2 : (⟨S4096, .i32⟩ : BufTy).Contents (Elt Ideal))

/-- The masked minimum of positive column `j`, its reference point. -/
theorem v39_at (j : Fin 4096) :
    val_main_v39 (F := Ideal) x0 x1 x2 (ix1 j)
      = Finset.univ.inf fun i => wPos (arrX x0) (arrP x1) (arrL x2) i j * ind (maskPos (arrL x2) i j) :=
  (reduce_min_col (val_main_v38 (F := Ideal) x0 x1 x2) reducesTo_S4096x4096_S4096_d0 (by decide) h_S_ j).trans
    (congrArg (Finset.inf Finset.univ) (funext fun i => v38_at x0 x1 x2 i j))

/-- The masked maximum of positive column `j`. -/
theorem v41_at (j : Fin 4096) :
    val_main_v41 (F := Ideal) x0 x1 x2 (ix1 j)
      = Finset.univ.sup fun i => wPos (arrX x0) (arrP x1) (arrL x2) i j * ind (maskPos (arrL x2) i j) :=
  (reduce_max_col (val_main_v38 (F := Ideal) x0 x1 x2) reducesTo_S4096x4096_S4096_d0 (by decide) h_S_ j).trans
    (congrArg (Finset.sup Finset.univ) (funext fun i => v38_at x0 x1 x2 i j))

/-- The masked minimum again, as the count flag reads it. -/
theorem v42_at (j : Fin 4096) :
    val_main_v42 (F := Ideal) x0 x1 x2 (ix1 j)
      = Finset.univ.inf fun i => wPos (arrX x0) (arrP x1) (arrL x2) i j * ind (maskPos (arrL x2) i j) :=
  (reduce_min_col (val_main_v38 (F := Ideal) x0 x1 x2) reducesTo_S4096x4096_S4096_d0 (by decide) h_S_ j).trans
    (congrArg (Finset.inf Finset.univ) (funext fun i => v38_at x0 x1 x2 i j))

/-- One term of the masked sum of exponentials about the reference point. -/
theorem v49_at (i j : Fin 4096) :
    val_main_v49 (F := Ideal) x0 x1 x2 (ix2 i j)
      = Ideal.exp (wPos (arrX x0) (arrP x1) (arrL x2) i j - val_main_v39 (F := Ideal) x0 x1 x2 (ix1 j))
        * ind (maskPos (arrL x2) i j) := by
  rw [val_main_v49_apply, val_main_v48_apply, val_main_v47_apply, val_main_v46_apply, val_main_v40_apply]
  have e : idx_main_v40 (idx_main_v46 (ix2 i j)) = ix1 j := funext fun a => Fin.ext (by match a with | ⟨0, _⟩ => rfl)
  rw [e, v33_at, v22_at]
  rfl

/-- The reference's masked log-sum-exp of positive column `j` is the specification's. -/
theorem pos_lse_eq (j : Fin 4096) :
    val_main_v54 (F := Ideal) x0 x1 x2 (ix1 j) = (posCol (arrX x0) (arrP x1) (arrL x2) j).1 := by
  have e53 : idx_main_v40 (idx_main_v53 (ix1 j)) = ix1 j :=
    funext fun a => Fin.ext (by match a with | ⟨0, _⟩ => exact Nat.mod_eq_of_lt j.isLt)
  have hmx := v41_at x0 x1 x2 j
  have hmn := v42_at x0 x1 x2 j
  have hr : val_main_v39 (F := Ideal) x0 x1 x2 (ix1 j) = val_main_v42 (F := Ideal) x0 x1 x2 (ix1 j) :=
    (v39_at x0 x1 x2 j).trans (v42_at x0 x1 x2 j).symm
  have hs : ∑ k : Fin 4096, val_main_v49 (F := Ideal) x0 x1 x2 (idx_main_v50 (ix1 j) k)
      = ∑ i : Fin 4096, Ideal.exp (wPos (arrX x0) (arrP x1) (arrL x2) i j - val_main_v39 (F := Ideal) x0 x1 x2 (ix1 j))
        * ind (maskPos (arrL x2) i j) := by
    refine Finset.sum_congr rfl fun k _ => ?_
    have e50 : idx_main_v50 (ix1 j) k = ix2 k j :=
      funext fun a => Fin.ext (by match a with | ⟨0, _⟩ => rfl | ⟨1, _⟩ => rfl)
    rw [e50]
    exact v49_at x0 x1 x2 k j
  unfold posCol
  rw [val_main_v54_apply, val_main_v52_apply, val_main_v51_apply, val_main_v53_apply, val_main_v40_apply, e53,
    val_main_v45_apply, val_main_v43_apply, val_main_v44_apply, val_main_call2_v1_apply, val_main_v50_apply]
  generalize val_main_v41 (F := Ideal) x0 x1 x2 (ix1 j) = mx at hmx ⊢
  generalize val_main_v39 (F := Ideal) x0 x1 x2 (ix1 j) = r at hr hs ⊢
  generalize val_main_v42 (F := Ideal) x0 x1 x2 (ix1 j) = mn at hmn hr ⊢
  generalize (∑ k : Fin 4096, val_main_v49 (F := Ideal) x0 x1 x2 (idx_main_v50 (ix1 j) k)) = s at hs ⊢
  exact colRef_fst_eq (fun i => wPos (arrX x0) (arrP x1) (arrL x2) i j) (fun i => maskPos (arrL x2) i j) false
    mx mn r s hmx hmn (hr.trans (if_neg Bool.false_ne_true).symm) hs

/-- The reference's count flag of positive column `j` is the specification's. -/
theorem pos_nz_eq (j : Fin 4096) :
    val_main_v45 (F := Ideal) x0 x1 x2 (ix1 j)
      = if (posCol (arrX x0) (arrP x1) (arrL x2) j).2 then 1#1 else 0#1 := by
  have hmx := v41_at x0 x1 x2 j
  have hmn := v42_at x0 x1 x2 j
  unfold posCol
  rw [val_main_v45_apply, val_main_v43_apply, val_main_v44_apply]
  generalize val_main_v41 (F := Ideal) x0 x1 x2 (ix1 j) = mx at hmx ⊢
  generalize val_main_v42 (F := Ideal) x0 x1 x2 (ix1 j) = mn at hmn ⊢
  exact colRef_snd_eq (fun i => wPos (arrX x0) (arrP x1) (arrL x2) i j) (fun i => maskPos (arrL x2) i j) false
    mx mn hmx hmn

end Pos

/-! ## The negative column -/

section Neg

variable (x0 : (⟨S4096x128, .f32⟩ : BufTy).Contents (Elt Ideal)) (x1 : (⟨S16384x128, .f32⟩ : BufTy).Contents (Elt Ideal))
  (x2 : (⟨S4096, .i32⟩ : BufTy).Contents (Elt Ideal))

/-- The masked maximum of negative column `k`, its reference point. -/
theorem v56_at (k : Fin 16384) :
    val_main_v56 (F := Ideal) x0 x1 x2 (ix1 k)
      = Finset.univ.sup fun i => wNeg (arrX x0) (arrP x1) i k * ind (maskNeg (arrL x2) i k) :=
  (reduce_max_col (val_main_v55 (F := Ideal) x0 x1 x2) reducesTo_S4096x16384_S16384_d0 (by decide) h_S_ k).trans
    (congrArg (Finset.sup Finset.univ) (funext fun i => v55_at x0 x1 x2 i k))

/-- The masked maximum again, as the count flag reads it. -/
theorem v58_at (k : Fin 16384) :
    val_main_v58 (F := Ideal) x0 x1 x2 (ix1 k)
      = Finset.univ.sup fun i => wNeg (arrX x0) (arrP x1) i k * ind (maskNeg (arrL x2) i k) :=
  (reduce_max_col (val_main_v55 (F := Ideal) x0 x1 x2) reducesTo_S4096x16384_S16384_d0 (by decide) h_S_ k).trans
    (congrArg (Finset.sup Finset.univ) (funext fun i => v55_at x0 x1 x2 i k))

/-- The masked minimum of negative column `k`. -/
theorem v59_at (k : Fin 16384) :
    val_main_v59 (F := Ideal) x0 x1 x2 (ix1 k)
      = Finset.univ.inf fun i => wNeg (arrX x0) (arrP x1) i k * ind (maskNeg (arrL x2) i k) :=
  (reduce_min_col (val_main_v55 (F := Ideal) x0 x1 x2) reducesTo_S4096x16384_S16384_d0 (by decide) h_S_ k).trans
    (congrArg (Finset.inf Finset.univ) (funext fun i => v55_at x0 x1 x2 i k))

/-- One term of the masked sum of exponentials about the reference point. -/
theorem v66_at (i : Fin 4096) (k : Fin 16384) :
    val_main_v66 (F := Ideal) x0 x1 x2 (ix2 i k)
      = Ideal.exp (wNeg (arrX x0) (arrP x1) i k - val_main_v56 (F := Ideal) x0 x1 x2 (ix1 k))
        * ind (maskNeg (arrL x2) i k) := by
  rw [val_main_v66_apply, val_main_v65_apply, val_main_v64_apply, val_main_v63_apply, val_main_v57_apply]
  have e : idx_main_v57 (idx_main_v63 (ix2 i k)) = ix1 k := funext fun a => Fin.ext (by match a with | ⟨0, _⟩ => rfl)
  rw [e, v37_at, v29_at]
  rfl

/-- The reference's masked log-sum-exp of negative column `k` is the specification's. -/
theorem neg_lse_eq (k : Fin 16384) :
    val_main_v71 (F := Ideal) x0 x1 x2 (ix1 k) = (negCol (arrX x0) (arrP x1) (arrL x2) k).1 := by
  have e70 : idx_main_v57 (idx_main_v70 (ix1 k)) = ix1 k :=
    funext fun a => Fin.ext (by match a with | ⟨0, _⟩ => exact Nat.mod_eq_of_lt k.isLt)
  have hmx := v58_at x0 x1 x2 k
  have hmn := v59_at x0 x1 x2 k
  have hr : val_main_v56 (F := Ideal) x0 x1 x2 (ix1 k) = val_main_v58 (F := Ideal) x0 x1 x2 (ix1 k) :=
    (v56_at x0 x1 x2 k).trans (v58_at x0 x1 x2 k).symm
  have hs : ∑ c : Fin 4096, val_main_v66 (F := Ideal) x0 x1 x2 (idx_main_v67 (ix1 k) c)
      = ∑ i : Fin 4096, Ideal.exp (wNeg (arrX x0) (arrP x1) i k - val_main_v56 (F := Ideal) x0 x1 x2 (ix1 k))
        * ind (maskNeg (arrL x2) i k) := by
    refine Finset.sum_congr rfl fun c _ => ?_
    have e67 : idx_main_v67 (ix1 k) c = ix2 c k :=
      funext fun a => Fin.ext (by match a with | ⟨0, _⟩ => rfl | ⟨1, _⟩ => rfl)
    rw [e67]
    exact v66_at x0 x1 x2 c k
  unfold negCol
  rw [val_main_v71_apply, val_main_v69_apply, val_main_v68_apply, val_main_v70_apply, val_main_v57_apply, e70,
    val_main_v62_apply, val_main_v60_apply, val_main_v61_apply, val_main_call3_v1_apply, val_main_v67_apply]
  generalize val_main_v59 (F := Ideal) x0 x1 x2 (ix1 k) = mn at hmn ⊢
  generalize val_main_v56 (F := Ideal) x0 x1 x2 (ix1 k) = r at hr hs ⊢
  generalize val_main_v58 (F := Ideal) x0 x1 x2 (ix1 k) = mx at hmx hr ⊢
  generalize (∑ c : Fin 4096, val_main_v66 (F := Ideal) x0 x1 x2 (idx_main_v67 (ix1 k) c)) = s at hs ⊢
  exact colRef_fst_eq (fun i => wNeg (arrX x0) (arrP x1) i k) (fun i => maskNeg (arrL x2) i k) true
    mx mn r s hmx hmn (hr.trans (if_pos rfl).symm) hs

/-- The reference's count flag of negative column `k` is the specification's. -/
theorem neg_nz_eq (k : Fin 16384) :
    val_main_v62 (F := Ideal) x0 x1 x2 (ix1 k)
      = if (negCol (arrX x0) (arrP x1) (arrL x2) k).2 then 1#1 else 0#1 := by
  have hmx := v58_at x0 x1 x2 k
  have hmn := v59_at x0 x1 x2 k
  unfold negCol
  rw [val_main_v62_apply, val_main_v60_apply, val_main_v61_apply]
  generalize val_main_v58 (F := Ideal) x0 x1 x2 (ix1 k) = mx at hmx ⊢
  generalize val_main_v59 (F := Ideal) x0 x1 x2 (ix1 k) = mn at hmn ⊢
  exact colRef_snd_eq (fun i => wNeg (arrX x0) (arrP x1) i k) (fun i => maskNeg (arrL x2) i k) true
    mx mn hmx hmn

end Neg

end Cert.ReferenceIdeal.RefValue

end
-- ==== Proof.Ref.Tail.lean ====
/-
  The end of the reference program, read down to the specification's mean.

  From the two vectors of column log-sum-exps (4096 positive, 16384 negative) and the two vectors of count bits the
  program takes the softplus of every entry, keeps it where the column's bit is set and puts 0 elsewhere, sums the kept
  values, counts the set bits as an integer sum, replaces a zero count by one, divides, and adds the two quotients.

  * The softplus the program spells tests `x - 0 ≠ x - 0` first; on the extended reals nothing differs from itself, so
    the select always takes the branch `max x 0 + log (1 + exp (-|x - 0|))`, which is the specification's `softplus`.
  * A sum over the index set of a rank-1 array is the sum over its coordinate.
  * The count: a sum of at most 16384 one-bit words, each widened to 32 bits, never wraps, so the 32-bit sum is the
    number of set bits; the signed maximum of that small non-negative word with 1 is the natural maximum; read as a
    signed integer and then as an extended real it is `max (Σ ind) 1`.
-/
import proofs.«402344_j24489903522255_3_alg».proof.Proof.Spec
import proofs.«402344_j24489903522255_3_alg».proof.Proof.LibERealRows
import proofs.«402344_j24489903522255_3_alg».proof.Proof.Ref.ReadP
import Idealize.ShloMosaic.Lib.ValueIdx
import Idealize.ShloMosaic.Lib.Pipeline.Value
import Idealize.ShloMosaic.Lib.ReduceAll
import Idealize.ShloMosaic.Lib.WordSum
import Idealize.ShloMosaic.PureOps.Ideal.Laws

noncomputable section

namespace Cert.ReferenceIdeal.RefValue

open Cert.ReferenceIdeal Cert.ReferenceIdeal.Gen Cert.ReferenceIdeal.ReadP Cert.LossSpec Idealize.ShloMosaic
  Idealize.ShloMosaic.ValueIdx

/-! ## Sums over a rank-1 index set -/

/-- The index set of a rank-1 array is its coordinate range. -/
def tailIdxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem tail_sum_idx1 {M : Type*} [AddCommMonoid M] {n : Nat} (f : (⟨1, ![n]⟩ : Shape).Idx → M) :
    ∑ i, f i = ∑ a : Fin n, f (ix1 a) := by
  rw [← Equiv.sum_comp (tailIdxEquiv1 (n := n)).symm f]
  rfl

/-! ## The count of set bits -/

/-- A one-bit word widened to 32 bits has value 1 when it is the bit 1 and 0 otherwise. -/
theorem tail_bit_toNat (b : BitVec 1) : (b.setWidth 32).toNat = if b = 1#1 then 1 else 0 := by
  rcases BitVec.eq_zero_or_eq_one b with h | h <;> subst h <;> rfl

/-- An integer reduce-add from 0 in which every source index reduces to the one result index is the sum of all the
    source words (in the ring of 32-bit words). -/
theorem tail_reduce_addi_total {s t u : Shape} {axes : List (Fin s.rank)}
    (x : s.Idx → BitVec 32) (init : u.Idx → BitVec 32) (h : s.ReducesTo axes t) (hu : 0 < u.numel) (j : t.Idx)
    (ht : ∀ i : s.Idx, h.drop i = j) (h0 : init (Shape.Idx.first hu) = 0#32) :
    Host.reduce IntOp.addi x init h hu j = ∑ i, x i := by
  rw [Host.reduce_eq_fold, h0]
  have hall : (Finset.univ.filter fun i => h.drop i = j) = Finset.univ :=
    Finset.filter_true_of_mem (fun i _ => ht i)
  rw [hall]
  induction (Finset.univ : Finset s.Idx) using Finset.cons_induction with
  | empty => rfl
  | cons a S ha ih => rw [Finset.fold_cons, Finset.sum_cons, ih]; rfl

/-- The signed maximum with 1 of a word whose value `N` is at most 16384 is, read signed, `max N 1`: such a word is
    non-negative as a signed integer, so the signed comparison is the comparison of the values. -/
theorem tail_maxsi_small (w : BitVec 32) (N : Nat) (hw : w.toNat = N) (hN : N ≤ 16384) :
    (IntOp.maxsi w 1#32).toInt = ((max N 1 : Nat) : Int) := by
  have h1 : (1#32 : BitVec 32).toInt = 1 := by decide
  have hwI : w.toInt = (N : Int) := by
    rw [BitVec.toInt_eq_toNat_of_lt (by omega), hw]
  unfold IntOp.maxsi
  simp only [BitVec.slt, h1, hwI]
  split_ifs with hc
  · rw [hwI]; simp only [decide_eq_true_eq] at hc; omega
  · rw [h1]; simp only [decide_eq_true_eq] at hc; omega

/-- A sum of indicators is the number of true entries, as an extended real. -/
theorem tail_ind_sum {n : Nat} (p : Fin n → Bool) :
    ∑ a, ind (p a) = (((∑ a, (if p a then 1 else 0 : Nat) : Nat) : ℝ) : EReal) := by
  rw [Nat.cast_sum, ← Cert.ERealRows.coe_sum]
  refine Finset.sum_congr rfl fun a _ => ?_
  unfold ind
  cases h : p a <;> simp

/-- THE COUNT. For at most 16384 one-bit words: widen each to 32 bits, add them as integers from 0, take the signed
    maximum with 1 and convert to a float. On the extended reals the result is `max (Σ ind (bit = 1)) 1`. The sum of the
    values is at most `n ≤ 16384 < 2^31`, so the 32-bit sum does not wrap and is non-negative read signed. -/
theorem tail_count {n : Nat} (hn : n ≤ 16384) {t u : Shape} {axes : List (Fin (⟨1, ![n]⟩ : Shape).rank)}
    (b : (⟨1, ![n]⟩ : Shape).Idx → BitVec 1) (init : u.Idx → BitVec 32) (h : (⟨1, ![n]⟩ : Shape).ReducesTo axes t)
    (hu : 0 < u.numel) (j : t.Idx) (ht : ∀ i, h.drop i = j) (h0 : init (Shape.Idx.first hu) = 0#32) :
    FloatOps.sitofp (F := Ideal) .f32 (IntOp.maxsi (Host.reduce IntOp.addi (fun i => (b i).setWidth 32) init h hu j) 1#32)
      = max (∑ a : Fin n, ind (decide (b (ix1 a) = 1#1))) 1 := by
  have hterm : ∀ a : Fin n, ((b (ix1 a)).setWidth 32).toNat = if b (ix1 a) = 1#1 then 1 else 0 :=
    fun a => tail_bit_toNat _
  have hNle : (∑ a : Fin n, (if b (ix1 a) = 1#1 then 1 else 0 : Nat)) ≤ n := by
    calc (∑ a : Fin n, (if b (ix1 a) = 1#1 then 1 else 0 : Nat)) ≤ ∑ _a : Fin n, 1 :=
          Finset.sum_le_sum fun a _ => by split_ifs <;> omega
      _ = n := by simp
  have hw : (Host.reduce IntOp.addi (fun i => (b i).setWidth 32) init h hu j).toNat
      = ∑ a : Fin n, (if b (ix1 a) = 1#1 then 1 else 0 : Nat) := by
    rw [tail_reduce_addi_total _ _ _ _ _ ht h0, tail_sum_idx1, WordSum.toNat_sum]
    · exact Finset.sum_congr rfl fun a _ => hterm a
    · rw [Finset.sum_congr rfl fun a _ => hterm a]; omega
  show (((IntOp.maxsi _ 1#32).toInt : ℝ) : EReal) = _
  rw [tail_maxsi_small _ _ hw (by omega), tail_ind_sum]
  simp only [decide_eq_true_eq]
  rw [Int.cast_natCast, Nat.cast_max, Nat.cast_one, EReal.coe_strictMono.monotone.map_max, EReal.coe_one]

/-! ## Selects -/

/-- A select on a one-bit word is the `if` on "the word is 1". -/
theorem tail_select_decide {α : Type} (c : BitVec 1) (a b : α) :
    Scalar.select c a b = if decide (c = 1#1) then a else b := by
  show (if c = 1#1 then a else b) = _
  by_cases h : c = 1#1
  · rw [if_pos h, if_pos (decide_eq_true h)]
  · rw [if_neg h, if_neg (by simpa using h)]

/-- On the extended reals no value differs from itself: the test `a ≠ a` is the bit 0. -/
theorem tail_cmp_une_self (a : EReal) : FloatOps.cmpf (F := Ideal) (φ := .f32) .une a a = 0#1 := by
  show BitVec.ofBool (decide (a ≠ a)) = 0#1
  simp

/-! ## The program's stages -/

/-- The program's softplus of a positive column: the self-comparison is never true, the zero words are 0. -/
theorem tail_softplus_pos (x0 : (⟨S4096x128, .f32⟩ : BufTy).Contents (Elt Ideal)) (x1 : (⟨S16384x128, .f32⟩ : BufTy).Contents (Elt Ideal)) (x2 : (⟨S4096, .i32⟩ : BufTy).Contents (Elt Ideal)) (j : S4096.Idx) :
    val_main_v72 (F := Ideal) x0 x1 x2 j = softplus (val_main_v54 (F := Ideal) x0 x1 x2 j) := by
  rw [val_main_v72_apply, val_main_call4_v4_apply, val_main_call4_v11_apply, val_main_call4_v1_apply,
    val_main_call4_v10_apply, val_main_call4_v9_apply, val_main_call4_v8_apply, val_main_call4_v7_apply,
    val_main_call4_v3_apply, val_main_call4_v0_apply, val_main_call4_v2_apply]
  simp only [val_main_call4_cst_apply]
  generalize val_main_v54 (F := Ideal) x0 x1 x2 j = x
  rw [tail_cmp_une_self, select_zero]
  show max x (Ideal.ofBits .f32 0x00000000#32)
      + Ideal.log1p (Ideal.exp (-(max (x - Ideal.ofBits .f32 0x00000000#32) (-(x - Ideal.ofBits .f32 0x00000000#32)))))
    = softplus x
  rw [Ideal.ofBits_zero_f32]
  rfl

/-- The same for a negative column. -/
theorem tail_softplus_neg (x0 : (⟨S4096x128, .f32⟩ : BufTy).Contents (Elt Ideal)) (x1 : (⟨S16384x128, .f32⟩ : BufTy).Contents (Elt Ideal)) (x2 : (⟨S4096, .i32⟩ : BufTy).Contents (Elt Ideal)) (k : S16384.Idx) :
    val_main_v73 (F := Ideal) x0 x1 x2 k = softplus (val_main_v71 (F := Ideal) x0 x1 x2 k) := by
  rw [val_main_v73_apply, val_main_call5_v4_apply, val_main_call5_v11_apply, val_main_call5_v1_apply,
    val_main_call5_v10_apply, val_main_call5_v9_apply, val_main_call5_v8_apply, val_main_call5_v7_apply,
    val_main_call5_v3_apply, val_main_call5_v0_apply, val_main_call5_v2_apply]
  simp only [val_main_call5_cst_apply]
  generalize val_main_v71 (F := Ideal) x0 x1 x2 k = x
  rw [tail_cmp_une_self, select_zero]
  show max x (Ideal.ofBits .f32 0x00000000#32)
      + Ideal.log1p (Ideal.exp (-(max (x - Ideal.ofBits .f32 0x00000000#32) (-(x - Ideal.ofBits .f32 0x00000000#32)))))
    = softplus x
  rw [Ideal.ofBits_zero_f32]
  rfl

/-- The float sum of the kept positive softpluses: 0 plus the sum over every column, each term the softplus where the
    column's bit is 1 and 0 elsewhere. -/
theorem tail_sum_pos (x0 : (⟨S4096x128, .f32⟩ : BufTy).Contents (Elt Ideal)) (x1 : (⟨S16384x128, .f32⟩ : BufTy).Contents (Elt Ideal)) (x2 : (⟨S4096, .i32⟩ : BufTy).Contents (Elt Ideal)) (i : S_.Idx) :
    val_main_v75 (F := Ideal) x0 x1 x2 i
      = ∑ j : Fin 4096, if decide (val_main_v45 (F := Ideal) x0 x1 x2 (ix1 j) = 1#1)
          then softplus (val_main_v54 (F := Ideal) x0 x1 x2 (ix1 j)) else 0 := by
  rw [val_main_v75_apply, val_main_cst_17_apply, Ideal.ofBits_def, Ideal.ofBits_zero_f32, zero_add, tail_sum_idx1]
  refine Finset.sum_congr rfl fun j _ => ?_
  rw [val_main_v74_apply, tail_softplus_pos, val_main_call6_v1_apply, val_main_call6_v0_apply, val_main_cst_16_apply,
    Ideal.ofBits_def, Ideal.ofBits_zero_f32]
  exact tail_select_decide _ _ _

/-- The positive count as a float: the integer sum of the widened bits, at least 1. -/
theorem tail_cnt_pos (x0 : (⟨S4096x128, .f32⟩ : BufTy).Contents (Elt Ideal)) (x1 : (⟨S16384x128, .f32⟩ : BufTy).Contents (Elt Ideal)) (x2 : (⟨S4096, .i32⟩ : BufTy).Contents (Elt Ideal)) (i : S_.Idx) :
    val_main_v79 (F := Ideal) x0 x1 x2 i
      = max (∑ j : Fin 4096, ind (decide (val_main_v45 (F := Ideal) x0 x1 x2 (ix1 j) = 1#1))) 1 := by
  rw [val_main_v79_apply, val_main_v78_apply, val_main_c_19_apply]
  unfold val_main_v77
  exact tail_count (n := 4096) (by decide) (val_main_v45 (F := Ideal) x0 x1 x2) _ reducesTo_S4096_S_d0 h_S_ i
    (fun _ => funext fun a => a.elim0) rfl

/-- The float sum of the kept negative softpluses. -/
theorem tail_sum_neg (x0 : (⟨S4096x128, .f32⟩ : BufTy).Contents (Elt Ideal)) (x1 : (⟨S16384x128, .f32⟩ : BufTy).Contents (Elt Ideal)) (x2 : (⟨S4096, .i32⟩ : BufTy).Contents (Elt Ideal)) (i : S_.Idx) :
    val_main_v82 (F := Ideal) x0 x1 x2 i
      = ∑ k : Fin 16384, if decide (val_main_v62 (F := Ideal) x0 x1 x2 (ix1 k) = 1#1)
          then softplus (val_main_v71 (F := Ideal) x0 x1 x2 (ix1 k)) else 0 := by
  rw [val_main_v82_apply, val_main_cst_21_apply, Ideal.ofBits_def, Ideal.ofBits_zero_f32, zero_add, tail_sum_idx1]
  refine Finset.sum_congr rfl fun k _ => ?_
  rw [val_main_v81_apply, tail_softplus_neg, val_main_call7_v1_apply, val_main_call7_v0_apply, val_main_cst_20_apply,
    Ideal.ofBits_def, Ideal.ofBits_zero_f32]
  exact tail_select_decide _ _ _

/-- The negative count as a float. -/
theorem tail_cnt_neg (x0 : (⟨S4096x128, .f32⟩ : BufTy).Contents (Elt Ideal)) (x1 : (⟨S16384x128, .f32⟩ : BufTy).Contents (Elt Ideal)) (x2 : (⟨S4096, .i32⟩ : BufTy).Contents (Elt Ideal)) (i : S_.Idx) :
    val_main_v86 (F := Ideal) x0 x1 x2 i
      = max (∑ k : Fin 16384, ind (decide (val_main_v62 (F := Ideal) x0 x1 x2 (ix1 k) = 1#1))) 1 := by
  rw [val_main_v86_apply, val_main_v85_apply, val_main_c_23_apply]
  unfold val_main_v84
  exact tail_count (n := 16384) (by decide) (val_main_v62 (F := Ideal) x0 x1 x2) _ reducesTo_S16384_S_d0 h_S_ i
    (fun _ => funext fun a => a.elim0) rfl

/-- The program's last value is the sum of the two means of the specification, over the program's own column
    log-sum-exps and count bits. -/
theorem tail_eq (x0 : (⟨S4096x128, .f32⟩ : BufTy).Contents (Elt Ideal)) (x1 : (⟨S16384x128, .f32⟩ : BufTy).Contents (Elt Ideal)) (x2 : (⟨S4096, .i32⟩ : BufTy).Contents (Elt Ideal)) :
    val_main_v88 (F := Ideal) x0 x1 x2 = fun _ =>
      meanOver (fun j : Fin 4096 => val_main_v54 (F := Ideal) x0 x1 x2 (ix1 j)) (fun j : Fin 4096 => decide (val_main_v45 (F := Ideal) x0 x1 x2 (ix1 j) = 1#1))
      + meanOver (fun k : Fin 16384 => val_main_v71 (F := Ideal) x0 x1 x2 (ix1 k)) (fun k : Fin 16384 => decide (val_main_v62 (F := Ideal) x0 x1 x2 (ix1 k) = 1#1)) := by
  funext i
  rw [val_main_v88_apply, val_main_v80_apply, val_main_v87_apply, tail_sum_pos, tail_cnt_pos, tail_sum_neg, tail_cnt_neg]
  rfl

end Cert.ReferenceIdeal.RefValue

end
-- ==== Proof.Ref.Value.lean ====
/-
  What the reference program returns, at exact arithmetic: the loss. Its last stage is the two masked means of the
  softplus of its column results; those column results are the specification's columns; a count bit is one exactly when
  the column counts.
-/
import proofs.«402344_j24489903522255_3_alg».proof.Proof.Ref.Columns
import proofs.«402344_j24489903522255_3_alg».proof.Proof.Ref.Tail

noncomputable section

namespace Cert.ReferenceIdeal.RefValue

open Cert.ReferenceIdeal Cert.ReferenceIdeal.Gen Cert.ReferenceIdeal.ReadP Cert.LossSpec Idealize.ShloMosaic Idealize.ShloMosaic.ValueIdx

/-- A truth value written as a bit is the bit one exactly when it holds. -/
theorem bit_one_iff (b : Bool) : decide ((if b then (1#1 : BitVec 1) else 0#1) = 1#1) = b := by
  cases b <;> decide

/-- The reference's result is the loss of its three arguments. -/
theorem value_eq (x0 : (⟨S4096x128, .f32⟩ : BufTy).Contents (Elt Ideal)) (x1 : (⟨S16384x128, .f32⟩ : BufTy).Contents (Elt Ideal))
    (x2 : (⟨S4096, .i32⟩ : BufTy).Contents (Elt Ideal)) :
    val_main_v88 (F := Ideal) x0 x1 x2 = fun _ => loss (arrX x0) (arrP x1) (arrL x2) := by
  rw [tail_eq]
  funext _
  unfold loss
  simp only [pos_lse_eq, pos_nz_eq, neg_lse_eq, neg_nz_eq, bit_one_iff]

end Cert.ReferenceIdeal.RefValue

end
-- ==== Proof.Bridge.lean ====
/-
  The two spellings of the loss agree on admissible inputs: `lossShift X P lab = loss X P lab`.

  Pure mathematics on the extended reals; no program is read here.

  * The literals are dyadic rationals: the margin is `13421773 / 2^27`, the scales are `±32`, the shift is
    `-13421773 / 2^22 = (-32) · margin = 32 · (-margin)`, twice the shift is `-13421773 / 2^21`, one half is `1/2`.
  * A row of real entries with a positive sum of squares `s` has the real unit row `x · (√s)⁻¹`, whether one divides by
    `√s` or multiplies by the reciprocal square root; inner products of real rows are real.
  * Hence every column entry of the shifted spelling is a real `c i`, and the matching entry of the reference spelling
    is `c i - shift`: `-32 · (Σ u p - m) = Σ u (p · (-32)) - (-32 · m)`, and likewise with `32` and `-m`.
  * The column lemma. For real `c`, the masked row of the shifted spelling is the masked row of the reference spelling
    plus the shift, entry by entry (`c i = (c i - σ) + σ` where the mask is on, `σ = 0 + σ` where it is off). A finite
    nonempty real row has a largest and a smallest entry, and adding a constant moves both by that constant; so maximum,
    minimum and reference point move by `σ`, the count test `max + min ≠ 2σ` is the test `max + min ≠ 0` of the
    reference spelling, the differences inside the exponential coincide, multiplying an exponential by the indicator is
    selecting it or zero, and adding `-σ` to the shifted reference point returns the reference point.
  * One half lies strictly between 0 and 1, so comparing the stored count flag with one half recovers it.
-/
import proofs.«402344_j24489903522255_3_alg».proof.Proof.Spec
import proofs.«402344_j24489903522255_3_alg».proof.Proof.LibERealRows
import Idealize.ShloMosaic.PureOps.Ideal
import Mathlib.Analysis.SpecialFunctions.Exp
import Mathlib.Analysis.SpecialFunctions.Sqrt
import Mathlib.Data.Fintype.Lattice

noncomputable section

namespace Cert.LossSpec

open Idealize.ShloMosaic

/-! ## The literals as real numbers -/

theorem margin_eq : margin = ((13421773 / 2 ^ 27 : ℝ) : EReal) := by
  simp [margin, Ideal.ofBits, Ideal.ieee, -EReal.coe_mul]; norm_num

theorem negMargin_eq : negMargin = ((-(13421773 / 2 ^ 27) : ℝ) : EReal) := by
  simp [negMargin, Ideal.ofBits, Ideal.ieee, -EReal.coe_mul]; norm_num

theorem scale_eq : scale = ((32 : ℝ) : EReal) := by
  simp [scale, Ideal.ofBits, Ideal.ieee, -EReal.coe_mul]; norm_num

theorem negScale_eq : negScale = ((-32 : ℝ) : EReal) := by
  simp [negScale, Ideal.ofBits, Ideal.ieee, -EReal.coe_mul]; norm_num

theorem shift_eq : shift = ((-(13421773 / 2 ^ 22) : ℝ) : EReal) := by
  simp [shift, Ideal.ofBits, Ideal.ieee, -EReal.coe_mul]; norm_num

theorem shift2_eq : shift2 = ((-(13421773 / 2 ^ 21) : ℝ) : EReal) := by
  simp [shift2, Ideal.ofBits, Ideal.ieee, -EReal.coe_mul]; norm_num

theorem halfW_eq : halfW = ((1 / 2 : ℝ) : EReal) := by
  simp [halfW, Ideal.ofBits, Ideal.ieee, -EReal.coe_mul]; norm_num

/-! ## Rows of real numbers -/

/-- The sum of squares of a real row is the coerced real sum of squares. -/
theorem ssq_coe (f : Fin 128 → ℝ) : ssq (fun d => (f d : EReal)) = ((∑ d, f d * f d : ℝ) : EReal) := by
  unfold ssq
  rw [← Cert.ERealRows.coe_sum]
  exact Finset.sum_congr rfl fun d _ => (EReal.coe_mul _ _).symm

/-- The inner product of two real rows is the coerced real inner product. -/
theorem dot_coe (u v : Fin 128 → ℝ) :
    dot (fun d => (u d : EReal)) (fun d => (v d : EReal)) = ((∑ d, u d * v d : ℝ) : EReal) := by
  unfold dot
  rw [← Cert.ERealRows.coe_sum]
  exact Finset.sum_congr rfl fun d _ => (EReal.coe_mul _ _).symm

/-- A real row of positive length: dividing by the length and multiplying by the reciprocal length both give the
    real row `f d · (√Σf²)⁻¹`. -/
theorem unit_coe (f : Fin 128 → ℝ) (hpos : 0 < ssq (fun d => (f d : EReal))) (d : Fin 128) :
    unitDiv (fun d => (f d : EReal)) d = ((f d * (Real.sqrt (∑ e, f e * f e))⁻¹ : ℝ) : EReal)
      ∧ unitRsqrt (fun d => (f d : EReal)) d = ((f d * (Real.sqrt (∑ e, f e * f e))⁻¹ : ℝ) : EReal) := by
  have hs : 0 < ∑ e, f e * f e := by
    rw [ssq_coe] at hpos; exact_mod_cast hpos
  have hsq : 0 < Real.sqrt (∑ e, f e * f e) := Real.sqrt_pos.2 hs
  constructor
  · unfold unitDiv
    rw [ssq_coe, Ideal.sqrt_coe, if_neg (not_lt.2 hs.le), Ideal.div_coe hsq.ne', one_div, ← EReal.coe_mul]
  · unfold unitRsqrt
    rw [ssq_coe, Ideal.rsqrt_coe, if_neg (not_lt.2 hs.le), if_neg hs.ne', ← EReal.coe_mul]

/-- A row of real entries and positive length has one real unit row, under both spellings. -/
theorem unit_real (v : Fin 128 → EReal) (hv : ∀ d, ∃ r : ℝ, v d = (r : EReal)) (hpos : 0 < ssq v) :
    ∃ u : Fin 128 → ℝ, unitDiv v = (fun d => (u d : EReal)) ∧ unitRsqrt v = (fun d => (u d : EReal)) := by
  choose f hf using hv
  obtain rfl : v = fun d => (f d : EReal) := funext hf
  exact ⟨fun d => f d * (Real.sqrt (∑ e, f e * f e))⁻¹,
    funext fun d => (unit_coe f hpos d).1, funext fun d => (unit_coe f hpos d).2⟩

/-! ## One entry of a column -/

/-- Scaling the proxy by -32 inside the product, against scaling the product less the margin: they differ by the
    shift, `-32·(Σ u p − m) = Σ u (p·(−32)) − (−32·m)`. -/
theorem entry_pos (u p : Fin 128 → ℝ) :
    dot (fun d => (u d : EReal)) (fun d => (p d : EReal) * negScale) = ((∑ d, u d * (p d * (-32)) : ℝ) : EReal)
      ∧ negScale * (dot (fun d => (u d : EReal)) (fun d => (p d : EReal)) - margin)
          = ((∑ d, u d * (p d * (-32)) : ℝ) : EReal) - shift := by
  have hsum : ∑ d, u d * (p d * (-32)) = (∑ d, u d * p d) * (-32) := by
    rw [Finset.sum_mul]; exact Finset.sum_congr rfl fun d _ => by ring
  constructor
  · rw [negScale_eq]
    simp only [← EReal.coe_mul]
    exact dot_coe u (fun d => p d * (-32))
  · rw [dot_coe, negScale_eq, margin_eq, shift_eq, ← EReal.coe_sub, ← EReal.coe_mul, ← EReal.coe_sub, hsum]
    congr 1; ring

/-- The same with the scale 32 and the negated margin. -/
theorem entry_neg (u p : Fin 128 → ℝ) :
    dot (fun d => (u d : EReal)) (fun d => (p d : EReal) * scale) = ((∑ d, u d * (p d * 32) : ℝ) : EReal)
      ∧ scale * (dot (fun d => (u d : EReal)) (fun d => (p d : EReal)) - negMargin)
          = ((∑ d, u d * (p d * 32) : ℝ) : EReal) - shift := by
  have hsum : ∑ d, u d * (p d * 32) = (∑ d, u d * p d) * 32 := by
    rw [Finset.sum_mul]; exact Finset.sum_congr rfl fun d _ => by ring
  constructor
  · rw [scale_eq]
    simp only [← EReal.coe_mul]
    exact dot_coe u (fun d => p d * 32)
  · rw [dot_coe, scale_eq, negMargin_eq, shift_eq, ← EReal.coe_sub, ← EReal.coe_mul, ← EReal.coe_sub, hsum]
    congr 1; ring

/-! ## The column lemma -/

section Column

variable {ι : Type*} [Fintype ι]

/-- The supremum of a coerced real row with a largest entry is that entry. -/
theorem sup_coe_of_max (f : ι → ℝ) (i0 : ι) (h : ∀ i, f i ≤ f i0) :
    Finset.univ.sup (fun i => (f i : EReal)) = (f i0 : EReal) :=
  le_antisymm (Finset.sup_le fun i _ => EReal.coe_le_coe_iff.2 (h i))
    (Finset.le_sup (f := fun i => (f i : EReal)) (Finset.mem_univ i0))

/-- The infimum of a coerced real row with a smallest entry is that entry. -/
theorem inf_coe_of_min (f : ι → ℝ) (j0 : ι) (h : ∀ i, f j0 ≤ f i) :
    Finset.univ.inf (fun i => (f i : EReal)) = (f j0 : EReal) :=
  le_antisymm (Finset.inf_le (f := fun i => (f i : EReal)) (Finset.mem_univ j0))
    (Finset.le_inf fun i _ => EReal.coe_le_coe_iff.2 (h i))

end Column

/-- The indicator is non-zero exactly at `true`. -/
theorem ind_ne_zero (b : Bool) : ind b ≠ 0 ↔ b = true := by
  cases b <;> simp [ind]

/-- The reference spelling of a column, its maximum and minimum named. -/
theorem colRef_of (w : Fin 4096 → EReal) (mk : Fin 4096 → Bool) (useMax : Bool) (mx mn : EReal)
    (hmx : Finset.univ.sup (fun i => w i * ind (mk i)) = mx)
    (hmn : Finset.univ.inf (fun i => w i * ind (mk i)) = mn) :
    colRef w mk useMax =
      (Ideal.log (if decide (mx + mn ≠ 0) then ∑ i, Ideal.exp (w i - (if useMax then mx else mn)) * ind (mk i) else 1)
        + (if useMax then mx else mn), decide (mx + mn ≠ 0)) := by
  subst hmx hmn; rfl

/-- The shifted spelling of a column, its maximum and minimum named. -/
theorem colShift_of (c : Fin 4096 → EReal) (mk : Fin 4096 → Bool) (useMax : Bool) (mx mn : EReal)
    (hmx : Finset.univ.sup (fun i => if mk i then c i else shift) = mx)
    (hmn : Finset.univ.inf (fun i => if mk i then c i else shift) = mn) :
    colShift c mk useMax =
      (Ideal.log (if ind (decide (mx + mn ≠ shift2)) ≠ 0
          then ∑ i, (if mk i then Ideal.exp (c i - (if useMax then mx else mn)) else 0) else 1)
        + ((if useMax then mx else mn) - shift), ind (decide (mx + mn ≠ shift2))) := by
  subst hmx hmn; rfl

/-- The two spellings of a column agree on real entries: with `σ` the shift, the masked row of the shifted spelling
    is the masked row of the reference spelling plus `σ` entry by entry, so its maximum, minimum and reference point
    are those of the reference spelling plus `σ`; the count test compares the same two reals, the differences inside
    the exponential are equal, and adding the shift back returns the reference point. -/
theorem colShift_eq_colRef (c : Fin 4096 → ℝ) (mk : Fin 4096 → Bool) (useMax : Bool) :
    colShift (fun i => (c i : EReal)) mk useMax
      = ((colRef (fun i => (c i : EReal) - shift) mk useMax).1,
          ind (colRef (fun i => (c i : EReal) - shift) mk useMax).2) := by
  obtain ⟨σ, hσ, hσ2⟩ : ∃ σ : ℝ, shift = (σ : EReal) ∧ shift2 = ((σ + σ : ℝ) : EReal) :=
    ⟨-(13421773 / 2 ^ 22), shift_eq, by rw [shift2_eq]; congr 1; ring⟩
  let mR : Fin 4096 → ℝ := fun i => if mk i then c i - σ else 0
  have hm : ∀ i, ((c i : EReal) - shift) * ind (mk i) = (mR i : EReal) := fun i => by
    cases h : mk i
    · simp [mR, ind, h]
    · simp [mR, ind, h, hσ]
  have hm' : ∀ i, (if mk i then (c i : EReal) else shift) = ((mR i + σ : ℝ) : EReal) := fun i => by
    cases h : mk i
    · simp [mR, h, hσ]
    · simp [mR, h]
  obtain ⟨i0, hi0⟩ := Finite.exists_max mR
  obtain ⟨j0, hj0⟩ := Finite.exists_min mR
  have hmx : Finset.univ.sup (fun i => ((c i : EReal) - shift) * ind (mk i)) = (mR i0 : EReal) := by
    simp only [hm]; exact sup_coe_of_max mR i0 hi0
  have hmn : Finset.univ.inf (fun i => ((c i : EReal) - shift) * ind (mk i)) = (mR j0 : EReal) := by
    simp only [hm]; exact inf_coe_of_min mR j0 hj0
  have hmx' : Finset.univ.sup (fun i => if mk i then (c i : EReal) else shift) = ((mR i0 + σ : ℝ) : EReal) := by
    simp only [hm']; exact sup_coe_of_max (fun i => mR i + σ) i0 fun i => by have := hi0 i; linarith
  have hmn' : Finset.univ.inf (fun i => if mk i then (c i : EReal) else shift) = ((mR j0 + σ : ℝ) : EReal) := by
    simp only [hm']; exact inf_coe_of_min (fun i => mR i + σ) j0 fun i => by have := hj0 i; linarith
  rw [colShift_of _ mk useMax _ _ hmx' hmn', colRef_of _ mk useMax _ _ hmx hmn]
  have hnz : decide (((mR i0 + σ : ℝ) : EReal) + ((mR j0 + σ : ℝ) : EReal) ≠ shift2)
      = decide (((mR i0 : ℝ) : EReal) + ((mR j0 : ℝ) : EReal) ≠ 0) := by
    refine decide_eq_decide.2 (not_congr ?_)
    rw [hσ2, ← EReal.coe_add, ← EReal.coe_add, ← EReal.coe_zero, EReal.coe_eq_coe_iff, EReal.coe_eq_coe_iff]
    constructor <;> intro h <;> linarith
  have hr' : (if useMax then ((mR i0 + σ : ℝ) : EReal) else ((mR j0 + σ : ℝ) : EReal))
      = (((if useMax then mR i0 else mR j0) + σ : ℝ) : EReal) := by
    cases useMax <;> rfl
  have hr : (if useMax then ((mR i0 : ℝ) : EReal) else ((mR j0 : ℝ) : EReal))
      = (((if useMax then mR i0 else mR j0) : ℝ) : EReal) := by
    cases useMax <;> rfl
  rw [hnz, hr', hr]
  generalize (if useMax then mR i0 else mR j0) = ρ
  generalize decide (((mR i0 : ℝ) : EReal) + ((mR j0 : ℝ) : EReal) ≠ 0) = nz
  have hback : ((ρ + σ : ℝ) : EReal) - shift = (ρ : EReal) := by
    rw [hσ, ← EReal.coe_sub, add_sub_cancel_right]
  have hs : ∀ i, (if mk i then Ideal.exp ((c i : EReal) - ((ρ + σ : ℝ) : EReal)) else 0)
      = Ideal.exp ((c i : EReal) - shift - (ρ : EReal)) * ind (mk i) := fun i => by
    cases h : mk i
    · simp [ind]
    · have hd : c i - (ρ + σ) = c i - σ - ρ := by ring
      have h1 : ind true = 1 := rfl
      rw [if_pos rfl, h1, mul_one, hσ, ← EReal.coe_sub, ← EReal.coe_sub, ← EReal.coe_sub, hd]
  simp only [hs, hback]
  cases nz <;> simp [ind]

/-! ## The count flag read back, and the loss -/

/-- One half lies strictly between the two values of the indicator. -/
theorem decide_half_lt_ind (b : Bool) : decide (halfW < ind b) = b := by
  cases b
  · refine decide_eq_false ?_
    rw [halfW_eq]
    show ¬ ((1 / 2 : ℝ) : EReal) < 0
    rw [← EReal.coe_zero, EReal.coe_lt_coe_iff]; norm_num
  · refine decide_eq_true ?_
    rw [halfW_eq]
    show ((1 / 2 : ℝ) : EReal) < 1
    rw [← EReal.coe_one, EReal.coe_lt_coe_iff]; norm_num

section Loss

variable (X : Fin 4096 → Fin 128 → EReal) (P : Fin 16384 → Fin 128 → EReal) (lab : Fin 4096 → BitVec 32)

/-- A positive column in the shifted spelling is the reference column, its count flag as a number. -/
theorem posColShift_eq (h : Admissible X P lab) (j : Fin 4096) :
    posColShift X P lab j = ((posCol X P lab j).1, ind (posCol X P lab j).2) := by
  choose u hu _ using fun i => unit_real (X i) (h.realX i) (h.posX i)
  obtain ⟨p, hp, hp'⟩ := unit_real (P (rowOf (lab j))) (h.realP _) (h.posP _)
  have hc : (fun i => cPos X P lab i j) = fun i => ((∑ d, u i d * (p d * (-32)) : ℝ) : EReal) := by
    funext i; unfold cPos; rw [hu i, hp']; exact (entry_pos (u i) p).1
  have hw : (fun i => wPos X P lab i j) = fun i => ((∑ d, u i d * (p d * (-32)) : ℝ) : EReal) - shift := by
    funext i; unfold wPos; rw [hu i, hp]; exact (entry_pos (u i) p).2
  unfold posColShift posCol
  rw [hc, hw]
  exact colShift_eq_colRef _ _ false

/-- A negative column in the shifted spelling is the reference column, its count flag as a number. -/
theorem negColShift_eq (h : Admissible X P lab) (k : Fin 16384) :
    negColShift X P lab k = ((negCol X P lab k).1, ind (negCol X P lab k).2) := by
  choose u hu _ using fun i => unit_real (X i) (h.realX i) (h.posX i)
  obtain ⟨p, hp, hp'⟩ := unit_real (P k) (h.realP _) (h.posP _)
  have hc : (fun i => cNeg X P i k) = fun i => ((∑ d, u i d * (p d * 32) : ℝ) : EReal) := by
    funext i; unfold cNeg; rw [hu i, hp']; exact (entry_neg (u i) p).1
  have hw : (fun i => wNeg X P i k) = fun i => ((∑ d, u i d * (p d * 32) : ℝ) : EReal) - shift := by
    funext i; unfold wNeg; rw [hu i, hp]; exact (entry_neg (u i) p).2
  unfold negColShift negCol
  rw [hc, hw]
  exact colShift_eq_colRef _ _ true

/-- The loss from the shifted columns is the loss. -/
theorem lossShift_eq_loss (h : Admissible X P lab) : lossShift X P lab = loss X P lab := by
  unfold lossShift loss
  simp only [posColShift_eq X P lab h, negColShift_eq X P lab h, decide_half_lt_ind]

end Loss

end Cert.LossSpec

end
-- ==== Proof.PreDecode.lean ====
/-
  The printed precondition, read back into the hypotheses of the specification.

  The precondition is a conjunction of five tests, each a "for all" over an array: every entry of the batch and every
  entry of the proxy table has absolute value below +∞; every batch row and every proxy row has a sum of squares above
  zero; every label lies in [0, 16384). A conjunction of one-bit words is 1 exactly when each is; a "for all" that is 1
  had a 1 at every index; and at one index each test is a comparison of extended reals, or of 32-bit words, whose
  truth is the corresponding field of the specification's admissibility record.
-/
import proofs.«402344_j24489903522255_3_alg».proof.Proof.Spec
import proofs.«402344_j24489903522255_3_alg».proof.Pre_finite_inputs
import proofs.«402344_j24489903522255_3_alg».proof.Proof.LibERealRows
import Idealize.ShloMosaic.Lib.ReduceAll
import Idealize.ShloMosaic.Lib.ValueIdx
import Idealize.ShloMosaic.Lib.StableHlo.Predicate
import Idealize.ShloMosaic.PureOps.Ideal.Laws

noncomputable section

namespace Cert.PreDecode

open Idealize.ShloMosaic Idealize.ShloMosaic.ValueIdx Cert.LossSpec
open Cert.Pre_finite_inputs (S4096x128 S16384x128 S4096 S16384 S_)

/-- The scalar shape has one index. -/
instance subsingleton_scalarIdx : Subsingleton S_.Idx := ⟨fun a b => funext fun d => d.elim0⟩

/-! ## Finiteness: every entry with |x| < +∞ is a real -/

/-- "All entries have absolute value below +∞" came out 1: then each entry is a real number, because the absolute
    value max x (−x) is +∞ at both infinities. -/
theorem real_of_finite {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant S_ .f32 0x7F800000#32)))
          (constantI S_ 1 1#1) hr h0 ix0 = 1#1)
    (i : s.Idx) : ∃ r : ℝ, x i = (r : EReal) :=
  Cert.ERealRows.real_of_abs_lt_inf (x i) (Host.reduce_andi_all _ _ hr h0 ix0 e i)

/-! ## Row lengths: every row has a positive sum of squares -/

/-- "Every row's sum of squares is above zero" came out 1: the row sum is the initial value 0 plus the sum over the
    128 entries of the row, and the comparison is the strict order of the extended reals. -/
theorem pos_of_rowsums {n : Nat} (x : FVec Ideal ⟨2, ![n, 128]⟩ .f32)
    (hb : S_.BroadcastsInDim ⟨1, ![n]⟩ (![] : Fin 0 → Fin 1))
    (hr' : (⟨2, ![n, 128]⟩ : Shape).ReducesTo [1] ⟨1, ![n]⟩) (hr : (⟨2, ![n, 128]⟩ : Shape).Reduces [1] ⟨1, ![n]⟩)
    (hr0 : (⟨1, ![n]⟩ : Shape).ReducesTo [0] S_) (h0 : 0 < S_.numel)
    (e : Host.reduce IntOp.andi
          (cmpf .ogt (Host.reduceAdd (mulf x x) (constant S_ .f32 0x00000000#32) hr' h0)
            (broadcastInDim ⟨1, ![n]⟩ ![] hb (constant S_ .f32 0x00000000#32)))
          (constantI S_ 1 1#1) hr0 h0 ix0 = 1#1)
    (i : Fin n) : 0 < ∑ d : Fin 128, x (ix2 i d) * x (ix2 i d) := by
  have h1 := Host.reduce_andi_all _ _ hr0 h0 ix0 e (ix1 i)
  have h2 : Ideal.cmp .ogt (Ideal.hostReduceAdd hr' (mulf x x) (Ideal.ofBits .f32 0x00000000#32) (ix1 i))
      (Ideal.ofBits .f32 0x00000000#32) = 1#1 := h1
  rw [Ideal.hostReduceAdd_single hr' hr, Ideal.ofBits_zero_f32, zero_add] at h2
  simp only [Ideal.cmp, StableHlo.Predicate.ofBool_eq_one_iff, decide_eq_true_eq] at h2
  have h3 : 0 < ∑ k : Fin 128, (mulf x x) (hr.lift (ix1 i) k) := h2
  refine lt_of_lt_of_eq h3 (Finset.sum_congr rfl fun k _ => ?_)
  have hk : hr.lift (ix1 i) k = ix2 i k := funext fun a => Fin.ext (by match a with | ⟨0, _⟩ => rfl | ⟨1, _⟩ => rfl)
  rw [hk]; rfl

/-! ## Labels: every label is a row of the table -/

/-- "Every label is at least 0 and below 16384, read signed" came out 1: at one label the two comparisons are the
    signed orders of 32-bit words. -/
theorem range_of_labels (x : IVec S4096 32) (hb : S_.BroadcastsInDim S4096 (![] : Fin 0 → Fin S4096.rank))
    (hr0 : S4096.ReducesTo [0] S_) (h0 : 0 < S_.numel)
    (e : Host.reduce IntOp.andi
          (andi (cmpi .sge x (broadcastInDim S4096 ![] hb (constantI S_ 32 0#32)))
            (cmpi .slt x (broadcastInDim S4096 ![] hb (constantI S_ 32 16384#32))))
          (constantI S_ 1 1#1) hr0 h0 ix0 = 1#1)
    (i : Fin 4096) : (0#32).sle (x (ix1 i)) = true ∧ (x (ix1 i)).slt 16384#32 = true := by
  have h1 := Host.reduce_andi_all _ _ hr0 h0 ix0 e (ix1 i)
  obtain ⟨hge, hlt⟩ := IntOp.andi_eq_one.1 h1
  exact ⟨(StableHlo.Predicate.ofBool_eq_one_iff _).1 hge, (StableHlo.Predicate.ofBool_eq_one_iff _).1 hlt⟩

/-! ## The precondition gives admissibility -/

open Cert.Pre_finite_inputs.Facts in
/-- The printed precondition being all ones gives the five facts the specification asks of its inputs. -/
theorem admissible [Cert.Pre_finite_inputs.Facts]
    (x0 : FVec Ideal Cert.Pre_finite_inputs.S4096x128 .f32) (x1 : FVec Ideal Cert.Pre_finite_inputs.S16384x128 .f32)
    (x2 : IVec Cert.Pre_finite_inputs.S4096 32)
    (h : Cert.Pre_finite_inputs.fn (F := Ideal) x0 x1 x2 = (fun _ => 1#1)) :
    Admissible (fun (i : Fin 4096) (d : Fin 128) => x0 (ix2 i d)) (fun (k : Fin 16384) (d : Fin 128) => x1 (ix2 k d))
      (fun (i : Fin 4096) => x2 (ix1 i)) := by
  have h0 := congrFun h ValueIdx.ix0
  dsimp only [Cert.Pre_finite_inputs.fn, Cert.Pre_finite_inputs.fn_part1] at h0
  obtain ⟨h1234, hL⟩ := IntOp.andi_eq_one.1 h0
  obtain ⟨h123, hP⟩ := IntOp.andi_eq_one.1 h1234
  obtain ⟨h12, hX⟩ := IntOp.andi_eq_one.1 h123
  obtain ⟨hfX, hfP⟩ := IntOp.andi_eq_one.1 h12
  exact {
    realX := fun i d => real_of_finite x0 bcast_S_S4096x128 reducesTo_S4096x128_S_d0_1 h_S_ hfX (ix2 i d)
    realP := fun k d => real_of_finite x1 bcast_S_S16384x128 reducesTo_S16384x128_S_d0_1 h_S_ hfP (ix2 k d)
    posX := fun i => pos_of_rowsums (n := 4096) x0 bcast_S_S4096 reducesTo_S4096x128_S4096_d1 (by decide)
      reducesTo_S4096_S_d0 h_S_ hX i
    posP := fun k => pos_of_rowsums (n := 16384) x1 bcast_S_S16384 reducesTo_S16384x128_S16384_d1 (by decide)
      reducesTo_S16384_S_d0 h_S_ hP k
    labRange := fun i => range_of_labels x2 bcast_S_S4096 reducesTo_S4096_S_d0 h_S_ hL i }

end Cert.PreDecode

end
-- ==== Proof.lean ====
/-
  The certificate: the kernel's program and its jnp reference compute the same loss over the extended reals.

  The loss: every batch row and every proxy row is scaled to unit length; for each of the 4096 positive columns (the
  proxy a batch row's label selects) and each of the 16384 negative columns (every proxy) the similarities of all batch
  rows to the column's proxy are scaled by ∓32, shifted by the margin 0.1, masked by label agreement and reduced by a
  masked log-sum-exp about the masked minimum or maximum; the loss is the mean softplus over the columns that count,
  positive plus negative.

  The reference subtracts the margin from every similarity. The kernel folds the margin into the constant it selects
  where the mask is off, -3.2, which is exactly 32 times the reference's own single-precision 0.1, and adds it back on
  the reduced row: a common additive constant passes through maximum, minimum and the difference inside the exponential,
  so the two spellings of a column agree wherever the similarities are real numbers. That holds under the precondition:
  finite entries, no zero row in the batch or the proxy table (where the reference itself divides 0 by 0), labels that
  are rows of the table (where the reference's gather would otherwise read outside it). The kernel's proxy rows are
  scaled by the reciprocal square root of their squared length, the reference's divided by the square root: the same
  real number for a positive squared length.

  The kernel's program runs its one region over forty grid points, eight for the positive columns and thirty-two for the
  negative ones, each point writing 512 columns of the two result arrays; the host operations after the region take the
  means. Both frames (the word-level program's and the idealized one's) are the same argument at two float families.
  The idealization rewrote nothing, so its sanction is trivial.
-/
import proofs.«402344_j24489903522255_3_alg».proof.Defs
import proofs.«402344_j24489903522255_3_alg».proof.Proof.Gen.Kernel
import proofs.«402344_j24489903522255_3_alg».proof.Proof.Gen.KernelIdeal
import proofs.«402344_j24489903522255_3_alg».proof.Proof.Gen.ReferenceIdeal
import proofs.«402344_j24489903522255_3_alg».proof.Proof.Gen.Pre_finite_inputs
import proofs.«402344_j24489903522255_3_alg».proof.Proof.K.Frame
import proofs.«402344_j24489903522255_3_alg».proof.Proof.KI.Value
import proofs.«402344_j24489903522255_3_alg».proof.Proof.Ref.Run
import proofs.«402344_j24489903522255_3_alg».proof.Proof.Ref.Value
import proofs.«402344_j24489903522255_3_alg».proof.Proof.Bridge
import proofs.«402344_j24489903522255_3_alg».proof.Proof.PreDecode
import Idealize.ShloMosaic.Adequacy
import Idealize.ShloMosaic.Init

noncomputable section

namespace Cert.Proof

open Idealize.ShloMosaic Idealize.ShloMosaic.TcCoe Idealize.SL.Sem Cert.LossSpec

/-- The word-level program runs to the end and leaves its arguments as launched. -/
theorem frame_k : @Cert.frame_Kernel Cert.Kernel.Gen.facts Cert.Pre_finite_inputs.Gen.facts :=
  fun m ρ _ => Cert.Kernel.Hand.frame m ρ

/-- So does the idealized one. -/
theorem frame_ki : @Cert.frame_KernelIdeal Cert.KernelIdeal.Gen.facts Cert.Pre_finite_inputs.Gen.facts :=
  fun m ρ _ => Cert.KernelIdeal.Hand.frame m ρ

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

/-- From memories agreeing on the arguments both programs end with the loss of those arguments: the kernel's at its
    shift-folded spelling, equal to the loss under the precondition; the reference's at the loss itself. -/
theorem algebraic : @Cert.algebraic_KernelIdeal_ReferenceIdeal Cert.KernelIdeal.Gen.facts Cert.ReferenceIdeal.Gen.facts Cert.Pre_finite_inputs.Gen.facts := by
  intro m g m' g' hpre hagree
  have hadm : ∀ c, Admissible (Cert.KernelIdeal.Hand.argX m c) (Cert.KernelIdeal.Hand.argP m c) (Cert.KernelIdeal.Hand.argL m c) :=
    fun c => Cert.PreDecode.admissible _ _ _ (hpre c)
  refine ⟨fun c => (fun _ => loss (Cert.KernelIdeal.Hand.argX m c) (Cert.KernelIdeal.Hand.argP m c) (Cert.KernelIdeal.Hand.argL m c)), ?_, ?_⟩
  · refine (θ_run Cert.KernelIdeal.defs _ _).mono (fun _ h c => ⟨(h c).1.trans ?_, (h c).2⟩)
      (Cert.KernelIdeal.Hand.run_value m g (fun c => (hadm c).labRange))
    exact funext fun _ => lossShift_eq_loss _ _ _ (hadm c)
  · refine (θ_run Cert.ReferenceIdeal.defs _ _).mono (fun _ h c => ⟨(h c).1.trans ?_, (h c).2⟩)
      (Cert.ReferenceIdeal.RefRun.run (F := Ideal) m' g')
    rw [(hagree c).1, (hagree c).2.1, (hagree c).2.2]
    exact Cert.ReferenceIdeal.RefValue.value_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
